-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x50257 : Shape := ⟨2, ![2048, 50257]⟩
abbrev S2048 : Shape := ⟨1, ![2048]⟩
abbrev S_ : Shape := ⟨0, ![]⟩

class Facts : Prop where
  bcast_S_S2048x50257 : S_.BroadcastsInDim S2048x50257 (![] : Fin 0 → Fin S2048x50257.rank)
  reducesTo_S2048x50257_S_d0_1 : S2048x50257.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x50257 .f32) (main_arg1 : IVec S2048 32) : IVec S_ 1 :=
  let main_v0 : FVec F S2048x50257 .f32 := Host.absf main_arg0
  let main_cst : FVec F S_ .f32 := constant S_ .f32 0x7F800000#32
  let main_v1 : FVec F S2048x50257 .f32 := broadcastInDim S2048x50257 ![] bcast_S_S2048x50257 main_cst
  let main_v2 : IVec S2048x50257 1 := cmpf .olt main_v0 main_v1
  let main_c : IVec S_ 1 := constantI S_ 1 1#1
  let main_v3 : IVec S_ 1 := (fun x v => Host.reduce IntOp.andi x v reducesTo_S2048x50257_S_d0_1 h_S_) main_v2 main_c
  let main_c_0 : IVec S_ 32 := constantI S_ 32 0#32
  let main_v4 : IVec S2048 32 := broadcastInDim S2048 ![] bcast_S_S2048 main_c_0
  let main_v5 : IVec S2048 1 := cmpi .sge main_arg1 main_v4
  let main_c_1 : IVec S_ 32 := constantI S_ 32 50257#32
  let main_v6 : IVec S2048 32 := broadcastInDim S2048 ![] bcast_S_S2048 main_c_1
  let main_v7 : IVec S2048 1 := cmpi .slt main_arg1 main_v6
  let main_v8 : IVec S2048 1 := andi main_v5 main_v7
  let main_c_2 : IVec S_ 1 := constantI S_ 1 1#1
  let main_v9 : IVec S_ 1 := (fun x v => Host.reduce IntOp.andi x v reducesTo_S2048_S_d0 h_S_) main_v8 main_c_2
  let main_v10 : IVec S_ 1 := andi main_v3 main_v9
  main_v10
-- ==== Kernel.lean ====
abbrev S2048x50257 : Shape := ⟨2, ![2048, 50257]⟩
abbrev S2048 : Shape := ⟨1, ![2048]⟩
abbrev S2048x1 : Shape := ⟨2, ![2048, 1]⟩
abbrev S512x4096 : Shape := ⟨2, ![512, 4096]⟩
abbrev S512x1 : Shape := ⟨2, ![512, 1]⟩
abbrev S512 : Shape := ⟨1, ![512]⟩
abbrev S_ : Shape := ⟨0, ![]⟩

abbrev nBuf : Space → Nat
  | .hbm => 27
  | .vmem => 10
  | .smem => 0
  | _ => 0

abbrev bufTy : (tb : Table) → Fin (tcTables nBuf tb) → BufTy
  | .hbm, ⟨0, _⟩ => ⟨S2048x50257, .f32⟩
  | .hbm, ⟨1, _⟩ => ⟨S2048, .i32⟩
  | .hbm, ⟨2, _⟩ => ⟨S2048x1, .i32⟩
  | .hbm, ⟨3, _⟩ => ⟨S2048x1, .f32⟩
  | .hbm, ⟨4, _⟩ => ⟨S2048x1, .f32⟩
  | .hbm, ⟨5, _⟩ => ⟨S2048, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S2048, .f32⟩
  | .hbm, ⟨17, _⟩ => ⟨S2048, .f32⟩
  | .hbm, ⟨18, _⟩ => ⟨S2048, .f32⟩
  | .hbm, ⟨19, _⟩ => ⟨S2048, .f32⟩
  | .hbm, ⟨20, _⟩ => ⟨S2048, .f32⟩
  | .hbm, ⟨21, _⟩ => ⟨S2048, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S512x1, .i32⟩
  | .local _ .vmem, ⟨3, _⟩ => ⟨S512x1, .i32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | _, _ => ⟨S2048x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 13], ![false, false]⟩

def k0_cond2 (i : grid0.Coords) : BitVec 1 :=
  let arg1 : BitVec 32 := BitVec.ofNat 32 (i 1).val
  let c12_i32 : BitVec 32 := 12#32
  let v35 : BitVec 1 := Scalar.cmpi .eq arg1 c12_i32
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S2048_S2048x1 : S2048.ShapeCasts S2048x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x4096_S512x4096_0_0 : ∀ a, (![0, 0] : Fin 2 → Nat) a + S512x4096.size a ≤ S512x4096.size a
  h_S512x4096 : 0 < S512x4096.numel
  iota_S512x4096_d1_w32 : S512x4096.Iotas .tc 32 [1]
  reduces_S512x4096_S512 : S512x4096.Reduces [1] S512
  shapeCasts_S512_S512x1 : S512.ShapeCasts S512x1
  broadcasts_S512x1_S512x4096 : S512x1.Broadcasts S512x4096
  shapeCasts_S2048x1_S2048 : S2048x1.ShapeCasts S2048
  bcast_S_S2048 : S_.BroadcastsInDim S2048 (![] : Fin 0 → Fin S2048.rank)
  reducesTo_S2048_S_d0 : S2048.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x4096.size a < S2048x50257.size a
  hwx0_0 : ∀ i : grid0.Coords, EltTy.bits .f32 = 32 ∨ (Rect.unit (s := S2048x50257) (fun a => cc0_transform_0 i a * S512x4096.size a) (fun a => (Pipeline.Clip.of (cc0_transform_0 i a) (S512x4096.size a) (S2048x50257.size a)).extent (S512x4096.size a)) fun a => Pipeline.Clip.inb (Pipeline.Clip.ok_of (hstart0_0 i a))).WholeWords (EltTy.packing .f32)
  hwxs0_0 : ∀ i : grid0.Coords, EltTy.bits .f32 = 32 ∨ (Rect.unit (s := S512x4096) (fun _ => 0) (fun a => (Pipeline.Clip.of (cc0_transform_0 i a) (S512x4096.size a) (S2048x50257.size a)).extent (S512x4096.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S2048x1.size a
  hwx0_1 : ∀ i : grid0.Coords, EltTy.bits .i32 = 32 ∨ (Rect.block (s := S2048x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S2048x1.size a
  hwx0_2 : ∀ i : grid0.Coords, EltTy.bits .f32 = 32 ∨ (Rect.block (s := S2048x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S2048x1.size a
  hwx0_3 : ∀ i : grid0.Coords, EltTy.bits .f32 = 32 ∨ (Rect.block (s := S2048x1) S512x1.size (cc0_transform_3 i) (hinb0_3 i)).WholeWords (EltTy.packing .f32)

variable [Facts₀]

abbrev win0_0 : Pipeline.Window sig grid0 :=
  Pipeline.Window.ofSpecClip (Memref.whole main_arg0) S512x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x50257 : Shape := ⟨2, ![2048, 50257]⟩
abbrev S2048 : Shape := ⟨1, ![2048]⟩
abbrev S_ : Shape := ⟨0, ![]⟩
abbrev S2048x1 : Shape := ⟨2, ![2048, 1]⟩
abbrev S2048x2 : Shape := ⟨2, ![2048, 2]⟩

abbrev nBuf : Space → Nat
  | .hbm => 47
  | .vmem => 0
  | .smem => 0
  | _ => 0

abbrev bufTy : (tb : Table) → Fin (tcTables nBuf tb) → BufTy
  | .hbm, ⟨0, _⟩ => ⟨S2048x50257, .f32⟩
  | .hbm, ⟨1, _⟩ => ⟨S2048, .i32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i1⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S_, .i32⟩
  | .hbm, ⟨11, _⟩ => ⟨S2048, .i32⟩
  | .hbm, ⟨12, _⟩ => ⟨S2048, .i1⟩
  | .hbm, ⟨13, _⟩ => ⟨S_, .i32⟩
  | .hbm, ⟨14, _⟩ => ⟨S2048, .i32⟩
  | .hbm, ⟨15, _⟩ => ⟨S2048, .i32⟩
  | .hbm, ⟨16, _⟩ => ⟨S2048, .i32⟩
  | .hbm, ⟨17, _⟩ => ⟨S2048x1, .i32⟩
  | .hbm, ⟨18, _⟩ => ⟨S2048x1, .i32⟩
  | .hbm, ⟨19, _⟩ => ⟨S2048x2, .i32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S_, .f32⟩
  | .hbm, ⟨28, _⟩ => ⟨S2048x50257, .f32⟩
  | .hbm, ⟨29, _⟩ => ⟨S2048x50257, .f32⟩
  | .hbm, ⟨30, _⟩ => ⟨S2048x50257, .f32⟩
  | .hbm, ⟨31, _⟩ => ⟨S_, .f32⟩
  | .hbm, ⟨32, _⟩ => ⟨S2048, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S2048, .f32⟩
  | .hbm, ⟨37, _⟩ => ⟨S2048, .f32⟩
  | .hbm, ⟨38, _⟩ => ⟨S2048, .f32⟩
  | .hbm, ⟨39, _⟩ => ⟨S2048, .f32⟩
  | .hbm, ⟨40, _⟩ => ⟨S2048, .f32⟩
  | .hbm, ⟨41, _⟩ => ⟨S2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S2048x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  bcast_S_S2048x50257 : S_.BroadcastsInDim S2048x50257 (![] : Fin 0 → Fin S2048x50257.rank)
  reducesTo_S2048x50257_S2048_d1 : S2048x50257.ReducesTo [1] S2048
  h_S_ : 0 < S_.numel
  reducesTo_S2048_S_d0 : S2048.ReducesTo [0] S_
  gather_S2048x50257_S2048x2_S2048_n_01_n_n_01_1_11_wf : GatherDims.WF S2048x50257 S2048x2 S2048 [] [0, 1] [] [0, 1] [] 1 ![1, 1]

variable [Facts₀]

def gather_S2048x50257_S2048x2_S2048_n_01_n_n_01_1_11 : GatherDims S2048x50257 S2048x2 S2048 where
  offsetDims := []
  collapsedSliceDims := [0, 1]
  operandBatchingDims := []
  startIndicesBatchingDims := []
  startIndexMap := [0, 1]
  indexVectorDim := 1
  sliceSizes := ![1, 1]
  wf := gather_S2048x50257_S2048x2_S2048_n_01_n_n_01_1_11_wf

class Facts : Prop extends Facts₀ where

variable [Facts]
-- ==== Proof.K.Cases.lean ====
/-
  What the three control cases of the kernel body share.

  The body branches twice on the column-block coordinate `j` of the grid point: at `j = 0` it first stores zeros
  into its two scratch sums; at `j = 12`, the last block, it finally copies the two sums into the two output blocks.
  Walking the 52 points row tile by row tile, `j = t % 13`, so a point is in exactly one of three cases:
    first   (`t % 13 = 0`):   reset, then accumulate;
    middle  (`0 < t % 13 < 12`): accumulate;
    last    (`t % 13 = 12`):  accumulate, then copy out.
  The two output windows are stored into only in the last case; at every other point they are idle and are not
  written back. The two scratch buffers are the kernel's own: the pipeline stages neither.
-/
import proofs.«429971_j51582557225658_3_alg».proof.Proof.Gen.Kernel.Frame
import proofs.«429971_j51582557225658_3_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The two branch conditions, from the grid coordinates -/

/-- The body's first branch (`j = 0`), as the kernel computes it from the point's second coordinate. -/
abbrev firstBlock (i : grid0.Coords) : Prop :=
  (Scalar.cmpi .ne (Scalar.extui (Scalar.cmpi .eq (BitVec.ofNat 32 (i 1).val) 0#32)) 0#32) = 1#1
/-- It is taken exactly at the first column block of each row tile. -/
theorem firstBlock_iff : ∀ t : Fin cfg0.N, firstBlock (grid0.coords t) ↔ t.val % 13 = 0 :=
  (by decide +kernel : ∀ t : Fin grid0.N, firstBlock (grid0.coords t) ↔ t.val % 13 = 0)

/-- The body's second branch (`j = 12`). -/
abbrev lastBlock (i : grid0.Coords) : Prop := k0_cond2 i = 1#1
/-- It is taken exactly at the last column block of each row tile. -/
theorem lastBlock_iff : ∀ t : Fin cfg0.N, lastBlock (grid0.coords t) ↔ t.val % 13 = 12 :=
  (by decide +kernel : ∀ t : Fin grid0.N, lastBlock (grid0.coords t) ↔ t.val % 13 = 12)

/-! ## Where the windows are idle, and where the outputs are written back -/

/-- The two input windows are never idle. -/
theorem live_x : ∀ t : Fin cfg0.N, cfg0.idle 0 (grid0.coords t) = false := by decide +kernel
theorem live_lab : ∀ t : Fin cfg0.N, cfg0.idle 1 (grid0.coords t) = false := by decide +kernel
/-- Off the last column block the two output windows are idle and are not written back. -/
theorem idle_sum : ∀ t : Fin cfg0.N, ¬lastBlock (grid0.coords t) → cfg0.idle 2 (grid0.coords t) = true := by decide +kernel
theorem idle_logit : ∀ t : Fin cfg0.N, ¬lastBlock (grid0.coords t) → cfg0.idle 3 (grid0.coords t) = true := by decide +kernel
theorem noFlush_sum : ∀ t : Fin cfg0.N, ¬lastBlock (grid0.coords t) → (cfg0.win 2).flush t = false := by decide +kernel
theorem noFlush_logit : ∀ t : Fin cfg0.N, ¬lastBlock (grid0.coords t) → (cfg0.win 3).flush t = false := by decide +kernel
/-- At the last column block they are live. -/
theorem live_sum : ∀ t : Fin cfg0.N, lastBlock (grid0.coords t) → cfg0.idle 2 (grid0.coords t) = false := by decide +kernel
theorem live_logit : ∀ t : Fin cfg0.N, lastBlock (grid0.coords t) → cfg0.idle 3 (grid0.coords t) = false := by decide +kernel

/-! ## The memrefs the body is called with -/

/-- Each window's current staging memref at point `t`, as the pipeline passes it, and its wholeness. -/
abbrev xM (t : Fin cfg0.N) : Memref sig .tc .vmem S512x4096 .f32 := win0_0.stage (cfg0.slots t 0)
abbrev hxM (t : Fin cfg0.N) : (xM t).IsWhole := hstage0_0 ((cfg0.slots t 0).cast nbuf0_0)
abbrev labM (t : Fin cfg0.N) : Memref sig .tc .vmem S512x1 .i32 := win0_1.stage (cfg0.slots t 1)
abbrev hlabM (t : Fin cfg0.N) : (labM t).IsWhole := hstage0_1 ((cfg0.slots t 1).cast nbuf0_1)
abbrev sumM (t : Fin cfg0.N) : Memref sig .tc .vmem S512x1 .f32 := win0_2.stage (cfg0.slots t 2)
abbrev hsumM (t : Fin cfg0.N) : (sumM t).IsWhole := hstage0_2 ((cfg0.slots t 2).cast nbuf0_2)
abbrev logitM (t : Fin cfg0.N) : Memref sig .tc .vmem S512x1 .f32 := win0_3.stage (cfg0.slots t 3)
abbrev hlogitM (t : Fin cfg0.N) : (logitM t).IsWhole := hstage0_3 ((cfg0.slots t 3).cast nbuf0_3)
/-- The two scratch sums: whole scoped buffers of the kernel's own. -/
abbrev accM : Memref sig .tc .vmem S512x1 .f32 := Memref.whole cc0_scratch0
abbrev laccM : Memref sig .tc .vmem S512x1 .f32 := Memref.whole cc0_scratch1
/-- Views through which what a 512×1 buffer holds is stated (which buffer does not matter: a cover is read back). -/
abbrev accV : View sig .tc .vmem S512x1 .f32 := accM.view
abbrev laccV : View sig .tc .vmem S512x1 .f32 := laccM.view
abbrev outV : View sig .tc .vmem S512x1 .f32 := (Memref.whole cc0_stg2_0 : Memref sig .tc .vmem S512x1 .f32).view

/-- What the launch hands the region and takes back: the two scratch sums owned whole at some contents, and the
    generator register at some state. -/
theorem PhiA_eq (c : Dev nD) :
    (Pipeline.ΦA spec0 c : sProp 𝕄)
      = iprop(iprop((∃ d, owns (c : Thread nD τ) accM fullShare d) ∗ (∃ d, owns (c : Thread nD τ) laccM fullShare d)) ∗ (∃ r, prngReg c r)) := by
  unfold Pipeline.ΦA; rw [scopedRest0_eq]; simp only [accM, laccM, owns_whole]; try rfl

end Cert.Kernel.Body

end
-- ==== Proof.K.Run.First.lean ====
/-
  The kernel body at the first column block of a row tile (`j = 0`).

  It stores zeros into both scratch sums, loads the logits block and the labels, adds the block's lane sums to the
  zeros and stores the two results back into the scratch; the second branch is not taken, so the two output buffers
  are never touched. On whole memrefs — the logits block at `x0`, the labels at `x1`, the outputs at whatever they
  hold, the scratch at anything — the body runs to its continuation with the inputs and outputs as they were and
  each scratch holding the pieces its stores wrote; which pieces is what the run finds.
-/
import proofs.«429971_j51582557225658_3_alg».proof.Proof.K.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
/-- The body's run at a first column block: the pieces left in the two scratch sums, with the triple. -/
noncomputable def runFirst (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : firstBlock i) (hc1 : ¬lastBlock i) (x0 : Vec F S512x4096 .f32) (x1 : Vec F S512x1 .i32) :
    Σ' (LA : List (View.Piece (Elt F) S512x1 .f32)), { LL : List (View.Piece (Elt F) S512x1 .f32) //
      ∀ (o2 o3 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare o2 ∗ owns (c : Thread nD τ) arg5 fullShare o3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare o2 ∗ owns (c : Thread nD τ) arg5 fullShare o3
                ∗ (∃ f, arg6.view.loc (c : Thread nD τ) ↦[arg6.view.set]{fullShare} arg6.view.writes (Elt F) f LA)
                ∗ (∃ f, arg7.view.loc (c : Thread nD τ) ↦[arg7.view.set]{fullShare} arg7.view.writes (Elt F) f LL)) -∗ K ⟨⟩))
          ⊢ wp frame (wpE (defs₀ (F := F)) Variants.none c none) E (cc0__sumexp_label_kernel i arg2 harg2 arg3 harg3 arg4 harg4 arg5 harg5 arg6 harg6 arg7 harg7) K } := by
  refine ⟨?_, ?_, fun o2 o3 E K => ?run⟩
  case run =>
    simp only [cc0__sumexp_label_kernel_eq_skeleton]; unfold cc0__sumexp_label_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%da, %fa, -, HA⟩, ⟨%dl, %fl, -, HL⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HA]
    · iexists _; iexact HA
    iexists _; iexact HL

end Cert.Kernel.Body

end
-- ==== Proof.K.Run.Middle.lean ====
/-
  The kernel body at a column block that is neither the first nor the last of its row tile (`0 < j < 12`).

  Neither branch is taken: it loads the logits block, the labels and the two scratch sums, adds the block's lane sums
  and stores the two results back. On whole memrefs — the scratch sums at the contents `a0`, `l0` the point before
  left — it runs to its continuation with inputs and outputs as they were and each scratch holding the piece its one
  store wrote.
-/
import proofs.«429971_j51582557225658_3_alg».proof.Proof.K.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
/-- The body's run at a middle column block: the pieces left in the two scratch sums, with the triple. -/
noncomputable def runMiddle (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬firstBlock i) (hc1 : ¬lastBlock i) (x0 : Vec F S512x4096 .f32) (x1 : Vec F S512x1 .i32) (a0 l0 : Vec F S512x1 .f32) :
    Σ' (LA : List (View.Piece (Elt F) S512x1 .f32)), { LL : List (View.Piece (Elt F) S512x1 .f32) //
      ∀ (o2 o3 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare o2 ∗ owns (c : Thread nD τ) arg5 fullShare o3
            ∗ owns (c : Thread nD τ) arg6 fullShare a0 ∗ owns (c : Thread nD τ) arg7 fullShare l0
            ∗ (iprop(owns (c : Thread nD τ) arg2 fullShare x0 ∗ owns (c : Thread nD τ) arg3 fullShare x1 ∗ owns (c : Thread nD τ) arg4 fullShare o2 ∗ owns (c : Thread nD τ) arg5 fullShare o3
                ∗ (∃ f, arg6.view.loc (c : Thread nD τ) ↦[arg6.view.set]{fullShare} arg6.view.writes (Elt F) f LA)
                ∗ (∃ f, arg7.view.loc (c : Thread nD τ) ↦[arg7.view.set]{fullShare} arg7.view.writes (Elt F) f LL)) -∗ K ⟨⟩))
          ⊢ wp frame (wpE (defs₀ (F := F)) Variants.none c none) E (cc0__sumexp_label_kernel i arg2 harg2 arg3 harg3 arg4 harg4 arg5 harg5 arg6 harg6 arg7 harg7) K } := by
  refine ⟨?_, ?_, fun o2 o3 E K => ?run⟩
  case run =>
    simp only [cc0__sumexp_label_kernel_eq_skeleton]; unfold cc0__sumexp_label_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fa, %hfa, HA⟩, ⟨%fl, %hfl, HL⟩, Hk⟩
    obtain rfl := harg2.eq_unread hf0; obtain rfl := harg3.eq_unread hf1
    obtain rfl := harg4.eq_unread hf2; obtain rfl := harg5.eq_unread hf3
    obtain rfl := harg6.eq_unread hfa; obtain rfl := harg7.eq_unread hfl
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HA]
    · iexists _; iexact HA
    iexists _; iexact HL

end Cert.Kernel.Body

end
-- ==== Proof.K.Run.Last.lean ====
/-
  The kernel body at the last column block of a row tile (`j = 12`).

  The first branch is not taken; it accumulates as at a middle block, and then the second branch copies the two
  scratch sums into the two output buffers. On whole memrefs — the scratch sums at the contents `a0`, `l0` the point
  before left, the outputs at anything — it runs to its continuation with the inputs as they were and each output
  and each scratch holding the pieces its stores wrote.
-/
import proofs.«429971_j51582557225658_3_alg».proof.Proof.K.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
/-- The body's run at a last column block: the pieces left in the two outputs and the two scratch sums, with the triple. -/
noncomputable def runLast (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬firstBlock i) (hc1 : lastBlock i) (x0 : Vec F S512x4096 .f32) (x1 : Vec F S512x1 .i32) (a0 l0 : Vec F S512x1 .f32) :
    Σ' (LS : List (View.Piece (Elt F) S512x1 .f32)) (LG : List (View.Piece (Elt F) S512x1 .f32))
       (LA : List (View.Piece (Elt F) S512x1 .f32)), { LL : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ owns (c : Thread nD τ) arg6 fullShare a0 ∗ owns (c : Thread nD τ) arg7 fullShare l0
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LS)
                ∗ (∃ f, arg5.view.loc (c : Thread nD τ) ↦[arg5.view.set]{fullShare} arg5.view.writes (Elt F) f LG)
                ∗ (∃ f, arg6.view.loc (c : Thread nD τ) ↦[arg6.view.set]{fullShare} arg6.view.writes (Elt F) f LA)
                ∗ (∃ f, arg7.view.loc (c : Thread nD τ) ↦[arg7.view.set]{fullShare} arg7.view.writes (Elt F) f LL)) -∗ K ⟨⟩))
          ⊢ wp frame (wpE (defs₀ (F := F)) Variants.none c none) E (cc0__sumexp_label_kernel i arg2 harg2 arg3 harg3 arg4 harg4 arg5 harg5 arg6 harg6 arg7 harg7) K } := by
  refine ⟨?_, ?_, ?_, ?_, fun E K => ?run⟩
  case run =>
    simp only [cc0__sumexp_label_kernel_eq_skeleton]; unfold cc0__sumexp_label_kernel_skel
    simp only [k0_part1_eq_skeleton]; unfold k0_part1_skel
    unfold owns
    iintro ⟨⟨%f0, %hf0, H0⟩, ⟨%f1, %hf1, H1⟩, ⟨%d2, %f2, -, H2⟩, ⟨%d3, %f3, -, H3⟩, ⟨%fa, %hfa, HA⟩, ⟨%fl, %hfl, HL⟩, Hk⟩
    obtain rfl := harg2.eq_unread hf0; obtain rfl := harg3.eq_unread hf1
    obtain rfl := harg6.eq_unread hfa; obtain rfl := harg7.eq_unread hfl
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    isplitl [HA]
    · iexists _; iexact HA
    iexists _; iexact HL

end Cert.Kernel.Body

end
-- ==== Proof.K.Frame.Pieces.lean ====
/-
  What each control case leaves in the buffers it writes, as the body's named values.

  A case's run finds, for each buffer it stores into, the list of pieces written (last first). Every store here is a
  whole 512 × 1 block, so the last one alone covers the buffer and what is read back is its value: the new sum of
  scaled exponentials or the new own-class logit, computed from the logits block, the labels, and the sum so far —
  the stored zeros at a first column block (read back through the load that follows the zeroing store), the carried
  contents otherwise. At a last column block the two outputs receive what was just stored into the two scratch sums.
-/
import proofs.«429971_j51582557225658_3_alg».proof.Proof.K.Run.First
import proofs.«429971_j51582557225658_3_alg».proof.Proof.K.Run.Middle
import proofs.«429971_j51582557225658_3_alg».proof.Proof.K.Run.Last
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- At a first column block the stores into the first scratch sum cover it. -/
theorem first_acc_cover (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : firstBlock i) (hc1 : ¬lastBlock i) (x0 : Vec F S512x4096 .f32) (x1 : Vec F S512x1 .i32) (y : S512x1.Idx) :
    ∃ pc ∈ (runFirst c i arg2 harg2 arg3 harg3 arg4 harg4 arg5 harg5 arg6 harg6 arg7 harg7 hc0 hc1 x0 x1).1, y ∈ pc.1.set :=
  View.cover_of_tiledL (runFirst c i arg2 harg2 arg3 harg3 arg4 harg4 arg5 harg5 arg6 harg6 arg7 harg7 hc0 hc1 x0 x1).1 S512x1.size (by sl_kernel_rfl) y

/-- and leave the block's lane sums of scaled exponentials added to the stored zeros. -/
theorem first_acc_eq (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : firstBlock i) (hc1 : ¬lastBlock i) (x0 : Vec F S512x4096 .f32) (x1 : Vec F S512x1 .i32) :
    accV.read (Elt F) (accV.writes (Elt F) accV.junk (runFirst c i arg2 harg2 arg3 harg3 arg4 harg4 arg5 harg5 arg6 harg6 arg7 harg7 hc0 hc1 x0 x1).1)
      = k0_pay4 i x0 k0_pay1 := by
  rw [View.read_writes_eq_canon _ _ _ (first_acc_cover c i arg2 harg2 arg3 harg3 arg4 harg4 arg5 harg5 arg6 harg6 arg7 harg7 hc0 hc1 x0 x1)]
  unfold runFirst
  dsimp only
  sl_unfold_words
  have hz : (![0, 0] : Fin 2 → Nat) = fun _ => 0 := funext fun a => by fin_cases a <;> rfl
  rw [View.canon_cons_unit_zero (S := S512x1) hz]
  simp only [View.readAt_eq_ld, harg2.read_unread, harg3.read_unread, harg6.read_unread, harg7.read_unread,
    View.ld_unit_zero (S := S512x4096) hz, View.ld_unit_zero (S := S512x1) hz, View.readCov_unit_zero (S := S512x1) _ hz]

/-- Likewise the second scratch sum: -/
theorem first_lacc_cover (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : firstBlock i) (hc1 : ¬lastBlock i) (x0 : Vec F S512x4096 .f32) (x1 : Vec F S512x1 .i32) (y : S512x1.Idx) :
    ∃ pc ∈ (runFirst c i arg2 harg2 arg3 harg3 arg4 harg4 arg5 harg5 arg6 harg6 arg7 harg7 hc0 hc1 x0 x1).2.1, y ∈ pc.1.set :=
  View.cover_of_tiledL (runFirst c i arg2 harg2 arg3 harg3 arg4 harg4 arg5 harg5 arg6 harg6 arg7 harg7 hc0 hc1 x0 x1).2.1 S512x1.size (by sl_kernel_rfl) y

/-- it is left at the block's own-class entries added to the stored zeros. -/
theorem first_lacc_eq (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : firstBlock i) (hc1 : ¬lastBlock i) (x0 : Vec F S512x4096 .f32) (x1 : Vec F S512x1 .i32) :
    laccV.read (Elt F) (laccV.writes (Elt F) laccV.junk (runFirst c i arg2 harg2 arg3 harg3 arg4 harg4 arg5 harg5 arg6 harg6 arg7 harg7 hc0 hc1 x0 x1).2.1)
      = k0_pay5 i x0 x1 k0_pay2 := by
  rw [View.read_writes_eq_canon _ _ _ (first_lacc_cover c i arg2 harg2 arg3 harg3 arg4 harg4 arg5 harg5 arg6 harg6 arg7 harg7 hc0 hc1 x0 x1)]
  unfold runFirst
  dsimp only
  sl_unfold_words
  have hz : (![0, 0] : Fin 2 → Nat) = fun _ => 0 := funext fun a => by fin_cases a <;> rfl
  rw [View.canon_cons_unit_zero (S := S512x1) hz]
  simp only [View.readAt_eq_ld, harg2.read_unread, harg3.read_unread, harg6.read_unread, harg7.read_unread,
    View.ld_unit_zero (S := S512x4096) hz, View.ld_unit_zero (S := S512x1) hz, View.readCov_unit_zero (S := S512x1) _ hz]

/-- At a middle column block the one store into the first scratch sum covers it, -/
theorem middle_acc_cover (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬firstBlock i) (hc1 : ¬lastBlock i) (x0 : Vec F S512x4096 .f32) (x1 : Vec F S512x1 .i32) (a0 l0 : Vec F S512x1 .f32) (y : S512x1.Idx) :
    ∃ pc ∈ (runMiddle c i arg2 harg2 arg3 harg3 arg4 harg4 arg5 harg5 arg6 harg6 arg7 harg7 hc0 hc1 x0 x1 a0 l0).1, y ∈ pc.1.set :=
  View.cover_of_tiledL (runMiddle c i arg2 harg2 arg3 harg3 arg4 harg4 arg5 harg5 arg6 harg6 arg7 harg7 hc0 hc1 x0 x1 a0 l0).1 S512x1.size (by sl_kernel_rfl) y

/-- leaving the block's lane sums added to the carried sum. -/
theorem middle_acc_eq (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬firstBlock i) (hc1 : ¬lastBlock i) (x0 : Vec F S512x4096 .f32) (x1 : Vec F S512x1 .i32) (a0 l0 : Vec F S512x1 .f32) :
    accV.read (Elt F) (accV.writes (Elt F) accV.junk (runMiddle c i arg2 harg2 arg3 harg3 arg4 harg4 arg5 harg5 arg6 harg6 arg7 harg7 hc0 hc1 x0 x1 a0 l0).1)
      = k0_pay4 i x0 a0 := by
  rw [View.read_writes_eq_canon _ _ _ (middle_acc_cover c i arg2 harg2 arg3 harg3 arg4 harg4 arg5 harg5 arg6 harg6 arg7 harg7 hc0 hc1 x0 x1 a0 l0)]
  unfold runMiddle
  dsimp only
  sl_unfold_words
  have hz : (![0, 0] : Fin 2 → Nat) = fun _ => 0 := funext fun a => by fin_cases a <;> rfl
  rw [View.canon_cons_unit_zero (S := S512x1) hz]
  simp only [View.readAt_eq_ld, harg2.read_unread, harg3.read_unread, harg6.read_unread, harg7.read_unread,
    View.ld_unit_zero (S := S512x4096) hz, View.ld_unit_zero (S := S512x1) hz, View.readCov_unit_zero (S := S512x1) _ hz]

/-- and the one store into the second covers it, -/
theorem middle_lacc_cover (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬firstBlock i) (hc1 : ¬lastBlock i) (x0 : Vec F S512x4096 .f32) (x1 : Vec F S512x1 .i32) (a0 l0 : Vec F S512x1 .f32) (y : S512x1.Idx) :
    ∃ pc ∈ (runMiddle c i arg2 harg2 arg3 harg3 arg4 harg4 arg5 harg5 arg6 harg6 arg7 harg7 hc0 hc1 x0 x1 a0 l0).2.1, y ∈ pc.1.set :=
  View.cover_of_tiledL (runMiddle c i arg2 harg2 arg3 harg3 arg4 harg4 arg5 harg5 arg6 harg6 arg7 harg7 hc0 hc1 x0 x1 a0 l0).2.1 S512x1.size (by sl_kernel_rfl) y

/-- leaving the block's own-class entries added to the carried logit. -/
theorem middle_lacc_eq (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬firstBlock i) (hc1 : ¬lastBlock i) (x0 : Vec F S512x4096 .f32) (x1 : Vec F S512x1 .i32) (a0 l0 : Vec F S512x1 .f32) :
    laccV.read (Elt F) (laccV.writes (Elt F) laccV.junk (runMiddle c i arg2 harg2 arg3 harg3 arg4 harg4 arg5 harg5 arg6 harg6 arg7 harg7 hc0 hc1 x0 x1 a0 l0).2.1)
      = k0_pay5 i x0 x1 l0 := by
  rw [View.read_writes_eq_canon _ _ _ (middle_lacc_cover c i arg2 harg2 arg3 harg3 arg4 harg4 arg5 harg5 arg6 harg6 arg7 harg7 hc0 hc1 x0 x1 a0 l0)]
  unfold runMiddle
  dsimp only
  sl_unfold_words
  have hz : (![0, 0] : Fin 2 → Nat) = fun _ => 0 := funext fun a => by fin_cases a <;> rfl
  rw [View.canon_cons_unit_zero (S := S512x1) hz]
  simp only [View.readAt_eq_ld, harg2.read_unread, harg3.read_unread, harg6.read_unread, harg7.read_unread,
    View.ld_unit_zero (S := S512x4096) hz, View.ld_unit_zero (S := S512x1) hz, View.readCov_unit_zero (S := S512x1) _ hz]

/-- At a last column block the copy into the first output covers it, -/
theorem last_sum_cover (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬firstBlock i) (hc1 : lastBlock i) (x0 : Vec F S512x4096 .f32) (x1 : Vec F S512x1 .i32) (a0 l0 : Vec F S512x1 .f32) (y : S512x1.Idx) :
    ∃ pc ∈ (runLast c i arg2 harg2 arg3 harg3 arg4 harg4 arg5 harg5 arg6 harg6 arg7 harg7 hc0 hc1 x0 x1 a0 l0).1, y ∈ pc.1.set :=
  View.cover_of_tiledL (runLast c i arg2 harg2 arg3 harg3 arg4 harg4 arg5 harg5 arg6 harg6 arg7 harg7 hc0 hc1 x0 x1 a0 l0).1 S512x1.size (by sl_kernel_rfl) y

/-- leaving the sum just stored into the first scratch. -/
theorem last_sum_eq (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬firstBlock i) (hc1 : lastBlock i) (x0 : Vec F S512x4096 .f32) (x1 : Vec F S512x1 .i32) (a0 l0 : Vec F S512x1 .f32) :
    outV.read (Elt F) (outV.writes (Elt F) outV.junk (runLast c i arg2 harg2 arg3 harg3 arg4 harg4 arg5 harg5 arg6 harg6 arg7 harg7 hc0 hc1 x0 x1 a0 l0).1)
      = k0_pay4 i x0 a0 := by
  rw [View.read_writes_eq_canon _ _ _ (last_sum_cover c i arg2 harg2 arg3 harg3 arg4 harg4 arg5 harg5 arg6 harg6 arg7 harg7 hc0 hc1 x0 x1 a0 l0)]
  unfold runLast
  dsimp only
  sl_unfold_words
  have hz : (![0, 0] : Fin 2 → Nat) = fun _ => 0 := funext fun a => by fin_cases a <;> rfl
  rw [View.canon_cons_unit_zero (S := S512x1) hz]
  simp only [View.readAt_eq_ld, harg2.read_unread, harg3.read_unread, harg6.read_unread, harg7.read_unread,
    View.ld_unit_zero (S := S512x4096) hz, View.ld_unit_zero (S := S512x1) hz, View.readCov_unit_zero (S := S512x1) _ hz]

/-- the copy into the second output covers it, -/
theorem last_logit_cover (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬firstBlock i) (hc1 : lastBlock i) (x0 : Vec F S512x4096 .f32) (x1 : Vec F S512x1 .i32) (a0 l0 : Vec F S512x1 .f32) (y : S512x1.Idx) :
    ∃ pc ∈ (runLast c i arg2 harg2 arg3 harg3 arg4 harg4 arg5 harg5 arg6 harg6 arg7 harg7 hc0 hc1 x0 x1 a0 l0).2.1, y ∈ pc.1.set :=
  View.cover_of_tiledL (runLast c i arg2 harg2 arg3 harg3 arg4 harg4 arg5 harg5 arg6 harg6 arg7 harg7 hc0 hc1 x0 x1 a0 l0).2.1 S512x1.size (by sl_kernel_rfl) y

/-- leaving the logit just stored into the second scratch. -/
theorem last_logit_eq (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬firstBlock i) (hc1 : lastBlock i) (x0 : Vec F S512x4096 .f32) (x1 : Vec F S512x1 .i32) (a0 l0 : Vec F S512x1 .f32) :
    outV.read (Elt F) (outV.writes (Elt F) outV.junk (runLast c i arg2 harg2 arg3 harg3 arg4 harg4 arg5 harg5 arg6 harg6 arg7 harg7 hc0 hc1 x0 x1 a0 l0).2.1)
      = k0_pay5 i x0 x1 l0 := by
  rw [View.read_writes_eq_canon _ _ _ (last_logit_cover c i arg2 harg2 arg3 harg3 arg4 harg4 arg5 harg5 arg6 harg6 arg7 harg7 hc0 hc1 x0 x1 a0 l0)]
  unfold runLast
  dsimp only
  sl_unfold_words
  have hz : (![0, 0] : Fin 2 → Nat) = fun _ => 0 := funext fun a => by fin_cases a <;> rfl
  rw [View.canon_cons_unit_zero (S := S512x1) hz]
  simp only [View.readAt_eq_ld, harg2.read_unread, harg3.read_unread, harg6.read_unread, harg7.read_unread,
    View.ld_unit_zero (S := S512x4096) hz, View.ld_unit_zero (S := S512x1) hz, View.readCov_unit_zero (S := S512x1) _ hz]

/-- and the two scratch sums are stored as at a middle block: -/
theorem last_acc_cover (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬firstBlock i) (hc1 : lastBlock i) (x0 : Vec F S512x4096 .f32) (x1 : Vec F S512x1 .i32) (a0 l0 : Vec F S512x1 .f32) (y : S512x1.Idx) :
    ∃ pc ∈ (runLast c i arg2 harg2 arg3 harg3 arg4 harg4 arg5 harg5 arg6 harg6 arg7 harg7 hc0 hc1 x0 x1 a0 l0).2.2.1, y ∈ pc.1.set :=
  View.cover_of_tiledL (runLast c i arg2 harg2 arg3 harg3 arg4 harg4 arg5 harg5 arg6 harg6 arg7 harg7 hc0 hc1 x0 x1 a0 l0).2.2.1 S512x1.size (by sl_kernel_rfl) y

/-- the first, -/
theorem last_acc_eq (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬firstBlock i) (hc1 : lastBlock i) (x0 : Vec F S512x4096 .f32) (x1 : Vec F S512x1 .i32) (a0 l0 : Vec F S512x1 .f32) :
    accV.read (Elt F) (accV.writes (Elt F) accV.junk (runLast c i arg2 harg2 arg3 harg3 arg4 harg4 arg5 harg5 arg6 harg6 arg7 harg7 hc0 hc1 x0 x1 a0 l0).2.2.1)
      = k0_pay4 i x0 a0 := by
  rw [View.read_writes_eq_canon _ _ _ (last_acc_cover c i arg2 harg2 arg3 harg3 arg4 harg4 arg5 harg5 arg6 harg6 arg7 harg7 hc0 hc1 x0 x1 a0 l0)]
  unfold runLast
  dsimp only
  sl_unfold_words
  have hz : (![0, 0] : Fin 2 → Nat) = fun _ => 0 := funext fun a => by fin_cases a <;> rfl
  rw [View.canon_cons_unit_zero (S := S512x1) hz]
  simp only [View.readAt_eq_ld, harg2.read_unread, harg3.read_unread, harg6.read_unread, harg7.read_unread,
    View.ld_unit_zero (S := S512x4096) hz, View.ld_unit_zero (S := S512x1) hz, View.readCov_unit_zero (S := S512x1) _ hz]

/-- (the second's cover) -/
theorem last_lacc_cover (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬firstBlock i) (hc1 : lastBlock i) (x0 : Vec F S512x4096 .f32) (x1 : Vec F S512x1 .i32) (a0 l0 : Vec F S512x1 .f32) (y : S512x1.Idx) :
    ∃ pc ∈ (runLast c i arg2 harg2 arg3 harg3 arg4 harg4 arg5 harg5 arg6 harg6 arg7 harg7 hc0 hc1 x0 x1 a0 l0).2.2.2.1, y ∈ pc.1.set :=
  View.cover_of_tiledL (runLast c i arg2 harg2 arg3 harg3 arg4 harg4 arg5 harg5 arg6 harg6 arg7 harg7 hc0 hc1 x0 x1 a0 l0).2.2.2.1 S512x1.size (by sl_kernel_rfl) y

/-- and the second. -/
theorem last_lacc_eq (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬firstBlock i) (hc1 : lastBlock i) (x0 : Vec F S512x4096 .f32) (x1 : Vec F S512x1 .i32) (a0 l0 : Vec F S512x1 .f32) :
    laccV.read (Elt F) (laccV.writes (Elt F) laccV.junk (runLast c i arg2 harg2 arg3 harg3 arg4 harg4 arg5 harg5 arg6 harg6 arg7 harg7 hc0 hc1 x0 x1 a0 l0).2.2.2.1)
      = k0_pay5 i x0 x1 l0 := by
  rw [View.read_writes_eq_canon _ _ _ (last_lacc_cover c i arg2 harg2 arg3 harg3 arg4 harg4 arg5 harg5 arg6 harg6 arg7 harg7 hc0 hc1 x0 x1 a0 l0)]
  unfold runLast
  dsimp only
  sl_unfold_words
  have hz : (![0, 0] : Fin 2 → Nat) = fun _ => 0 := funext fun a => by fin_cases a <;> rfl
  rw [View.canon_cons_unit_zero (S := S512x1) hz]
  simp only [View.readAt_eq_ld, harg2.read_unread, harg3.read_unread, harg6.read_unread, harg7.read_unread,
    View.ld_unit_zero (S := S512x4096) hz, View.ld_unit_zero (S := S512x1) hz, View.readCov_unit_zero (S := S512x1) _ hz]

end Cert.Kernel.Body

end
-- ==== Proof.K.Acc.lean ====
/-
  The two running sums the kernel carries across the column blocks of a row tile, by recursion on the grid point.

  The grid is 4 row tiles × 13 column blocks, walked row tile by row tile: point `t = 13·i + j` works on rows
  `512·i … 512·i + 511` and columns `4096·j … 4096·j + 4095`. The last column block (`j = 12`) reaches past the
  array's last column 50256: there the staging buffer holds the array's entries on the columns that exist and words
  nothing names on the 2991 lanes beyond. `xfill` is the block as the body may read it with those lanes set to the
  zero word; that the body's results do not depend on what those lanes hold is proved where it is used.

  At the first column block of a row tile (`t % 13 = 0`) both sums restart from the stored zeros; at every other
  point they continue from what the point before left.
-/
import proofs.«429971_j51582557225658_3_alg».proof.Proof.Gen.Kernel.Frame
import proofs.«429971_j51582557225658_3_alg».proof.Proof.Gen.Kernel.Skeleton

noncomputable section

namespace Cert.Kernel.Body

open Cert.Kernel Cert.Kernel.Gen
open Idealize.ShloMosaic Idealize.ShloMosaic.TcCoe Idealize.SL.Sem

variable {F : FTy → Type} [FloatOps F]

variable (m : (ℓ : Loc nD τ sig) → Buf (Elt F) ℓ)

/-- The logits block at point `t` as the body may read it: the array's block on the columns inside the array, the
    zero word on the lanes past the last column. -/
def xfill (c : Dev nD) (t : Fin cfg0.N) : Vec F S512x4096 .f32 :=
  win0_0.fill (grid0.coords t) (fun _ => Scalar.ofBits .f32 0#32) (iblk m c 0 t)

/-- The row tile's labels at point `t`. -/
def lblk (c : Dev nD) (t : Fin cfg0.N) : Vec F S512x1 .i32 := iblk m c 1 t

/-- After the body at point `n`: the sum of scaled exponentials so far, and the own-class logit so far, of the row
    tile's 512 rows over the column blocks walked so far. -/
def accAt (c : Dev nD) : (n : ℕ) → n < cfg0.N → Vec F S512x1 .f32 × Vec F S512x1 .f32
  | 0, hn =>
    (k0_pay4 (grid0.coords ⟨0, hn⟩) (xfill m c ⟨0, hn⟩) k0_pay1,
     k0_pay5 (grid0.coords ⟨0, hn⟩) (xfill m c ⟨0, hn⟩) (lblk m c ⟨0, hn⟩) k0_pay2)
  | n + 1, hn =>
    if (n + 1) % 13 = 0 then
      (k0_pay4 (grid0.coords ⟨n + 1, hn⟩) (xfill m c ⟨n + 1, hn⟩) k0_pay1,
       k0_pay5 (grid0.coords ⟨n + 1, hn⟩) (xfill m c ⟨n + 1, hn⟩) (lblk m c ⟨n + 1, hn⟩) k0_pay2)
    else
      (k0_pay4 (grid0.coords ⟨n + 1, hn⟩) (xfill m c ⟨n + 1, hn⟩) (accAt c n (Nat.lt_of_succ_lt hn)).1,
       k0_pay5 (grid0.coords ⟨n + 1, hn⟩) (xfill m c ⟨n + 1, hn⟩) (lblk m c ⟨n + 1, hn⟩) (accAt c n (Nat.lt_of_succ_lt hn)).2)

/-- At the first column block of a row tile the sums restart. -/
theorem accAt_first (c : Dev nD) (t : Fin cfg0.N) (h : t.val % 13 = 0) :
    accAt m c t.val t.isLt =
      (k0_pay4 (grid0.coords t) (xfill m c t) k0_pay1,
       k0_pay5 (grid0.coords t) (xfill m c t) (lblk m c t) k0_pay2) := by
  obtain ⟨n, hn⟩ := t
  cases n with
  | zero => rfl
  | succ n => exact if_pos h

/-- At every other point they continue from the point before. -/
theorem accAt_next (c : Dev nD) (t : Fin cfg0.N) (h : ¬t.val % 13 = 0) :
    accAt m c t.val t.isLt =
      (k0_pay4 (grid0.coords t) (xfill m c t) (accAt m c (t.val - 1) (Nat.lt_of_le_of_lt (Nat.sub_le _ _) t.isLt)).1,
       k0_pay5 (grid0.coords t) (xfill m c t) (lblk m c t) (accAt m c (t.val - 1) (Nat.lt_of_le_of_lt (Nat.sub_le _ _) t.isLt)).2) := by
  obtain ⟨n, hn⟩ := t
  cases n with
  | zero => exact absurd (Nat.zero_mod _) h
  | succ n => exact if_neg h

end Cert.Kernel.Body

end
-- ==== Proof.K.Frame.Data.lean ====
/-
  The pipeline's proof data for the one pallas_call.

  After the body at point `t`: the logits window's buffer still holds its block (on the lanes past the array's last
  column, whatever it held: the window is described there only up to that), the labels window's its block, and — at
  the last column block of a row tile, the only points where they are written back — the two output windows' the two
  finished sums. The region invariant carries the two scratch sums from point to point: before the first point they
  are the launch's scoped buffers at anything; before point `n + 1` they hold what point `n` left.
-/
import proofs.«429971_j51582557225658_3_alg».proof.Proof.K.Acc
import proofs.«429971_j51582557225658_3_alg».proof.Proof.K.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region invariant -/

/-- Before position `n`: at `0` what the launch hands over; afterwards the two scratch sums at what point `n - 1`
    left, and the generator register at some state. -/
def PhiS (c : Dev nD) : (n : ℕ) → n ≤ cfg0.N → sProp 𝕄
  | 0, _ => Pipeline.ΦA spec0 c
  | n + 1, hn =>
    iprop(iprop(owns (c : Thread nD τ) accM fullShare (accAt m c n hn).1 ∗ owns (c : Thread nD τ) laccM fullShare (accAt m c n hn).2)
      ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn
      = iprop(iprop(owns (c : Thread nD τ) accM fullShare (accAt m c n hn).1 ∗ owns (c : Thread nD τ) laccM fullShare (accAt m c n hn).2)
          ∗ (∃ r, prngReg c r)) := rfl

theorem PhiS_pos (c : Dev nD) (n : ℕ) (h : n ≤ cfg0.N) (hz : n ≠ 0) :
    PhiS m c n h
      = iprop(iprop(owns (c : Thread nD τ) accM fullShare (accAt m c (n - 1) (by omega)).1
            ∗ owns (c : Thread nD τ) laccM fullShare (accAt m c (n - 1) (by omega)).2)
          ∗ (∃ r, prngReg c r)) := by
  cases n with
  | zero => exact absurd rfl hz
  | succ n => rfl

/-! ## The proof data -/

/-- The arrays as the region finds them; after the body the four windows' buffers as said above; the invariant
    `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfill m c t
    | ⟨1, _⟩ => iblk m c 1 t
    | ⟨2, _⟩ => (accAt m c t.val t.isLt).1
    | ⟨3, _⟩ => (accAt m c t.val t.isLt).2
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at the point's number. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after_x (c : Dev nD) (t : Fin cfg0.N) : (dats m 0 c).after 0 t = xfill m c t := by dsimp only [dats]
theorem after_lab (c : Dev nD) (t : Fin cfg0.N) : (dats m 0 c).after 1 t = iblk m c 1 t := by dsimp only [dats]
theorem after_sum (c : Dev nD) (t : Fin cfg0.N) : (dats m 0 c).after 2 t = (accAt m c t.val t.isLt).1 := by dsimp only [dats]
theorem after_logit (c : Dev nD) (t : Fin cfg0.N) : (dats m 0 c).after 3 t = (accAt m c t.val t.isLt).2 := by dsimp only [dats]

/-! ## What the body finds in the input windows -/

/-- The logits window is fetched at every point: its buffer holds the array's block on the lanes that exist and, on
    the others, whatever `d` the buffer held. -/
theorem before_x (c : Dev nD) (t : Fin cfg0.N) (d) :
    (dats m 0 c).before 0 t d = win0_0.fill (grid0.coords t) d (iblk m c 0 t) := by
  unfold Dat.before; rw [if_pos (fetch0_0 t)]; rfl

/-- The labels window's buffer holds its block at every point, fetched there or not. -/
theorem before_lab (c : Dev nD) (t : Fin cfg0.N) (d) : (dats m 0 c).before 1 t d = iblk m c 1 t :=
  before0_1_of m (dats m 0 c) (A_eq m c 1) (after_lab m c) t d

end Cert.Kernel.Body

end
-- ==== Proof.K.Masked.lean ====
/-
  The body's two results do not depend on what the lanes past the array's last column hold.
-/
import proofs.«429971_j51582557225658_3_alg».proof.Proof.K.Acc

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

namespace Masked

/-! ## Where the lanes outside the array are -/

/-- On one axis: a block coordinate the transfer leaves alone lies at or past the array's end. A block that is not
    cut is moved whole; a block cut to its first `n` coordinates ends exactly at the array's end. -/
theorem past_end_of_not_moved {ix k d : ℕ} {c : Pipeline.Clip} (h : Pipeline.Clip.Ok ix k d c) {j : ℕ} (hj : j < k)
    (hn : c.extent k ≤ j) : d ≤ ix * k + j := by
  cases c with
  | none => exact absurd hj (Nat.not_lt.2 hn)
  | some n =>
    have h3 : ix * k + n = d := h.2.2
    have h4 : n ≤ j := hn
    omega

/-- A lane of the logits block that the transfer leaves alone is past the last column: the rows always fit (4 row
    tiles of 512 in 2048 rows), so it is the column axis that is cut, and there the lane's position
    `4096·(column block) + lane` is at least 50257. -/
theorem col_past_of_not_moved (i : grid0.Coords) (j : S512x4096.Idx) (h : ¬win0_0.moved i j = true) :
    50257 ≤ (i 1).val * 4096 + (j 1).val := by
  rw [Pipeline.Window.moved_iff] at h
  obtain ⟨a, ha⟩ : ∃ a : Fin 2, ¬(j a).val < win0_0.xsize i a := not_forall.mp h
  have hk := past_end_of_not_moved (win0_0.hclip i a) (j a).isLt (Nat.not_lt.mp ha)
  have h0 : (i 0).val < 4 := (i 0).isLt
  have h1 : (i 1).val < 13 := (i 1).isLt
  have hj0 : (j 0).val < 512 := (j 0).isLt
  have hj1 : (j 1).val < 4096 := (j 1).isLt
  fin_cases a
  · change 2048 ≤ (BitVec.ofNat 32 (i 0).val).toNat * 512 + (j 0).val at hk
    rw [BitVec.toNat_ofNat, Nat.mod_eq_of_lt (by omega)] at hk
    omega
  · change 50257 ≤ (BitVec.ofNat 32 (i 1).val).toNat * 4096 + (j 1).val at hk
    rw [BitVec.toNat_ofNat, Nat.mod_eq_of_lt (by omega)] at hk
    exact hk

/-! ## The lane position and the two masks on those lanes -/

/-- A number below 2³¹ is the signed value of its 32-bit word. -/
theorem toInt_ofNat_small (n : ℕ) (h : n < 2 ^ 31) : (BitVec.ofNat 32 n).toInt = (n : ℤ) := by
  have e : (BitVec.ofNat 32 n).toNat = n := by rw [BitVec.toNat_ofNat]; exact Nat.mod_eq_of_lt (by omega)
  rw [BitVec.toInt_eq_toNat_of_lt (by rw [e]; omega), e]

/-- The lane position the body computes, `4096·(column block) + lane` in 32-bit words, is the word of that number. -/
theorem kpos_apply (i : grid0.Coords) (j : S512x4096.Idx) :
    k0_pay3 i j = BitVec.ofNat 32 ((i 1).val * 4096 + (j 1).val) := by
  have e : k0_pay3 i j = BitVec.ofNat 32 (i 1).val * 4096#32 + BitVec.ofNat 32 (0 * 4096 + (j 1).val) := rfl
  rw [e, Nat.zero_mul, Nat.zero_add, BitVec.ofNat_add, BitVec.ofNat_mul]

/-- Its signed value at a lane the transfer leaves alone: at least 50257 (and below 13·4096). -/
theorem kpos_toInt_of_not_moved (i : grid0.Coords) (j : S512x4096.Idx) (h : ¬win0_0.moved i j = true) :
    (50257 : ℤ) ≤ (k0_pay3 i j).toInt := by
  have hp := col_past_of_not_moved i j h
  have h1 : (i 1).val < 13 := (i 1).isLt
  have hj1 : (j 1).val < 4096 := (j 1).isLt
  rw [kpos_apply, toInt_ofNat_small _ (by omega)]
  omega

/-- The "column exists" mask is off on a lane the transfer leaves alone. -/
theorem slt_off (i : grid0.Coords) (j : S512x4096.Idx) (h : ¬win0_0.moved i j = true) :
    cmpi .slt (k0_pay3 i) (broadcast S512x4096 50257#32) j = 0#1 := by
  have hp := kpos_toInt_of_not_moved i j h
  show BitVec.ofBool ((k0_pay3 i j).slt 50257#32) = 0#1
  have hf : (k0_pay3 i j).slt 50257#32 = false := by
    rw [BitVec.slt_eq_decide, decide_eq_false_iff_not, toInt_ofNat_small 50257 (by decide)]
    omega
  rw [hf]; rfl

/-- The "this lane is the row's label" mask is off there too, when every label is a class: a label's signed value is
    below 50257 and the lane's position is not. -/
theorem eq_off (i : grid0.Coords) (j : S512x4096.Idx) (h : ¬win0_0.moved i j = true) (lab : Vec F S512x1 .i32)
    (hlab : ∀ y : S512x1.Idx, 0 ≤ (lab y : BitVec 32).toInt ∧ (lab y : BitVec 32).toInt < 50257) :
    cmpi .eq (k0_pay3 i) (broadcastTo S512x4096 (shapeCast S512x1 lab shapeCasts_S512x1_S512x1) broadcasts_S512x1_S512x4096) j = 0#1 := by
  have hp := kpos_toInt_of_not_moved i j h
  obtain ⟨y, hy⟩ : ∃ y : S512x1.Idx,
      broadcastTo S512x4096 (shapeCast S512x1 lab shapeCasts_S512x1_S512x1) broadcasts_S512x1_S512x4096 j = lab y := ⟨_, rfl⟩
  show BitVec.ofBool (k0_pay3 i j == _) = 0#1
  rw [hy]
  have hne : (k0_pay3 i j == (lab y : BitVec 32)) = false := by
    rw [beq_eq_false_iff_ne]
    intro he
    have := (hlab y).2
    rw [← he] at this
    omega
  rw [hne]; rfl

/-! ## A masked block does not see those lanes -/

/-- Two fills of the block with the same entries agree on every lane the transfer moves. -/
theorem fill_agree {α : Type} (i : grid0.Coords) (d d' : S512x4096.Idx → α) (g : (win0_0.xblock i).Idx → α)
    (j : S512x4096.Idx) (h : win0_0.moved i j = true) : win0_0.fill i d g j = win0_0.fill i d' g j := by
  unfold Pipeline.Window.fill; rw [dif_pos h, dif_pos h]

/-- A select whose mask is off on the lanes the transfer leaves alone, taking a lane-wise function of the block
    where the mask is on: the same whatever fills those lanes. -/
theorem select_fill_irrel {α β : Type} (i : grid0.Coords) (c : IVec S512x4096 1)
    (hc : ∀ j, ¬win0_0.moved i j = true → c j = 0#1) (f : α → β)
    (d d' : S512x4096.Idx → α) (g : (win0_0.xblock i).Idx → α) (z : S512x4096.Idx → β) :
    select c (fun j => f (win0_0.fill i d g j)) z = select c (fun j => f (win0_0.fill i d' g j)) z := by
  funext j
  show Scalar.select (c j) (f (win0_0.fill i d g j)) (z j) = Scalar.select (c j) (f (win0_0.fill i d' g j)) (z j)
  by_cases h : win0_0.moved i j = true
  · rw [fill_agree i d d' g j h]
  · rw [hc j h]; rfl

end Masked

/-- The new sum of scaled exponentials is the same whatever fills the lanes outside the array: on those lanes the
    lane position is at least 50257, so the select takes the fill constant, not the entry. -/
theorem pay4_fill_irrel (i : grid0.Coords) (d d' : S512x4096.Idx → Elt F .f32) (g : (win0_0.xblock i).Idx → Elt F .f32)
    (a : Vec F S512x1 .f32) :
    k0_pay4 i (win0_0.fill i d g) a = k0_pay4 i (win0_0.fill i d' g) a := by
  have key := Masked.select_fill_irrel i (cmpi .slt (k0_pay3 i) (broadcast S512x4096 50257#32)) (Masked.slt_off i)
    (fun x : Elt F .f32 => FloatOps.mulf (Scalar.ofBits .f32 0x41F00000#32 : F .f32) x) d d' g
  exact congrArg (fun s : FVec F S512x4096 .f32 =>
    shapeCast S512x1 (addf a (shapeCast S512x1
      (multiReduction .add [1] S512 (exp s) 0x00000000#32 reduces_S512x4096_S512 (.inl rfl) rfl)
      shapeCasts_S512_S512x1)) shapeCasts_S512x1_S512x1) (key _)

/-- The new own-class logit likewise, when every label of the row tile is a class: no lane outside the array sits
    at a label's position. -/
theorem pay5_fill_irrel (i : grid0.Coords) (d d' : S512x4096.Idx → Elt F .f32) (g : (win0_0.xblock i).Idx → Elt F .f32)
    (lab : Vec F S512x1 .i32) (hlab : ∀ y : S512x1.Idx, 0 ≤ (lab y : BitVec 32).toInt ∧ (lab y : BitVec 32).toInt < 50257)
    (a : Vec F S512x1 .f32) :
    k0_pay5 i (win0_0.fill i d g) lab a = k0_pay5 i (win0_0.fill i d' g) lab a := by
  have key := Masked.select_fill_irrel i
    (cmpi .eq (k0_pay3 i) (broadcastTo S512x4096 (shapeCast S512x1 lab shapeCasts_S512x1_S512x1) broadcasts_S512x1_S512x4096))
    (fun j h => Masked.eq_off i j h lab hlab) (fun x : Elt F .f32 => x) d d' g
  exact congrArg (fun s : FVec F S512x4096 .f32 =>
    shapeCast S512x1 (addf a (shapeCast S512x1
      (multiReduction .add [1] S512 s 0x00000000#32 reduces_S512x4096_S512 (.inl rfl) rfl)
      shapeCasts_S512_S512x1)) shapeCasts_S512x1_S512x1) (key _)

end Cert.Kernel.Body

end
-- ==== Proof.K.Frame.Body.lean ====
/-
  The body obligation at a generic grid point.

  The point's column block `t % 13` decides the case. In each, the invariant hands the body the two scratch sums (at
  anything at a first column block, which overwrites them; at what the point before left otherwise), the case's run
  applies, and the invariant takes the sums back at this point's contents. The logits buffer is handed over as the
  array's block filled out, past the array's last column, with words `d0` nothing names; the body's two results are
  the same as with the zero word there (the masked lanes are never selected), which is how the named contents are
  reached. The logits buffer goes back with the same `d0`; the labels buffer as it was; the two outputs untouched off
  the last column block, and holding the two finished sums at it.
-/
import proofs.«429971_j51582557225658_3_alg».proof.Proof.K.Frame.Pieces
import proofs.«429971_j51582557225658_3_alg».proof.Proof.K.Frame.Data
import proofs.«429971_j51582557225658_3_alg».proof.Proof.K.Masked

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every label of every row tile's block is a class: as a signed word it lies in `[0, 50257)`. -/
def LabelsInRange : Prop :=
  ∀ (c : Dev nD) (t : Fin cfg0.N) (y : S512x1.Idx),
    0 ≤ (iblk m c 1 t y : BitVec 32).toInt ∧ (iblk m c 1 t y : BitVec 32).toInt < 50257

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (xM t) fullShare ((dats m 0 c).before 0 t d))
    ∗ (∃ d, owns (c : Thread nD τ) (labM t) fullShare ((dats m 0 c).before 1 t d))
    ∗ (∃ d, owns (c : Thread nD τ) (sumM t) fullShare ((dats m 0 c).before 2 t d))
    ∗ (∃ d, owns (c : Thread nD τ) (logitM t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

/-! ## What each window's buffer is left as -/

/-- The logits window is never idle and is described only on the lanes its transfers move. -/
theorem leaves_x (c : Dev nD) (t : Fin cfg0.N) :
    (dats m 0 c).leaves 0 t
      = iprop(∃ d, owns (c : Thread nD τ) (xM t) fullShare (win0_0.fill (grid0.coords t) d (win0_0.cut (grid0.coords t) ((dats m 0 c).after 0 t)))) := by
  unfold Dat.leaves; rw [live_x t]; rfl
/-- The labels window is never idle. -/
theorem leaves_lab (c : Dev nD) (t : Fin cfg0.N) :
    (dats m 0 c).leaves 1 t = owns (c : Thread nD τ) (labM t) fullShare ((dats m 0 c).after 1 t) := by
  unfold Dat.leaves; rw [live_lab t]
/-- Off the last column block the outputs are handed back as found; -/
theorem leaves_sum_idle (c : Dev nD) (t : Fin cfg0.N) (h : ¬lastBlock (grid0.coords t)) :
    (dats m 0 c).leaves 2 t = iprop(∃ d, owns (c : Thread nD τ) (sumM t) fullShare ((dats m 0 c).before 2 t d)) :=
  Dat.leaves_idle (dats m 0 c) 2 t (idle_sum t h) (noFlush_sum t h)
theorem leaves_logit_idle (c : Dev nD) (t : Fin cfg0.N) (h : ¬lastBlock (grid0.coords t)) :
    (dats m 0 c).leaves 3 t = iprop(∃ d, owns (c : Thread nD τ) (logitM t) fullShare ((dats m 0 c).before 3 t d)) :=
  Dat.leaves_idle (dats m 0 c) 3 t (idle_logit t h) (noFlush_logit t h)
/-- at it they hold what the body stored. -/
theorem leaves_sum_live (c : Dev nD) (t : Fin cfg0.N) (h : lastBlock (grid0.coords t)) :
    (dats m 0 c).leaves 2 t = owns (c : Thread nD τ) (sumM t) fullShare ((dats m 0 c).after 2 t) := by
  unfold Dat.leaves; rw [live_sum t h]
theorem leaves_logit_live (c : Dev nD) (t : Fin cfg0.N) (h : lastBlock (grid0.coords t)) :
    (dats m 0 c).leaves 3 t = owns (c : Thread nD τ) (logitM t) fullShare ((dats m 0 c).after 3 t) := by
  unfold Dat.leaves; rw [live_logit t h]

/-! ## The body at a point, case by case -/

set_option maxHeartbeats 4000000 in
/-- A first column block. -/
theorem sound_first (hL : LabelsInRange m) (c : Dev nD) (t : Fin cfg0.N) (h0 : t.val % 13 = 0) :
    bodyPre m c t ⊢ wp frame (wpE (defs₀ (F := F)) Variants.none c none) Set.univ (bodyAt0 t) (fun _ => bodyPost m c t) := by
  have hf : firstBlock (grid0.coords t) := (firstBlock_iff t).mpr h0
  have hl : ¬lastBlock (grid0.coords t) := fun h => by have := (lastBlock_iff t).mp h; omega
  unfold bodyPre bodyPost bodyAt0
  simp only [before_x, before_lab]
  rw [show (dats m 0 c).owesAt () t.succ = (dats m 0 c).owesAt () t.castSucc from rfl]
  rw [show (dats m 0 c).Φ t.succ = PhiS m c (t.val + 1) t.isLt from rfl, PhiS_succ]
  rw [leaves_x, leaves_lab, after_x, after_lab, leaves_sum_idle m c t hl, leaves_logit_idle m c t hl, accAt_first m c t h0]
  by_cases hz : t.val = 0
  · rw [PhiS_castSucc m c t, PhiS_zero m c _ _ hz, PhiA_eq]
    iintro ⟨⟨⟨HA, HL⟩, Hg⟩, Ho, ⟨%d0, H0⟩, ⟨%d1, H1⟩, ⟨%d2, H2⟩, ⟨%d3, H3⟩⟩
    iapply ((runFirst c (grid0.coords t) _ _ _ _ _ _ _ _ _ _ _ _ hf hl (win0_0.fill (grid0.coords t) d0 (iblk m c 0 t)) (iblk m c 1 t)).2.2 _ _ Set.univ _)
    isplitl [H0]; · iexact H0
    isplitl [H1]; · iexact H1
    isplitl [H2]; · iexact H2
    isplitl [H3]; · iexact H3
    isplitl [HA]; · iexact HA
    isplitl [HL]; · iexact HL
    iintro ⟨H0, H1, H2, H3, ⟨%ea, HA⟩, ⟨%el, HL⟩⟩
    isplitl [HA HL Hg]
    · isplitl [HA HL]
      · isplitl [HA]
        · unfold owns; iexists _; isplitr
          swap; · iexact HA
          ipureintro
          exact (View.read_writes_of_cover _ _ accV accV.junk _ (first_acc_cover c _ _ _ _ _ _ _ _ _ _ _ _ _ hf hl _ _)).trans ((first_acc_eq c _ _ _ _ _ _ _ _ _ _ _ _ _ hf hl _ _).trans
            (pay4_fill_irrel (grid0.coords t) d0 (fun _ => Scalar.ofBits .f32 0#32) (iblk m c 0 t) k0_pay1))
        · unfold owns; iexists _; isplitr
          swap; · iexact HL
          ipureintro
          exact (View.read_writes_of_cover _ _ laccV laccV.junk _ (first_lacc_cover c _ _ _ _ _ _ _ _ _ _ _ _ _ hf hl _ _)).trans ((first_lacc_eq c _ _ _ _ _ _ _ _ _ _ _ _ _ hf hl _ _).trans
            (pay5_fill_irrel (grid0.coords t) d0 (fun _ => Scalar.ofBits .f32 0#32) (iblk m c 0 t) (iblk m c 1 t) (hL c t) k0_pay2))
      iexact Hg
    isplitl [Ho]; · iexact Ho
    isplitl [H0]
    · iexists d0; rw [show xfill m c t = win0_0.fill (grid0.coords t) (fun _ => Scalar.ofBits .f32 0#32) (iblk m c 0 t) from rfl, win0_0.cut_fill]
      iexact H0
    isplitl [H1]; · iexact H1
    isplitl [H2]; · iexists _; iexact H2
    iexists _; iexact H3
  · rw [PhiS_castSucc m c t, PhiS_pos m c _ _ hz]
    iintro ⟨⟨⟨HA, HL⟩, Hg⟩, Ho, ⟨%d0, H0⟩, ⟨%d1, H1⟩, ⟨%d2, H2⟩, ⟨%d3, H3⟩⟩
    iapply ((runFirst c (grid0.coords t) _ _ _ _ _ _ _ _ _ _ _ _ hf hl (win0_0.fill (grid0.coords t) d0 (iblk m c 0 t)) (iblk m c 1 t)).2.2 _ _ Set.univ _)
    isplitl [H0]; · iexact H0
    isplitl [H1]; · iexact H1
    isplitl [H2]; · iexact H2
    isplitl [H3]; · iexact H3
    isplitl [HA]; · iexists _; iexact HA
    isplitl [HL]; · iexists _; iexact HL
    iintro ⟨H0, H1, H2, H3, ⟨%ea, HA⟩, ⟨%el, HL⟩⟩
    isplitl [HA HL Hg]
    · isplitl [HA HL]
      · isplitl [HA]
        · unfold owns; iexists _; isplitr
          swap; · iexact HA
          ipureintro
          exact (View.read_writes_of_cover _ _ accV accV.junk _ (first_acc_cover c _ _ _ _ _ _ _ _ _ _ _ _ _ hf hl _ _)).trans ((first_acc_eq c _ _ _ _ _ _ _ _ _ _ _ _ _ hf hl _ _).trans
            (pay4_fill_irrel (grid0.coords t) d0 (fun _ => Scalar.ofBits .f32 0#32) (iblk m c 0 t) k0_pay1))
        · unfold owns; iexists _; isplitr
          swap; · iexact HL
          ipureintro
          exact (View.read_writes_of_cover _ _ laccV laccV.junk _ (first_lacc_cover c _ _ _ _ _ _ _ _ _ _ _ _ _ hf hl _ _)).trans ((first_lacc_eq c _ _ _ _ _ _ _ _ _ _ _ _ _ hf hl _ _).trans
            (pay5_fill_irrel (grid0.coords t) d0 (fun _ => Scalar.ofBits .f32 0#32) (iblk m c 0 t) (iblk m c 1 t) (hL c t) k0_pay2))
      iexact Hg
    isplitl [Ho]; · iexact Ho
    isplitl [H0]
    · iexists d0; rw [show xfill m c t = win0_0.fill (grid0.coords t) (fun _ => Scalar.ofBits .f32 0#32) (iblk m c 0 t) from rfl, win0_0.cut_fill]
      iexact H0
    isplitl [H1]; · iexact H1
    isplitl [H2]; · iexists _; iexact H2
    iexists _; iexact H3

set_option maxHeartbeats 4000000 in
/-- A middle column block. -/
theorem sound_middle (hL : LabelsInRange m) (c : Dev nD) (t : Fin cfg0.N) (h0 : ¬t.val % 13 = 0) (h1 : ¬t.val % 13 = 12) :
    bodyPre m c t ⊢ wp frame (wpE (defs₀ (F := F)) Variants.none c none) Set.univ (bodyAt0 t) (fun _ => bodyPost m c t) := by
  have hf : ¬firstBlock (grid0.coords t) := fun h => h0 ((firstBlock_iff t).mp h)
  have hl : ¬lastBlock (grid0.coords t) := fun h => h1 ((lastBlock_iff t).mp h)
  have hz : t.val ≠ 0 := fun h => h0 (by rw [h])
  unfold bodyPre bodyPost bodyAt0
  simp only [before_x, before_lab]
  rw [show (dats m 0 c).owesAt () t.succ = (dats m 0 c).owesAt () t.castSucc from rfl]
  rw [show (dats m 0 c).Φ t.succ = PhiS m c (t.val + 1) t.isLt from rfl, PhiS_succ]
  rw [leaves_x, leaves_lab, after_x, after_lab, leaves_sum_idle m c t hl, leaves_logit_idle m c t hl, accAt_next m c t h0]
  rw [PhiS_castSucc m c t, PhiS_pos m c _ _ hz]
  iintro ⟨⟨⟨HA, HL⟩, Hg⟩, Ho, ⟨%d0, H0⟩, ⟨%d1, H1⟩, ⟨%d2, H2⟩, ⟨%d3, H3⟩⟩
  iapply ((runMiddle c (grid0.coords t) _ _ _ _ _ _ _ _ _ _ _ _ hf hl (win0_0.fill (grid0.coords t) d0 (iblk m c 0 t)) (iblk m c 1 t) _ _).2.2 _ _ Set.univ _)
  · isplitl [H0]; · iexact H0
    isplitl [H1]; · iexact H1
    isplitl [H2]; · iexact H2
    isplitl [H3]; · iexact H3
    isplitl [HA]; · iexact HA
    isplitl [HL]; · iexact HL
    iintro ⟨H0, H1, H2, H3, ⟨%ea, HA⟩, ⟨%el, HL⟩⟩
    isplitl [HA HL Hg]
    · isplitl [HA HL]
      · isplitl [HA]
        · unfold owns; iexists _; isplitr
          swap; · iexact HA
          ipureintro
          exact (View.read_writes_of_cover _ _ accV accV.junk _ (middle_acc_cover c _ _ _ _ _ _ _ _ _ _ _ _ _ hf hl _ _ _ _)).trans ((middle_acc_eq c _ _ _ _ _ _ _ _ _ _ _ _ _ hf hl _ _ _ _).trans
            (pay4_fill_irrel (grid0.coords t) d0 (fun _ => Scalar.ofBits .f32 0#32) (iblk m c 0 t) (accAt m c (t.val - 1) (Nat.lt_of_le_of_lt (Nat.sub_le _ _) t.isLt)).1))
        · unfold owns; iexists _; isplitr
          swap; · iexact HL
          ipureintro
          exact (View.read_writes_of_cover _ _ laccV laccV.junk _ (middle_lacc_cover c _ _ _ _ _ _ _ _ _ _ _ _ _ hf hl _ _ _ _)).trans ((middle_lacc_eq c _ _ _ _ _ _ _ _ _ _ _ _ _ hf hl _ _ _ _).trans
            (pay5_fill_irrel (grid0.coords t) d0 (fun _ => Scalar.ofBits .f32 0#32) (iblk m c 0 t) (iblk m c 1 t) (hL c t) (accAt m c (t.val - 1) (Nat.lt_of_le_of_lt (Nat.sub_le _ _) t.isLt)).2))
      iexact Hg
    isplitl [Ho]; · iexact Ho
    isplitl [H0]
    · iexists d0; rw [show xfill m c t = win0_0.fill (grid0.coords t) (fun _ => Scalar.ofBits .f32 0#32) (iblk m c 0 t) from rfl, win0_0.cut_fill]
      iexact H0
    isplitl [H1]; · iexact H1
    isplitl [H2]; · iexists _; iexact H2
    iexists _; iexact H3

set_option maxHeartbeats 4000000 in
/-- A last column block. -/
theorem sound_last (hL : LabelsInRange m) (c : Dev nD) (t : Fin cfg0.N) (h1 : t.val % 13 = 12) :
    bodyPre m c t ⊢ wp frame (wpE (defs₀ (F := F)) Variants.none c none) Set.univ (bodyAt0 t) (fun _ => bodyPost m c t) := by
  have h0 : ¬t.val % 13 = 0 := by omega
  have hf : ¬firstBlock (grid0.coords t) := fun h => h0 ((firstBlock_iff t).mp h)
  have hl : lastBlock (grid0.coords t) := (lastBlock_iff t).mpr h1
  have hz : t.val ≠ 0 := fun h => h0 (by rw [h])
  unfold bodyPre bodyPost bodyAt0
  simp only [before_x, before_lab]
  rw [show (dats m 0 c).owesAt () t.succ = (dats m 0 c).owesAt () t.castSucc from rfl]
  rw [show (dats m 0 c).Φ t.succ = PhiS m c (t.val + 1) t.isLt from rfl, PhiS_succ]
  rw [leaves_x, leaves_lab, after_x, after_lab, leaves_sum_live m c t hl, leaves_logit_live m c t hl, after_sum, after_logit, accAt_next m c t h0]
  rw [PhiS_castSucc m c t, PhiS_pos m c _ _ hz]
  iintro ⟨⟨⟨HA, HL⟩, Hg⟩, Ho, ⟨%d0, H0⟩, ⟨%d1, H1⟩, ⟨%d2, H2⟩, ⟨%d3, H3⟩⟩
  iapply ((runLast c (grid0.coords t) _ _ _ _ _ _ _ _ _ _ _ _ hf hl (win0_0.fill (grid0.coords t) d0 (iblk m c 0 t)) (iblk m c 1 t) _ _).2.2.2.2 Set.univ _)
  · isplitl [H0]; · iexact H0
    isplitl [H1]; · iexact H1
    isplitl [H2]; · iexists _; iexact H2
    isplitl [H3]; · iexists _; iexact H3
    isplitl [HA]; · iexact HA
    isplitl [HL]; · iexact HL
    iintro ⟨H0, H1, ⟨%e2, H2⟩, ⟨%e3, H3⟩, ⟨%ea, HA⟩, ⟨%el, HL⟩⟩
    isplitl [HA HL Hg]
    · isplitl [HA HL]
      · isplitl [HA]
        · unfold owns; iexists _; isplitr
          swap; · iexact HA
          ipureintro
          exact (View.read_writes_of_cover _ _ accV accV.junk _ (last_acc_cover c _ _ _ _ _ _ _ _ _ _ _ _ _ hf hl _ _ _ _)).trans ((last_acc_eq c _ _ _ _ _ _ _ _ _ _ _ _ _ hf hl _ _ _ _).trans
            (pay4_fill_irrel (grid0.coords t) d0 (fun _ => Scalar.ofBits .f32 0#32) (iblk m c 0 t) (accAt m c (t.val - 1) (Nat.lt_of_le_of_lt (Nat.sub_le _ _) t.isLt)).1))
        · unfold owns; iexists _; isplitr
          swap; · iexact HL
          ipureintro
          exact (View.read_writes_of_cover _ _ laccV laccV.junk _ (last_lacc_cover c _ _ _ _ _ _ _ _ _ _ _ _ _ hf hl _ _ _ _)).trans ((last_lacc_eq c _ _ _ _ _ _ _ _ _ _ _ _ _ hf hl _ _ _ _).trans
            (pay5_fill_irrel (grid0.coords t) d0 (fun _ => Scalar.ofBits .f32 0#32) (iblk m c 0 t) (iblk m c 1 t) (hL c t) (accAt m c (t.val - 1) (Nat.lt_of_le_of_lt (Nat.sub_le _ _) t.isLt)).2))
      iexact Hg
    isplitl [Ho]; · iexact Ho
    isplitl [H0]
    · iexists d0; rw [show xfill m c t = win0_0.fill (grid0.coords t) (fun _ => Scalar.ofBits .f32 0#32) (iblk m c 0 t) from rfl, win0_0.cut_fill]
      iexact H0
    isplitl [H1]; · iexact H1
    isplitl [H2]
    · unfold owns; iexists _; isplitr
      swap; · iexact H2
      ipureintro
      exact (View.read_writes_of_cover _ _ outV outV.junk _ (last_sum_cover c _ _ _ _ _ _ _ _ _ _ _ _ _ hf hl _ _ _ _)).trans ((last_sum_eq c _ _ _ _ _ _ _ _ _ _ _ _ _ hf hl _ _ _ _).trans
        (pay4_fill_irrel (grid0.coords t) d0 (fun _ => Scalar.ofBits .f32 0#32) (iblk m c 0 t) (accAt m c (t.val - 1) (Nat.lt_of_le_of_lt (Nat.sub_le _ _) t.isLt)).1))
    · unfold owns; iexists _; isplitr
      swap; · iexact H3
      ipureintro
      exact (View.read_writes_of_cover _ _ outV outV.junk _ (last_logit_cover c _ _ _ _ _ _ _ _ _ _ _ _ _ hf hl _ _ _ _)).trans ((last_logit_eq c _ _ _ _ _ _ _ _ _ _ _ _ _ hf hl _ _ _ _).trans
        (pay5_fill_irrel (grid0.coords t) d0 (fun _ => Scalar.ofBits .f32 0#32) (iblk m c 0 t) (iblk m c 1 t) (hL c t) (accAt m c (t.val - 1) (Nat.lt_of_le_of_lt (Nat.sub_le _ _) t.isLt)).2))

/-- The body at any point. -/
theorem sound_body (hL : LabelsInRange m) (c : Dev nD) (t : Fin cfg0.N) :
    bodyPre m c t ⊢ wp frame (wpE (defs₀ (F := F)) Variants.none c none) Set.univ (bodyAt0 t) (fun _ => bodyPost m c t) := by
  by_cases h0 : t.val % 13 = 0
  · exact sound_first m hL c t h0
  · by_cases h1 : t.val % 13 = 12
    · exact sound_last m hL c t h1
    · exact sound_middle m hL c t h0 h1

/-- The library's body obligation, in the form that describes a clipped window on its moved lanes only. -/
theorem body_obligation (hL : LabelsInRange m) (c : Dev nD) :
    BodyObligationLoose (dats (F := F) m 0 c) (defs₀ (F := F)) Variants.none () Set.univ := fun t => by
  rw [bigSep_W0, bigSep_W0]
  exact sound_body m hL c t

end Cert.Kernel.Body

end
-- ==== Proof.Spec.lean ====
/-
  What both programs compute, as mathematics over the extended reals, with no program in sight.

  For logits `x : 2048 × 50257` and class labels `lab : 2048`, both programs form, row by row,
    S r = ∑ₖ exp (30 · x r k)          the sum of the scaled exponentials over all 50257 classes, and
    l r = x r (lab r)                  the logit of the row's own class,
  and then apply one and the same scalar-valued function of `(S, l)` (the margin loss and its mean).
  The label logit is written as a sum with an indicator, `∑ₖ [k = lab r] · x r k`: that is the form in
  which a kernel that scans the classes block by block meets it, and for a label inside `[0, 50257)` exactly
  one term survives, so it is the entry `x r (lab r)`.
-/
import Idealize.ShloMosaic.PureOps.Ideal
import Idealize.ShloMosaic.Lib.ValueIdx

noncomputable section

namespace Cert.Spec

open Idealize.ShloMosaic Idealize.ShloMosaic.ValueIdx

/-- The logits' shape, the rows' shape. -/
abbrev SX : Shape := ⟨2, ![2048, 50257]⟩
abbrev SR : Shape := ⟨1, ![2048]⟩

/-- One class's term of a row's sum: `exp (30 · v)`, the scale being the word both programs print. -/
def expTerm (v : Ideal .f32) : Ideal .f32 :=
  FloatOps.exp (FloatOps.mulf (FloatOps.ofBits .f32 0x41F00000#32) v)

/-- Row `r`'s sum of scaled exponentials over all classes. -/
def rowSumExp (x : SX.Idx → Ideal .f32) (r : Fin 2048) : EReal :=
  ∑ k : Fin 50257, (expTerm (x (ix2 r k)) : EReal)

/-- Row `r`'s own-class logit, as the sum over the classes of the entries whose position is the label. -/
def labelLogit (x : SX.Idx → Ideal .f32) (lab : SR.Idx → BitVec 32) (r : Fin 2048) : EReal :=
  ∑ k : Fin 50257, if BitVec.ofNat 32 k.val = lab (ix1 r) then (x (ix2 r k) : EReal) else 0

/-- Every label is a class: as a signed word it lies in `[0, 50257)`. -/
def InRange (lab : SR.Idx → BitVec 32) : Prop :=
  ∀ r : Fin 2048, 0 ≤ (lab (ix1 r)).toInt ∧ (lab (ix1 r)).toInt < 50257

end Cert.Spec

end
-- ==== Proof.K.BlockRead.lean ====
/-
  The blocks the body is handed, read at a lane, as entries of the two argument arrays.
-/
import proofs.«429971_j51582557225658_3_alg».proof.Proof.K.Acc
import proofs.«429971_j51582557225658_3_alg».proof.Proof.Spec
import Idealize.ShloMosaic.Lib.ValueIdx
import Idealize.ShloMosaic.Lib.Pipeline.Value
import Idealize.ShloMosaic.Lib.StableHlo.Run

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

/-- The array row that lane row `r` of the block at point `t` is: row tile `t / 13`, 512 rows a tile. -/
def rowOf (t : Fin cfg0.N) (r : Fin 512) : Fin 2048 :=
  ⟨512 * (t.val / 13) + r.val, by have h1 := t.isLt; have h2 : cfg0.N = 52 := N_0; have h3 := r.isLt; omega⟩

/-- Walking the grid row tile by row tile, point `t`'s column block is `t % 13`. -/
theorem coords_col (t : Fin cfg0.N) : ((grid0.coords t) 1).val = t.val % 13 :=
  (by decide +kernel : ∀ t : Fin grid0.N, ((grid0.coords t) 1).val = t.val % 13) t

/-! ## The two index maps and the cut, over the 52 points -/

/-- The logits block at point `t` is block `(t / 13, t % 13)` of the array. -/
theorem logits_index : ∀ t : Fin cfg0.N, win0_0.index t (0 : Fin 2) = t.val / 13 ∧ win0_0.index t (1 : Fin 2) = t.val % 13 :=
  (by decide +kernel : ∀ t : Fin grid0.N, win0_0.index t (0 : Fin 2) = t.val / 13 ∧ win0_0.index t (1 : Fin 2) = t.val % 13)

/-- What of it lies inside the array: all 512 rows; all 4096 columns, but at the last column block the first
    `1105 = 50257 − 12 · 4096` only. -/
theorem logits_extent : ∀ t : Fin cfg0.N, win0_0.xsize (grid0.coords t) (0 : Fin 2) = 512
    ∧ win0_0.xsize (grid0.coords t) (1 : Fin 2) = if t.val % 13 = 12 then 1105 else 4096 :=
  (by decide +kernel : ∀ t : Fin grid0.N, win0_0.xsize (grid0.coords t) (0 : Fin 2) = 512
    ∧ win0_0.xsize (grid0.coords t) (1 : Fin 2) = if t.val % 13 = 12 then 1105 else 4096)

/-- The labels block at point `t` is block `(t / 13, 0)` of the labels column. -/
theorem labels_index : ∀ t : Fin cfg0.N, win0_1.index t (0 : Fin 2) = t.val / 13 ∧ win0_1.index t (1 : Fin 2) = 0 :=
  (by decide +kernel : ∀ t : Fin grid0.N, win0_1.index t (0 : Fin 2) = t.val / 13 ∧ win0_1.index t (1 : Fin 2) = 0)

/-- Lane `(r, b)` of the logits block at point `t` lies inside the array exactly when its column
    `4096 · (t % 13) + b` is one of the 50257: below the last column block `4096 · (t % 13) + b < 4096 · 12 < 50257`
    always, and at the last one the bound `b < 1105` is `4096 · 12 + b < 50257`. -/
theorem inside_iff (t : Fin cfg0.N) (r : Fin 512) (b : Fin 4096) :
    win0_0.moved (grid0.coords t) (ix2 r b) = true ↔ (t.val % 13) * 4096 + b.val < 50257 := by
  rw [Window.moved_iff]
  have hx := logits_extent t
  have hr := r.isLt
  have hb := b.isLt
  have ht : t.val % 13 < 13 := Nat.mod_lt _ (by decide)
  constructor
  · intro h
    have h1 := h (1 : Fin 2)
    rw [hx.2] at h1
    change b.val < _ at h1
    split at h1 <;> omega
  · intro h a
    match a with
    | ⟨0, _⟩ =>
      change r.val < win0_0.xsize (grid0.coords t) (0 : Fin 2)
      rw [hx.1]; exact hr
    | ⟨1, _⟩ =>
      change b.val < win0_0.xsize (grid0.coords t) (1 : Fin 2)
      rw [hx.2]
      split <;> omega

/-! ## A block read at a lane, at any float instance -/

section AnyInstance

variable {F : FTy → Type} [FloatOps F] (m : (ℓ : Loc nD τ sig) → Buf (Elt F) ℓ)

/-- Lane `y` of the part of the logits block inside the array is the array's entry at row
    `512 · (t / 13) + y₀` and column `4096 · (t % 13) + y₁`: no host operation before the region writes the logits,
    and a block's lane sits at block index × block size + the lane's coordinate, on each axis. -/
theorem logits_read (c : Dev nD) (t : Fin cfg0.N) (y : (win0_0.xblock (grid0.coords t)).Idx) (i : S2048x50257.Idx)
    (h0 : (i (0 : Fin 2)).val = 512 * (t.val / 13) + (y (0 : Fin 2)).val)
    (h1 : (i (1 : Fin 2)).val = (t.val % 13) * 4096 + (y (1 : Fin 2)).val) :
    iblk m c 0 t y = m ((c : Thread nD τ).loc main_arg0) i := by
  have hi := logits_index t
  show V m c main_arg0 ((win0_0.blk t).view.emb y) = _
  rw [V_main_arg0]
  refine congrArg _ (funext fun a => Fin.ext ?_)
  match a with
  | ⟨0, _⟩ =>
    show win0_0.index t (0 : Fin 2) * 512 + 1 * (y (0 : Fin 2)).val = (i (0 : Fin 2)).val
    rw [hi.1, h0]; omega
  | ⟨1, _⟩ =>
    show win0_0.index t (1 : Fin 2) * 4096 + 1 * (y (1 : Fin 2)).val = (i (1 : Fin 2)).val
    rw [hi.2, h1]; omega

/-- The labels column as the region finds it: the labels vector reshaped, by the one host operation before the region. -/
theorem labels_column (c : Dev nD) :
    (V m c main_v0 : S2048x1.Idx → BitVec 32)
      = shapeCast S2048x1 (m ((c : Thread nD τ).loc main_arg1)) shapeCasts_S2048_S2048x1 := by
  show StableHlo.after hostOps0 (fun b => m (c, b)) (Proc.devRef .tc main_v0) = _
  after_results
  rfl

/-- Lane `y` of the labels block at point `t` is label `512 · (t / 13) + y₀`: the column's entry `(k, 0)` and the
    vector's entry `k` have the same row-major position `k`. -/
theorem labels_read (c : Dev nD) (t : Fin cfg0.N) (y : S512x1.Idx) (k : Fin 2048)
    (hk : k.val = 512 * (t.val / 13) + (y (0 : Fin 2)).val) :
    (iblk m c 1 t y : BitVec 32) = m ((c : Thread nD τ).loc main_arg1) (ix1 k) := by
  have hi := labels_index t
  show V m c main_v0 ((win0_1.blk t).view.emb y) = _
  rw [labels_column]
  refine shapeCast_apply _ _ _ _ ?_
  show (S2048.rowMajor (ix1 k)).val = (S2048x1.rowMajor ((win0_1.blk t).view.emb y)).val
  rw [Shape.rowMajor_val_one, Shape.rowMajor_val_two]
  show k.val = (win0_1.index t (0 : Fin 2) * 512 + 1 * (y (0 : Fin 2)).val) * 1
    + (win0_1.index t (1 : Fin 2) * 1 + 1 * (y (1 : Fin 2)).val)
  have hy : (y (1 : Fin 2)).val < 1 := (y (1 : Fin 2)).isLt
  rw [hi.1, hi.2, hk]; omega

end AnyInstance

/-- Lane row `r` of the labels block at point `t` is that row's label: the window's array is the labels reshaped to a
    column by the one host operation before the region. Pure layout, so at any float instance. -/
theorem lblk_apply {F : FTy → Type} [FloatOps F] (m : (ℓ : Loc nD τ sig) → Buf (Elt F) ℓ)
    (c : Dev nD) (t : Fin cfg0.N) (r : Fin 512) :
    (lblk m c t (ix2 r (0 : Fin 1)) : BitVec 32) = m ((c : Thread nD τ).loc main_arg1) (ix1 (rowOf t r)) :=
  labels_read m c t _ _ rfl

variable (m : (ℓ : Loc nD τ sig) → Buf (Elt Ideal) ℓ)

/-- Lane `(r, b)` of the logits block at point `t`, when its column `4096·(t % 13) + b` exists, is that entry of the
    logits array. -/
theorem xfill_apply (c : Dev nD) (t : Fin cfg0.N) (r : Fin 512) (b : Fin 4096) (h : (t.val % 13) * 4096 + b.val < 50257) :
    (xfill (F := Ideal) m c t (ix2 r b) : EReal)
      = (m ((c : Thread nD τ).loc main_arg0) (ix2 (rowOf t r) (⟨(t.val % 13) * 4096 + b.val, h⟩ : Fin 50257)) : EReal) := by
  unfold xfill Window.fill
  rw [dif_pos ((inside_iff t r b).mpr h)]
  exact logits_read m c t _ _ rfl rfl

/-- A lane whose column does not exist holds the zero word. -/
theorem xfill_outside (c : Dev nD) (t : Fin cfg0.N) (r : Fin 512) (b : Fin 4096) (h : ¬(t.val % 13) * 4096 + b.val < 50257) :
    (xfill (F := Ideal) m c t (ix2 r b) : EReal) = 0 := by
  unfold xfill
  rw [Window.fill_of_not_moved _ _ _ _ (fun hm => h ((inside_iff t r b).mp hm))]
  -- the all-zero word denotes the real number zero
  show Ideal.ofBits .f32 0#32 = 0
  simp [Ideal.ofBits, Ideal.ieee]

end Cert.Kernel.Body

end
-- ==== Proof.PreRange.lean ====
/-
  The printed precondition, read at the labels: every label is a class.
-/
import proofs.«429971_j51582557225658_3_alg».proof.Pre_finite_inputs
import proofs.«429971_j51582557225658_3_alg».proof.Proof.Gen.Pre_finite_inputs
import proofs.«429971_j51582557225658_3_alg».proof.Proof.Spec
import Idealize.ShloMosaic.Lib.ReduceAll
import Idealize.ShloMosaic.Lib.StableHlo.Predicate
import Idealize.ShloMosaic.Lib.ValueIdx

set_option maxRecDepth 16384

noncomputable section

namespace Cert.PreRange

open Idealize.ShloMosaic Idealize.ShloMosaic.ValueIdx

/-- If the precondition's predicate is all ones on logits `x` and labels `lab`, at any instance, every label lies in
    `[0, 50257)` as a signed word: the predicate's second conjunct is the conjunction over the rows of
    `lab r ≥ 0` and `lab r < 50257`, both signed compares. -/
theorem inRange_of_pre {F : FTy → Type} [FloatOps F] [Cert.Pre_finite_inputs.Facts]
    (x : FVec F Cert.Pre_finite_inputs.S2048x50257 .f32) (lab : IVec Cert.Pre_finite_inputs.S2048 32)
    (h : Cert.Pre_finite_inputs.fn (F := F) x lab = fun _ => 1#1) : Cert.Spec.InRange lab := by
  intro r
  -- the predicate's one element is the conjunction of the float half and the label half
  have h0 := congrFun h ix0
  dsimp only [Cert.Pre_finite_inputs.fn] at h0
  -- keep the label half: the conjunction over all rows of the two compares
  have h9 := (IntOp.andi_eq_one.1 h0).2
  -- a conjunction over all rows that is one is one at row `r`
  haveI : Subsingleton Cert.Pre_finite_inputs.S_.Idx := ⟨fun a b => funext fun d => d.elim0⟩
  have hr := Host.reduce_andi_all _ _ _ _ _ h9 (ix1 r)
  obtain ⟨hge, hlt⟩ := IntOp.andi_eq_one.1 hr
  -- a scalar spread over the rows reads as that scalar at every row
  change IntOp.cmpi .sge (lab (ix1 r)) 0#32 = 1#1 at hge
  change IntOp.cmpi .slt (lab (ix1 r)) 50257#32 = 1#1 at hlt
  -- both compares are signed: they order the words as integers
  have hge' := IntOp.cmpi_sge.1 hge
  have hlt' := IntOp.cmpi_slt.1 hlt
  have e0 : (0#32 : BitVec 32).toInt = 0 := by decide
  have e1 : (50257#32 : BitVec 32).toInt = 50257 := by decide
  rw [e0] at hge'
  rw [e1] at hlt'
  exact ⟨hge', hlt'⟩

end Cert.PreRange

end
-- ==== Proof.K.Range.lean ====
/-
  From the precondition to the frame's hypothesis: every label the body ever reads is a class.

  A lane row of a row tile's label block is a label of the labels array (the block is a slice of the labels reshaped
  to a column), and the precondition's predicate, all ones, bounds every label of the array as a signed word.
-/
import proofs.«429971_j51582557225658_3_alg».proof.Proof.K.Frame.Body
import proofs.«429971_j51582557225658_3_alg».proof.Proof.K.BlockRead
import proofs.«429971_j51582557225658_3_alg».proof.Proof.PreRange

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

/-- If the precondition's predicate is all ones on every core's two argument arrays, every label of every row tile's
    block lies in `[0, 50257)`. -/
theorem labelsInRange_of_pre [Cert.Pre_finite_inputs.Facts] (m : (ℓ : Loc nD τ sig) → Buf (Elt F) ℓ)
    (h : ∀ c : Dev nD, Cert.Pre_finite_inputs.fn (F := F) (m ((c.tc : Thread nD τ).loc main_arg0)) (m ((c.tc : Thread nD τ).loc main_arg1)) = fun _ => 1#1) :
    LabelsInRange m := by
  intro c t y
  obtain ⟨r, z, rfl⟩ : ∃ (r : Fin 512) (z : Fin 1), y = ix2 r z := ⟨y 0, y 1, eq_ix2 y⟩
  obtain rfl : z = 0 := Subsingleton.elim _ _
  have e : (iblk m c 1 t (ix2 r (0 : Fin 1)) : BitVec 32) = m ((c : Thread nD τ).loc main_arg1) (ix1 (rowOf t r)) :=
    lblk_apply m c t r
  rw [e]
  exact Cert.PreRange.inRange_of_pre _ _ (h c) (rowOf t r)

end Cert.Kernel.Body

end
-- ==== Proof.K.Frame.Launch.lean ====
/-
  The run of the whole program, and the frame claim.

  The launch hands the region its two scratch buffers at anything, which is the invariant before the first point;
  after the last point the invariant gives them back, their contents forgotten. With the body obligation at every
  point this is all the library's run theorem asks for a pipeline whose @main continues with host operations after
  the region: every weakly fair execution terminates, faults nowhere, and ends with every array of the pipeline at
  what the proof data computes and every other buffer as the later host operations leave it.
-/
import proofs.«429971_j51582557225658_3_alg».proof.Proof.K.Frame.Body

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back at some contents. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 52 := N_0; omega), PhiA_eq]
  iintro ⟨⟨HA, HL⟩, Hg⟩
  isplitl [HA HL]
  · isplitl [HA]
    · iexists _; iexact HA
    iexists _; iexact HL
  iexact Hg

set_option backward.isDefEq.respectTransparency.types false in
/-- When every label is a class: from any memory with zero counters every weakly fair execution of @main terminates
    without a fault, every array of the pipeline ending at what the proof data computes and every other unscoped
    buffer as the host operations after the region leave it. -/
theorem run_main (hL : LabelsInRange m) :
    θ_run defs (onTc (τ := τ) (main (F := F))) (s₀ m ρ)
      (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m hL c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim: the program runs to the end and both argument arrays end as they began. -/
theorem frame (hL : LabelsInRange m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ hL)

end Cert.Kernel.Body

end
-- ==== Proof.KI.Cases.lean ====
/-
  What the three control cases of the kernel body share.

  The body branches twice on the column-block coordinate `j` of the grid point: at `j = 0` it first stores zeros
  into its two scratch sums; at `j = 12`, the last block, it finally copies the two sums into the two output blocks.
  Walking the 52 points row tile by row tile, `j = t % 13`, so a point is in exactly one of three cases:
    first   (`t % 13 = 0`):   reset, then accumulate;
    middle  (`0 < t % 13 < 12`): accumulate;
    last    (`t % 13 = 12`):  accumulate, then copy out.
  The two output windows are stored into only in the last case; at every other point they are idle and are not
  written back. The two scratch buffers are the kernel's own: the pipeline stages neither.
-/
import proofs.«429971_j51582557225658_3_alg».proof.Proof.Gen.KernelIdeal.Frame
import proofs.«429971_j51582557225658_3_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## The two branch conditions, from the grid coordinates -/

/-- The body's first branch (`j = 0`), as the kernel computes it from the point's second coordinate. -/
abbrev firstBlock (i : grid0.Coords) : Prop :=
  (Scalar.cmpi .ne (Scalar.extui (Scalar.cmpi .eq (BitVec.ofNat 32 (i 1).val) 0#32)) 0#32) = 1#1
/-- It is taken exactly at the first column block of each row tile. -/
theorem firstBlock_iff : ∀ t : Fin cfg0.N, firstBlock (grid0.coords t) ↔ t.val % 13 = 0 :=
  (by decide +kernel : ∀ t : Fin grid0.N, firstBlock (grid0.coords t) ↔ t.val % 13 = 0)

/-- The body's second branch (`j = 12`). -/
abbrev lastBlock (i : grid0.Coords) : Prop := k0_cond2 i = 1#1
/-- It is taken exactly at the last column block of each row tile. -/
theorem lastBlock_iff : ∀ t : Fin cfg0.N, lastBlock (grid0.coords t) ↔ t.val % 13 = 12 :=
  (by decide +kernel : ∀ t : Fin grid0.N, lastBlock (grid0.coords t) ↔ t.val % 13 = 12)

/-! ## Where the windows are idle, and where the outputs are written back -/

/-- The two input windows are never idle. -/
theorem live_x : ∀ t : Fin cfg0.N, cfg0.idle 0 (grid0.coords t) = false := by decide +kernel
theorem live_lab : ∀ t : Fin cfg0.N, cfg0.idle 1 (grid0.coords t) = false := by decide +kernel
/-- Off the last column block the two output windows are idle and are not written back. -/
theorem idle_sum : ∀ t : Fin cfg0.N, ¬lastBlock (grid0.coords t) → cfg0.idle 2 (grid0.coords t) = true := by decide +kernel
theorem idle_logit : ∀ t : Fin cfg0.N, ¬lastBlock (grid0.coords t) → cfg0.idle 3 (grid0.coords t) = true := by decide +kernel
theorem noFlush_sum : ∀ t : Fin cfg0.N, ¬lastBlock (grid0.coords t) → (cfg0.win 2).flush t = false := by decide +kernel
theorem noFlush_logit : ∀ t : Fin cfg0.N, ¬lastBlock (grid0.coords t) → (cfg0.win 3).flush t = false := by decide +kernel
/-- At the last column block they are live. -/
theorem live_sum : ∀ t : Fin cfg0.N, lastBlock (grid0.coords t) → cfg0.idle 2 (grid0.coords t) = false := by decide +kernel
theorem live_logit : ∀ t : Fin cfg0.N, lastBlock (grid0.coords t) → cfg0.idle 3 (grid0.coords t) = false := by decide +kernel

/-! ## The memrefs the body is called with -/

/-- Each window's current staging memref at point `t`, as the pipeline passes it, and its wholeness. -/
abbrev xM (t : Fin cfg0.N) : Memref sig .tc .vmem S512x4096 .f32 := win0_0.stage (cfg0.slots t 0)
abbrev hxM (t : Fin cfg0.N) : (xM t).IsWhole := hstage0_0 ((cfg0.slots t 0).cast nbuf0_0)
abbrev labM (t : Fin cfg0.N) : Memref sig .tc .vmem S512x1 .i32 := win0_1.stage (cfg0.slots t 1)
abbrev hlabM (t : Fin cfg0.N) : (labM t).IsWhole := hstage0_1 ((cfg0.slots t 1).cast nbuf0_1)
abbrev sumM (t : Fin cfg0.N) : Memref sig .tc .vmem S512x1 .f32 := win0_2.stage (cfg0.slots t 2)
abbrev hsumM (t : Fin cfg0.N) : (sumM t).IsWhole := hstage0_2 ((cfg0.slots t 2).cast nbuf0_2)
abbrev logitM (t : Fin cfg0.N) : Memref sig .tc .vmem S512x1 .f32 := win0_3.stage (cfg0.slots t 3)
abbrev hlogitM (t : Fin cfg0.N) : (logitM t).IsWhole := hstage0_3 ((cfg0.slots t 3).cast nbuf0_3)
/-- The two scratch sums: whole scoped buffers of the kernel's own. -/
abbrev accM : Memref sig .tc .vmem S512x1 .f32 := Memref.whole cc0_scratch0
abbrev laccM : Memref sig .tc .vmem S512x1 .f32 := Memref.whole cc0_scratch1
/-- Views through which what a 512×1 buffer holds is stated (which buffer does not matter: a cover is read back). -/
abbrev accV : View sig .tc .vmem S512x1 .f32 := accM.view
abbrev laccV : View sig .tc .vmem S512x1 .f32 := laccM.view
abbrev outV : View sig .tc .vmem S512x1 .f32 := (Memref.whole cc0_stg2_0 : Memref sig .tc .vmem S512x1 .f32).view

/-- What the launch hands the region and takes back: the two scratch sums owned whole at some contents, and the
    generator register at some state. -/
theorem PhiA_eq (c : Dev nD) :
    (Pipeline.ΦA spec0 c : sProp 𝕄)
      = iprop(iprop((∃ d, owns (c : Thread nD τ) accM fullShare d) ∗ (∃ d, owns (c : Thread nD τ) laccM fullShare d)) ∗ (∃ r, prngReg c r)) := by
  unfold Pipeline.ΦA; rw [scopedRest0_eq]; simp only [accM, laccM, owns_whole]; try rfl

end Cert.KernelIdeal.Body

end
-- ==== Proof.KI.Run.First.lean ====
/-
  The kernel body at the first column block of a row tile (`j = 0`).

  It stores zeros into both scratch sums, loads the logits block and the labels, adds the block's lane sums to the
  zeros and stores the two results back into the scratch; the second branch is not taken, so the two output buffers
  are never touched. On whole memrefs — the logits block at `x0`, the labels at `x1`, the outputs at whatever they
  hold, the scratch at anything — the body runs to its continuation with the inputs and outputs as they were and
  each scratch holding the pieces its stores wrote; which pieces is what the run finds.
-/
import proofs.«429971_j51582557225658_3_alg».proof.Proof.KI.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 2000000 in
/-- The body's run at a first column block: the pieces left in the two scratch sums, with the triple. -/
noncomputable def runFirst (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : firstBlock i) (hc1 : ¬lastBlock i) (x0 : Vec F S512x4096 .f32) (x1 : Vec F S512x1 .i32) :
    Σ' (LA : List (View.Piece (Elt F) S512x1 .f32)), { LL : List (View.Piece (Elt F) S512x1 .f32) //
      ∀ (o2 o3 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare o2 ∗ owns (c : Thread nD τ) arg5 fullShare o3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare o2 ∗ owns (c : Thread nD τ) arg5 fullShare o3
                ∗ (∃ f, arg6.view.loc (c : Thread nD τ) ↦[arg6.view.set]{fullShare} arg6.view.writes (Elt F) f LA)
                ∗ (∃ f, arg7.view.loc (c : Thread nD τ) ↦[arg7.view.set]{fullShare} arg7.view.writes (Elt F) f LL)) -∗ K ⟨⟩))
          ⊢ wp frame (wpE (defs₀ (F := F)) Variants.none c none) E (cc0__sumexp_label_kernel i arg2 harg2 arg3 harg3 arg4 harg4 arg5 harg5 arg6 harg6 arg7 harg7) K } := by
  refine ⟨?_, ?_, fun o2 o3 E K => ?run⟩
  case run =>
    simp only [cc0__sumexp_label_kernel_eq_skeleton]; unfold cc0__sumexp_label_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%da, %fa, -, HA⟩, ⟨%dl, %fl, -, HL⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HA]
    · iexists _; iexact HA
    iexists _; iexact HL

end Cert.KernelIdeal.Body

end
-- ==== Proof.KI.Run.Middle.lean ====
/-
  The kernel body at a column block that is neither the first nor the last of its row tile (`0 < j < 12`).

  Neither branch is taken: it loads the logits block, the labels and the two scratch sums, adds the block's lane sums
  and stores the two results back. On whole memrefs — the scratch sums at the contents `a0`, `l0` the point before
  left — it runs to its continuation with inputs and outputs as they were and each scratch holding the piece its one
  store wrote.
-/
import proofs.«429971_j51582557225658_3_alg».proof.Proof.KI.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 2000000 in
/-- The body's run at a middle column block: the pieces left in the two scratch sums, with the triple. -/
noncomputable def runMiddle (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬firstBlock i) (hc1 : ¬lastBlock i) (x0 : Vec F S512x4096 .f32) (x1 : Vec F S512x1 .i32) (a0 l0 : Vec F S512x1 .f32) :
    Σ' (LA : List (View.Piece (Elt F) S512x1 .f32)), { LL : List (View.Piece (Elt F) S512x1 .f32) //
      ∀ (o2 o3 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare o2 ∗ owns (c : Thread nD τ) arg5 fullShare o3
            ∗ owns (c : Thread nD τ) arg6 fullShare a0 ∗ owns (c : Thread nD τ) arg7 fullShare l0
            ∗ (iprop(owns (c : Thread nD τ) arg2 fullShare x0 ∗ owns (c : Thread nD τ) arg3 fullShare x1 ∗ owns (c : Thread nD τ) arg4 fullShare o2 ∗ owns (c : Thread nD τ) arg5 fullShare o3
                ∗ (∃ f, arg6.view.loc (c : Thread nD τ) ↦[arg6.view.set]{fullShare} arg6.view.writes (Elt F) f LA)
                ∗ (∃ f, arg7.view.loc (c : Thread nD τ) ↦[arg7.view.set]{fullShare} arg7.view.writes (Elt F) f LL)) -∗ K ⟨⟩))
          ⊢ wp frame (wpE (defs₀ (F := F)) Variants.none c none) E (cc0__sumexp_label_kernel i arg2 harg2 arg3 harg3 arg4 harg4 arg5 harg5 arg6 harg6 arg7 harg7) K } := by
  refine ⟨?_, ?_, fun o2 o3 E K => ?run⟩
  case run =>
    simp only [cc0__sumexp_label_kernel_eq_skeleton]; unfold cc0__sumexp_label_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fa, %hfa, HA⟩, ⟨%fl, %hfl, HL⟩, Hk⟩
    obtain rfl := harg2.eq_unread hf0; obtain rfl := harg3.eq_unread hf1
    obtain rfl := harg4.eq_unread hf2; obtain rfl := harg5.eq_unread hf3
    obtain rfl := harg6.eq_unread hfa; obtain rfl := harg7.eq_unread hfl
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HA]
    · iexists _; iexact HA
    iexists _; iexact HL

end Cert.KernelIdeal.Body

end
-- ==== Proof.KI.Run.Last.lean ====
/-
  The kernel body at the last column block of a row tile (`j = 12`).

  The first branch is not taken; it accumulates as at a middle block, and then the second branch copies the two
  scratch sums into the two output buffers. On whole memrefs — the scratch sums at the contents `a0`, `l0` the point
  before left, the outputs at anything — it runs to its continuation with the inputs as they were and each output
  and each scratch holding the pieces its stores wrote.
-/
import proofs.«429971_j51582557225658_3_alg».proof.Proof.KI.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 2000000 in
/-- The body's run at a last column block: the pieces left in the two outputs and the two scratch sums, with the triple. -/
noncomputable def runLast (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬firstBlock i) (hc1 : lastBlock i) (x0 : Vec F S512x4096 .f32) (x1 : Vec F S512x1 .i32) (a0 l0 : Vec F S512x1 .f32) :
    Σ' (LS : List (View.Piece (Elt F) S512x1 .f32)) (LG : List (View.Piece (Elt F) S512x1 .f32))
       (LA : List (View.Piece (Elt F) S512x1 .f32)), { LL : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ owns (c : Thread nD τ) arg6 fullShare a0 ∗ owns (c : Thread nD τ) arg7 fullShare l0
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LS)
                ∗ (∃ f, arg5.view.loc (c : Thread nD τ) ↦[arg5.view.set]{fullShare} arg5.view.writes (Elt F) f LG)
                ∗ (∃ f, arg6.view.loc (c : Thread nD τ) ↦[arg6.view.set]{fullShare} arg6.view.writes (Elt F) f LA)
                ∗ (∃ f, arg7.view.loc (c : Thread nD τ) ↦[arg7.view.set]{fullShare} arg7.view.writes (Elt F) f LL)) -∗ K ⟨⟩))
          ⊢ wp frame (wpE (defs₀ (F := F)) Variants.none c none) E (cc0__sumexp_label_kernel i arg2 harg2 arg3 harg3 arg4 harg4 arg5 harg5 arg6 harg6 arg7 harg7) K } := by
  refine ⟨?_, ?_, ?_, ?_, fun E K => ?run⟩
  case run =>
    simp only [cc0__sumexp_label_kernel_eq_skeleton]; unfold cc0__sumexp_label_kernel_skel
    simp only [k0_part1_eq_skeleton]; unfold k0_part1_skel
    unfold owns
    iintro ⟨⟨%f0, %hf0, H0⟩, ⟨%f1, %hf1, H1⟩, ⟨%d2, %f2, -, H2⟩, ⟨%d3, %f3, -, H3⟩, ⟨%fa, %hfa, HA⟩, ⟨%fl, %hfl, HL⟩, Hk⟩
    obtain rfl := harg2.eq_unread hf0; obtain rfl := harg3.eq_unread hf1
    obtain rfl := harg6.eq_unread hfa; obtain rfl := harg7.eq_unread hfl
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    isplitl [HA]
    · iexists _; iexact HA
    iexists _; iexact HL

end Cert.KernelIdeal.Body

end
-- ==== Proof.KI.Frame.Pieces.lean ====
/-
  What each control case leaves in the buffers it writes, as the body's named values.

  A case's run finds, for each buffer it stores into, the list of pieces written (last first). Every store here is a
  whole 512 × 1 block, so the last one alone covers the buffer and what is read back is its value: the new sum of
  scaled exponentials or the new own-class logit, computed from the logits block, the labels, and the sum so far —
  the stored zeros at a first column block (read back through the load that follows the zeroing store), the carried
  contents otherwise. At a last column block the two outputs receive what was just stored into the two scratch sums.
-/
import proofs.«429971_j51582557225658_3_alg».proof.Proof.KI.Run.First
import proofs.«429971_j51582557225658_3_alg».proof.Proof.KI.Run.Middle
import proofs.«429971_j51582557225658_3_alg».proof.Proof.KI.Run.Last
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

/-- At a first column block the stores into the first scratch sum cover it. -/
theorem first_acc_cover (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : firstBlock i) (hc1 : ¬lastBlock i) (x0 : Vec F S512x4096 .f32) (x1 : Vec F S512x1 .i32) (y : S512x1.Idx) :
    ∃ pc ∈ (runFirst c i arg2 harg2 arg3 harg3 arg4 harg4 arg5 harg5 arg6 harg6 arg7 harg7 hc0 hc1 x0 x1).1, y ∈ pc.1.set :=
  View.cover_of_tiledL (runFirst c i arg2 harg2 arg3 harg3 arg4 harg4 arg5 harg5 arg6 harg6 arg7 harg7 hc0 hc1 x0 x1).1 S512x1.size (by sl_kernel_rfl) y

/-- and leave the block's lane sums of scaled exponentials added to the stored zeros. -/
theorem first_acc_eq (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : firstBlock i) (hc1 : ¬lastBlock i) (x0 : Vec F S512x4096 .f32) (x1 : Vec F S512x1 .i32) :
    accV.read (Elt F) (accV.writes (Elt F) accV.junk (runFirst c i arg2 harg2 arg3 harg3 arg4 harg4 arg5 harg5 arg6 harg6 arg7 harg7 hc0 hc1 x0 x1).1)
      = k0_pay4 i x0 k0_pay1 := by
  rw [View.read_writes_eq_canon _ _ _ (first_acc_cover c i arg2 harg2 arg3 harg3 arg4 harg4 arg5 harg5 arg6 harg6 arg7 harg7 hc0 hc1 x0 x1)]
  unfold runFirst
  dsimp only
  sl_unfold_words
  have hz : (![0, 0] : Fin 2 → Nat) = fun _ => 0 := funext fun a => by fin_cases a <;> rfl
  rw [View.canon_cons_unit_zero (S := S512x1) hz]
  simp only [View.readAt_eq_ld, harg2.read_unread, harg3.read_unread, harg6.read_unread, harg7.read_unread,
    View.ld_unit_zero (S := S512x4096) hz, View.ld_unit_zero (S := S512x1) hz, View.readCov_unit_zero (S := S512x1) _ hz]

/-- Likewise the second scratch sum: -/
theorem first_lacc_cover (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : firstBlock i) (hc1 : ¬lastBlock i) (x0 : Vec F S512x4096 .f32) (x1 : Vec F S512x1 .i32) (y : S512x1.Idx) :
    ∃ pc ∈ (runFirst c i arg2 harg2 arg3 harg3 arg4 harg4 arg5 harg5 arg6 harg6 arg7 harg7 hc0 hc1 x0 x1).2.1, y ∈ pc.1.set :=
  View.cover_of_tiledL (runFirst c i arg2 harg2 arg3 harg3 arg4 harg4 arg5 harg5 arg6 harg6 arg7 harg7 hc0 hc1 x0 x1).2.1 S512x1.size (by sl_kernel_rfl) y

/-- it is left at the block's own-class entries added to the stored zeros. -/
theorem first_lacc_eq (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : firstBlock i) (hc1 : ¬lastBlock i) (x0 : Vec F S512x4096 .f32) (x1 : Vec F S512x1 .i32) :
    laccV.read (Elt F) (laccV.writes (Elt F) laccV.junk (runFirst c i arg2 harg2 arg3 harg3 arg4 harg4 arg5 harg5 arg6 harg6 arg7 harg7 hc0 hc1 x0 x1).2.1)
      = k0_pay5 i x0 x1 k0_pay2 := by
  rw [View.read_writes_eq_canon _ _ _ (first_lacc_cover c i arg2 harg2 arg3 harg3 arg4 harg4 arg5 harg5 arg6 harg6 arg7 harg7 hc0 hc1 x0 x1)]
  unfold runFirst
  dsimp only
  sl_unfold_words
  have hz : (![0, 0] : Fin 2 → Nat) = fun _ => 0 := funext fun a => by fin_cases a <;> rfl
  rw [View.canon_cons_unit_zero (S := S512x1) hz]
  simp only [View.readAt_eq_ld, harg2.read_unread, harg3.read_unread, harg6.read_unread, harg7.read_unread,
    View.ld_unit_zero (S := S512x4096) hz, View.ld_unit_zero (S := S512x1) hz, View.readCov_unit_zero (S := S512x1) _ hz]

/-- At a middle column block the one store into the first scratch sum covers it, -/
theorem middle_acc_cover (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬firstBlock i) (hc1 : ¬lastBlock i) (x0 : Vec F S512x4096 .f32) (x1 : Vec F S512x1 .i32) (a0 l0 : Vec F S512x1 .f32) (y : S512x1.Idx) :
    ∃ pc ∈ (runMiddle c i arg2 harg2 arg3 harg3 arg4 harg4 arg5 harg5 arg6 harg6 arg7 harg7 hc0 hc1 x0 x1 a0 l0).1, y ∈ pc.1.set :=
  View.cover_of_tiledL (runMiddle c i arg2 harg2 arg3 harg3 arg4 harg4 arg5 harg5 arg6 harg6 arg7 harg7 hc0 hc1 x0 x1 a0 l0).1 S512x1.size (by sl_kernel_rfl) y

/-- leaving the block's lane sums added to the carried sum. -/
theorem middle_acc_eq (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬firstBlock i) (hc1 : ¬lastBlock i) (x0 : Vec F S512x4096 .f32) (x1 : Vec F S512x1 .i32) (a0 l0 : Vec F S512x1 .f32) :
    accV.read (Elt F) (accV.writes (Elt F) accV.junk (runMiddle c i arg2 harg2 arg3 harg3 arg4 harg4 arg5 harg5 arg6 harg6 arg7 harg7 hc0 hc1 x0 x1 a0 l0).1)
      = k0_pay4 i x0 a0 := by
  rw [View.read_writes_eq_canon _ _ _ (middle_acc_cover c i arg2 harg2 arg3 harg3 arg4 harg4 arg5 harg5 arg6 harg6 arg7 harg7 hc0 hc1 x0 x1 a0 l0)]
  unfold runMiddle
  dsimp only
  sl_unfold_words
  have hz : (![0, 0] : Fin 2 → Nat) = fun _ => 0 := funext fun a => by fin_cases a <;> rfl
  rw [View.canon_cons_unit_zero (S := S512x1) hz]
  simp only [View.readAt_eq_ld, harg2.read_unread, harg3.read_unread, harg6.read_unread, harg7.read_unread,
    View.ld_unit_zero (S := S512x4096) hz, View.ld_unit_zero (S := S512x1) hz, View.readCov_unit_zero (S := S512x1) _ hz]

/-- and the one store into the second covers it, -/
theorem middle_lacc_cover (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬firstBlock i) (hc1 : ¬lastBlock i) (x0 : Vec F S512x4096 .f32) (x1 : Vec F S512x1 .i32) (a0 l0 : Vec F S512x1 .f32) (y : S512x1.Idx) :
    ∃ pc ∈ (runMiddle c i arg2 harg2 arg3 harg3 arg4 harg4 arg5 harg5 arg6 harg6 arg7 harg7 hc0 hc1 x0 x1 a0 l0).2.1, y ∈ pc.1.set :=
  View.cover_of_tiledL (runMiddle c i arg2 harg2 arg3 harg3 arg4 harg4 arg5 harg5 arg6 harg6 arg7 harg7 hc0 hc1 x0 x1 a0 l0).2.1 S512x1.size (by sl_kernel_rfl) y

/-- leaving the block's own-class entries added to the carried logit. -/
theorem middle_lacc_eq (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬firstBlock i) (hc1 : ¬lastBlock i) (x0 : Vec F S512x4096 .f32) (x1 : Vec F S512x1 .i32) (a0 l0 : Vec F S512x1 .f32) :
    laccV.read (Elt F) (laccV.writes (Elt F) laccV.junk (runMiddle c i arg2 harg2 arg3 harg3 arg4 harg4 arg5 harg5 arg6 harg6 arg7 harg7 hc0 hc1 x0 x1 a0 l0).2.1)
      = k0_pay5 i x0 x1 l0 := by
  rw [View.read_writes_eq_canon _ _ _ (middle_lacc_cover c i arg2 harg2 arg3 harg3 arg4 harg4 arg5 harg5 arg6 harg6 arg7 harg7 hc0 hc1 x0 x1 a0 l0)]
  unfold runMiddle
  dsimp only
  sl_unfold_words
  have hz : (![0, 0] : Fin 2 → Nat) = fun _ => 0 := funext fun a => by fin_cases a <;> rfl
  rw [View.canon_cons_unit_zero (S := S512x1) hz]
  simp only [View.readAt_eq_ld, harg2.read_unread, harg3.read_unread, harg6.read_unread, harg7.read_unread,
    View.ld_unit_zero (S := S512x4096) hz, View.ld_unit_zero (S := S512x1) hz, View.readCov_unit_zero (S := S512x1) _ hz]

/-- At a last column block the copy into the first output covers it, -/
theorem last_sum_cover (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬firstBlock i) (hc1 : lastBlock i) (x0 : Vec F S512x4096 .f32) (x1 : Vec F S512x1 .i32) (a0 l0 : Vec F S512x1 .f32) (y : S512x1.Idx) :
    ∃ pc ∈ (runLast c i arg2 harg2 arg3 harg3 arg4 harg4 arg5 harg5 arg6 harg6 arg7 harg7 hc0 hc1 x0 x1 a0 l0).1, y ∈ pc.1.set :=
  View.cover_of_tiledL (runLast c i arg2 harg2 arg3 harg3 arg4 harg4 arg5 harg5 arg6 harg6 arg7 harg7 hc0 hc1 x0 x1 a0 l0).1 S512x1.size (by sl_kernel_rfl) y

/-- leaving the sum just stored into the first scratch. -/
theorem last_sum_eq (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬firstBlock i) (hc1 : lastBlock i) (x0 : Vec F S512x4096 .f32) (x1 : Vec F S512x1 .i32) (a0 l0 : Vec F S512x1 .f32) :
    outV.read (Elt F) (outV.writes (Elt F) outV.junk (runLast c i arg2 harg2 arg3 harg3 arg4 harg4 arg5 harg5 arg6 harg6 arg7 harg7 hc0 hc1 x0 x1 a0 l0).1)
      = k0_pay4 i x0 a0 := by
  rw [View.read_writes_eq_canon _ _ _ (last_sum_cover c i arg2 harg2 arg3 harg3 arg4 harg4 arg5 harg5 arg6 harg6 arg7 harg7 hc0 hc1 x0 x1 a0 l0)]
  unfold runLast
  dsimp only
  sl_unfold_words
  have hz : (![0, 0] : Fin 2 → Nat) = fun _ => 0 := funext fun a => by fin_cases a <;> rfl
  rw [View.canon_cons_unit_zero (S := S512x1) hz]
  simp only [View.readAt_eq_ld, harg2.read_unread, harg3.read_unread, harg6.read_unread, harg7.read_unread,
    View.ld_unit_zero (S := S512x4096) hz, View.ld_unit_zero (S := S512x1) hz, View.readCov_unit_zero (S := S512x1) _ hz]

/-- the copy into the second output covers it, -/
theorem last_logit_cover (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬firstBlock i) (hc1 : lastBlock i) (x0 : Vec F S512x4096 .f32) (x1 : Vec F S512x1 .i32) (a0 l0 : Vec F S512x1 .f32) (y : S512x1.Idx) :
    ∃ pc ∈ (runLast c i arg2 harg2 arg3 harg3 arg4 harg4 arg5 harg5 arg6 harg6 arg7 harg7 hc0 hc1 x0 x1 a0 l0).2.1, y ∈ pc.1.set :=
  View.cover_of_tiledL (runLast c i arg2 harg2 arg3 harg3 arg4 harg4 arg5 harg5 arg6 harg6 arg7 harg7 hc0 hc1 x0 x1 a0 l0).2.1 S512x1.size (by sl_kernel_rfl) y

/-- leaving the logit just stored into the second scratch. -/
theorem last_logit_eq (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬firstBlock i) (hc1 : lastBlock i) (x0 : Vec F S512x4096 .f32) (x1 : Vec F S512x1 .i32) (a0 l0 : Vec F S512x1 .f32) :
    outV.read (Elt F) (outV.writes (Elt F) outV.junk (runLast c i arg2 harg2 arg3 harg3 arg4 harg4 arg5 harg5 arg6 harg6 arg7 harg7 hc0 hc1 x0 x1 a0 l0).2.1)
      = k0_pay5 i x0 x1 l0 := by
  rw [View.read_writes_eq_canon _ _ _ (last_logit_cover c i arg2 harg2 arg3 harg3 arg4 harg4 arg5 harg5 arg6 harg6 arg7 harg7 hc0 hc1 x0 x1 a0 l0)]
  unfold runLast
  dsimp only
  sl_unfold_words
  have hz : (![0, 0] : Fin 2 → Nat) = fun _ => 0 := funext fun a => by fin_cases a <;> rfl
  rw [View.canon_cons_unit_zero (S := S512x1) hz]
  simp only [View.readAt_eq_ld, harg2.read_unread, harg3.read_unread, harg6.read_unread, harg7.read_unread,
    View.ld_unit_zero (S := S512x4096) hz, View.ld_unit_zero (S := S512x1) hz, View.readCov_unit_zero (S := S512x1) _ hz]

/-- and the two scratch sums are stored as at a middle block: -/
theorem last_acc_cover (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬firstBlock i) (hc1 : lastBlock i) (x0 : Vec F S512x4096 .f32) (x1 : Vec F S512x1 .i32) (a0 l0 : Vec F S512x1 .f32) (y : S512x1.Idx) :
    ∃ pc ∈ (runLast c i arg2 harg2 arg3 harg3 arg4 harg4 arg5 harg5 arg6 harg6 arg7 harg7 hc0 hc1 x0 x1 a0 l0).2.2.1, y ∈ pc.1.set :=
  View.cover_of_tiledL (runLast c i arg2 harg2 arg3 harg3 arg4 harg4 arg5 harg5 arg6 harg6 arg7 harg7 hc0 hc1 x0 x1 a0 l0).2.2.1 S512x1.size (by sl_kernel_rfl) y

/-- the first, -/
theorem last_acc_eq (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬firstBlock i) (hc1 : lastBlock i) (x0 : Vec F S512x4096 .f32) (x1 : Vec F S512x1 .i32) (a0 l0 : Vec F S512x1 .f32) :
    accV.read (Elt F) (accV.writes (Elt F) accV.junk (runLast c i arg2 harg2 arg3 harg3 arg4 harg4 arg5 harg5 arg6 harg6 arg7 harg7 hc0 hc1 x0 x1 a0 l0).2.2.1)
      = k0_pay4 i x0 a0 := by
  rw [View.read_writes_eq_canon _ _ _ (last_acc_cover c i arg2 harg2 arg3 harg3 arg4 harg4 arg5 harg5 arg6 harg6 arg7 harg7 hc0 hc1 x0 x1 a0 l0)]
  unfold runLast
  dsimp only
  sl_unfold_words
  have hz : (![0, 0] : Fin 2 → Nat) = fun _ => 0 := funext fun a => by fin_cases a <;> rfl
  rw [View.canon_cons_unit_zero (S := S512x1) hz]
  simp only [View.readAt_eq_ld, harg2.read_unread, harg3.read_unread, harg6.read_unread, harg7.read_unread,
    View.ld_unit_zero (S := S512x4096) hz, View.ld_unit_zero (S := S512x1) hz, View.readCov_unit_zero (S := S512x1) _ hz]

/-- (the second's cover) -/
theorem last_lacc_cover (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬firstBlock i) (hc1 : lastBlock i) (x0 : Vec F S512x4096 .f32) (x1 : Vec F S512x1 .i32) (a0 l0 : Vec F S512x1 .f32) (y : S512x1.Idx) :
    ∃ pc ∈ (runLast c i arg2 harg2 arg3 harg3 arg4 harg4 arg5 harg5 arg6 harg6 arg7 harg7 hc0 hc1 x0 x1 a0 l0).2.2.2.1, y ∈ pc.1.set :=
  View.cover_of_tiledL (runLast c i arg2 harg2 arg3 harg3 arg4 harg4 arg5 harg5 arg6 harg6 arg7 harg7 hc0 hc1 x0 x1 a0 l0).2.2.2.1 S512x1.size (by sl_kernel_rfl) y

/-- and the second. -/
theorem last_lacc_eq (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬firstBlock i) (hc1 : lastBlock i) (x0 : Vec F S512x4096 .f32) (x1 : Vec F S512x1 .i32) (a0 l0 : Vec F S512x1 .f32) :
    laccV.read (Elt F) (laccV.writes (Elt F) laccV.junk (runLast c i arg2 harg2 arg3 harg3 arg4 harg4 arg5 harg5 arg6 harg6 arg7 harg7 hc0 hc1 x0 x1 a0 l0).2.2.2.1)
      = k0_pay5 i x0 x1 l0 := by
  rw [View.read_writes_eq_canon _ _ _ (last_lacc_cover c i arg2 harg2 arg3 harg3 arg4 harg4 arg5 harg5 arg6 harg6 arg7 harg7 hc0 hc1 x0 x1 a0 l0)]
  unfold runLast
  dsimp only
  sl_unfold_words
  have hz : (![0, 0] : Fin 2 → Nat) = fun _ => 0 := funext fun a => by fin_cases a <;> rfl
  rw [View.canon_cons_unit_zero (S := S512x1) hz]
  simp only [View.readAt_eq_ld, harg2.read_unread, harg3.read_unread, harg6.read_unread, harg7.read_unread,
    View.ld_unit_zero (S := S512x4096) hz, View.ld_unit_zero (S := S512x1) hz, View.readCov_unit_zero (S := S512x1) _ hz]

end Cert.KernelIdeal.Body

end
-- ==== Proof.KI.Acc.lean ====
/-
  The two running sums the kernel carries across the column blocks of a row tile, by recursion on the grid point.

  The grid is 4 row tiles × 13 column blocks, walked row tile by row tile: point `t = 13·i + j` works on rows
  `512·i … 512·i + 511` and columns `4096·j … 4096·j + 4095`. The last column block (`j = 12`) reaches past the
  array's last column 50256: there the staging buffer holds the array's entries on the columns that exist and words
  nothing names on the 2991 lanes beyond. `xfill` is the block as the body may read it with those lanes set to the
  zero word; that the body's results do not depend on what those lanes hold is proved where it is used.

  At the first column block of a row tile (`t % 13 = 0`) both sums restart from the stored zeros; at every other
  point they continue from what the point before left.
-/
import proofs.«429971_j51582557225658_3_alg».proof.Proof.Gen.KernelIdeal.Frame
import proofs.«429971_j51582557225658_3_alg».proof.Proof.Gen.KernelIdeal.Skeleton

noncomputable section

namespace Cert.KernelIdeal.Body

open Cert.KernelIdeal Cert.KernelIdeal.Gen
open Idealize.ShloMosaic Idealize.ShloMosaic.TcCoe Idealize.SL.Sem

variable {F : FTy → Type} [FloatOps F] [Named F]

variable (m : (ℓ : Loc nD τ sig) → Buf (Elt F) ℓ)

/-- The logits block at point `t` as the body may read it: the array's block on the columns inside the array, the
    zero word on the lanes past the last column. -/
def xfill (c : Dev nD) (t : Fin cfg0.N) : Vec F S512x4096 .f32 :=
  win0_0.fill (grid0.coords t) (fun _ => Scalar.ofBits .f32 0#32) (iblk m c 0 t)

/-- The row tile's labels at point `t`. -/
def lblk (c : Dev nD) (t : Fin cfg0.N) : Vec F S512x1 .i32 := iblk m c 1 t

/-- After the body at point `n`: the sum of scaled exponentials so far, and the own-class logit so far, of the row
    tile's 512 rows over the column blocks walked so far. -/
def accAt (c : Dev nD) : (n : ℕ) → n < cfg0.N → Vec F S512x1 .f32 × Vec F S512x1 .f32
  | 0, hn =>
    (k0_pay4 (grid0.coords ⟨0, hn⟩) (xfill m c ⟨0, hn⟩) k0_pay1,
     k0_pay5 (grid0.coords ⟨0, hn⟩) (xfill m c ⟨0, hn⟩) (lblk m c ⟨0, hn⟩) k0_pay2)
  | n + 1, hn =>
    if (n + 1) % 13 = 0 then
      (k0_pay4 (grid0.coords ⟨n + 1, hn⟩) (xfill m c ⟨n + 1, hn⟩) k0_pay1,
       k0_pay5 (grid0.coords ⟨n + 1, hn⟩) (xfill m c ⟨n + 1, hn⟩) (lblk m c ⟨n + 1, hn⟩) k0_pay2)
    else
      (k0_pay4 (grid0.coords ⟨n + 1, hn⟩) (xfill m c ⟨n + 1, hn⟩) (accAt c n (Nat.lt_of_succ_lt hn)).1,
       k0_pay5 (grid0.coords ⟨n + 1, hn⟩) (xfill m c ⟨n + 1, hn⟩) (lblk m c ⟨n + 1, hn⟩) (accAt c n (Nat.lt_of_succ_lt hn)).2)

/-- At the first column block of a row tile the sums restart. -/
theorem accAt_first (c : Dev nD) (t : Fin cfg0.N) (h : t.val % 13 = 0) :
    accAt m c t.val t.isLt =
      (k0_pay4 (grid0.coords t) (xfill m c t) k0_pay1,
       k0_pay5 (grid0.coords t) (xfill m c t) (lblk m c t) k0_pay2) := by
  obtain ⟨n, hn⟩ := t
  cases n with
  | zero => rfl
  | succ n => exact if_pos h

/-- At every other point they continue from the point before. -/
theorem accAt_next (c : Dev nD) (t : Fin cfg0.N) (h : ¬t.val % 13 = 0) :
    accAt m c t.val t.isLt =
      (k0_pay4 (grid0.coords t) (xfill m c t) (accAt m c (t.val - 1) (Nat.lt_of_le_of_lt (Nat.sub_le _ _) t.isLt)).1,
       k0_pay5 (grid0.coords t) (xfill m c t) (lblk m c t) (accAt m c (t.val - 1) (Nat.lt_of_le_of_lt (Nat.sub_le _ _) t.isLt)).2) := by
  obtain ⟨n, hn⟩ := t
  cases n with
  | zero => exact absurd (Nat.zero_mod _) h
  | succ n => exact if_neg h

end Cert.KernelIdeal.Body

end
-- ==== Proof.KI.Frame.Data.lean ====
/-
  The pipeline's proof data for the one pallas_call.

  After the body at point `t`: the logits window's buffer still holds its block (on the lanes past the array's last
  column, whatever it held: the window is described there only up to that), the labels window's its block, and — at
  the last column block of a row tile, the only points where they are written back — the two output windows' the two
  finished sums. The region invariant carries the two scratch sums from point to point: before the first point they
  are the launch's scoped buffers at anything; before point `n + 1` they hold what point `n` left.
-/
import proofs.«429971_j51582557225658_3_alg».proof.Proof.KI.Acc
import proofs.«429971_j51582557225658_3_alg».proof.Proof.KI.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The region invariant -/

/-- Before position `n`: at `0` what the launch hands over; afterwards the two scratch sums at what point `n - 1`
    left, and the generator register at some state. -/
def PhiS (c : Dev nD) : (n : ℕ) → n ≤ cfg0.N → sProp 𝕄
  | 0, _ => Pipeline.ΦA spec0 c
  | n + 1, hn =>
    iprop(iprop(owns (c : Thread nD τ) accM fullShare (accAt m c n hn).1 ∗ owns (c : Thread nD τ) laccM fullShare (accAt m c n hn).2)
      ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn
      = iprop(iprop(owns (c : Thread nD τ) accM fullShare (accAt m c n hn).1 ∗ owns (c : Thread nD τ) laccM fullShare (accAt m c n hn).2)
          ∗ (∃ r, prngReg c r)) := rfl

theorem PhiS_pos (c : Dev nD) (n : ℕ) (h : n ≤ cfg0.N) (hz : n ≠ 0) :
    PhiS m c n h
      = iprop(iprop(owns (c : Thread nD τ) accM fullShare (accAt m c (n - 1) (by omega)).1
            ∗ owns (c : Thread nD τ) laccM fullShare (accAt m c (n - 1) (by omega)).2)
          ∗ (∃ r, prngReg c r)) := by
  cases n with
  | zero => exact absurd rfl hz
  | succ n => rfl

/-! ## The proof data -/

/-- The arrays as the region finds them; after the body the four windows' buffers as said above; the invariant
    `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfill m c t
    | ⟨1, _⟩ => iblk m c 1 t
    | ⟨2, _⟩ => (accAt m c t.val t.isLt).1
    | ⟨3, _⟩ => (accAt m c t.val t.isLt).2
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at the point's number. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after_x (c : Dev nD) (t : Fin cfg0.N) : (dats m 0 c).after 0 t = xfill m c t := by dsimp only [dats]
theorem after_lab (c : Dev nD) (t : Fin cfg0.N) : (dats m 0 c).after 1 t = iblk m c 1 t := by dsimp only [dats]
theorem after_sum (c : Dev nD) (t : Fin cfg0.N) : (dats m 0 c).after 2 t = (accAt m c t.val t.isLt).1 := by dsimp only [dats]
theorem after_logit (c : Dev nD) (t : Fin cfg0.N) : (dats m 0 c).after 3 t = (accAt m c t.val t.isLt).2 := by dsimp only [dats]

/-! ## What the body finds in the input windows -/

/-- The logits window is fetched at every point: its buffer holds the array's block on the lanes that exist and, on
    the others, whatever `d` the buffer held. -/
theorem before_x (c : Dev nD) (t : Fin cfg0.N) (d) :
    (dats m 0 c).before 0 t d = win0_0.fill (grid0.coords t) d (iblk m c 0 t) := by
  unfold Dat.before; rw [if_pos (fetch0_0 t)]; rfl

/-- The labels window's buffer holds its block at every point, fetched there or not. -/
theorem before_lab (c : Dev nD) (t : Fin cfg0.N) (d) : (dats m 0 c).before 1 t d = iblk m c 1 t :=
  before0_1_of m (dats m 0 c) (A_eq m c 1) (after_lab m c) t d

end Cert.KernelIdeal.Body

end
-- ==== Proof.KI.Masked.lean ====
/-
  The body's two results do not depend on what the lanes past the array's last column hold.
-/
import proofs.«429971_j51582557225658_3_alg».proof.Proof.KI.Acc

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

namespace Masked

/-! ## Where the lanes outside the array are -/

/-- On one axis: a block coordinate the transfer leaves alone lies at or past the array's end. A block that is not
    cut is moved whole; a block cut to its first `n` coordinates ends exactly at the array's end. -/
theorem past_end_of_not_moved {ix k d : ℕ} {c : Pipeline.Clip} (h : Pipeline.Clip.Ok ix k d c) {j : ℕ} (hj : j < k)
    (hn : c.extent k ≤ j) : d ≤ ix * k + j := by
  cases c with
  | none => exact absurd hj (Nat.not_lt.2 hn)
  | some n =>
    have h3 : ix * k + n = d := h.2.2
    have h4 : n ≤ j := hn
    omega

/-- A lane of the logits block that the transfer leaves alone is past the last column: the rows always fit (4 row
    tiles of 512 in 2048 rows), so it is the column axis that is cut, and there the lane's position
    `4096·(column block) + lane` is at least 50257. -/
theorem col_past_of_not_moved (i : grid0.Coords) (j : S512x4096.Idx) (h : ¬win0_0.moved i j = true) :
    50257 ≤ (i 1).val * 4096 + (j 1).val := by
  rw [Pipeline.Window.moved_iff] at h
  obtain ⟨a, ha⟩ : ∃ a : Fin 2, ¬(j a).val < win0_0.xsize i a := not_forall.mp h
  have hk := past_end_of_not_moved (win0_0.hclip i a) (j a).isLt (Nat.not_lt.mp ha)
  have h0 : (i 0).val < 4 := (i 0).isLt
  have h1 : (i 1).val < 13 := (i 1).isLt
  have hj0 : (j 0).val < 512 := (j 0).isLt
  have hj1 : (j 1).val < 4096 := (j 1).isLt
  fin_cases a
  · change 2048 ≤ (BitVec.ofNat 32 (i 0).val).toNat * 512 + (j 0).val at hk
    rw [BitVec.toNat_ofNat, Nat.mod_eq_of_lt (by omega)] at hk
    omega
  · change 50257 ≤ (BitVec.ofNat 32 (i 1).val).toNat * 4096 + (j 1).val at hk
    rw [BitVec.toNat_ofNat, Nat.mod_eq_of_lt (by omega)] at hk
    exact hk

/-! ## The lane position and the two masks on those lanes -/

/-- A number below 2³¹ is the signed value of its 32-bit word. -/
theorem toInt_ofNat_small (n : ℕ) (h : n < 2 ^ 31) : (BitVec.ofNat 32 n).toInt = (n : ℤ) := by
  have e : (BitVec.ofNat 32 n).toNat = n := by rw [BitVec.toNat_ofNat]; exact Nat.mod_eq_of_lt (by omega)
  rw [BitVec.toInt_eq_toNat_of_lt (by rw [e]; omega), e]

/-- The lane position the body computes, `4096·(column block) + lane` in 32-bit words, is the word of that number. -/
theorem kpos_apply (i : grid0.Coords) (j : S512x4096.Idx) :
    k0_pay3 i j = BitVec.ofNat 32 ((i 1).val * 4096 + (j 1).val) := by
  have e : k0_pay3 i j = BitVec.ofNat 32 (i 1).val * 4096#32 + BitVec.ofNat 32 (0 * 4096 + (j 1).val) := rfl
  rw [e, Nat.zero_mul, Nat.zero_add, BitVec.ofNat_add, BitVec.ofNat_mul]

/-- Its signed value at a lane the transfer leaves alone: at least 50257 (and below 13·4096). -/
theorem kpos_toInt_of_not_moved (i : grid0.Coords) (j : S512x4096.Idx) (h : ¬win0_0.moved i j = true) :
    (50257 : ℤ) ≤ (k0_pay3 i j).toInt := by
  have hp := col_past_of_not_moved i j h
  have h1 : (i 1).val < 13 := (i 1).isLt
  have hj1 : (j 1).val < 4096 := (j 1).isLt
  rw [kpos_apply, toInt_ofNat_small _ (by omega)]
  omega

/-- The "column exists" mask is off on a lane the transfer leaves alone. -/
theorem slt_off (i : grid0.Coords) (j : S512x4096.Idx) (h : ¬win0_0.moved i j = true) :
    cmpi .slt (k0_pay3 i) (broadcast S512x4096 50257#32) j = 0#1 := by
  have hp := kpos_toInt_of_not_moved i j h
  show BitVec.ofBool ((k0_pay3 i j).slt 50257#32) = 0#1
  have hf : (k0_pay3 i j).slt 50257#32 = false := by
    rw [BitVec.slt_eq_decide, decide_eq_false_iff_not, toInt_ofNat_small 50257 (by decide)]
    omega
  rw [hf]; rfl

/-- The "this lane is the row's label" mask is off there too, when every label is a class: a label's signed value is
    below 50257 and the lane's position is not. -/
theorem eq_off (i : grid0.Coords) (j : S512x4096.Idx) (h : ¬win0_0.moved i j = true) (lab : Vec F S512x1 .i32)
    (hlab : ∀ y : S512x1.Idx, 0 ≤ (lab y : BitVec 32).toInt ∧ (lab y : BitVec 32).toInt < 50257) :
    cmpi .eq (k0_pay3 i) (broadcastTo S512x4096 (shapeCast S512x1 lab shapeCasts_S512x1_S512x1) broadcasts_S512x1_S512x4096) j = 0#1 := by
  have hp := kpos_toInt_of_not_moved i j h
  obtain ⟨y, hy⟩ : ∃ y : S512x1.Idx,
      broadcastTo S512x4096 (shapeCast S512x1 lab shapeCasts_S512x1_S512x1) broadcasts_S512x1_S512x4096 j = lab y := ⟨_, rfl⟩
  show BitVec.ofBool (k0_pay3 i j == _) = 0#1
  rw [hy]
  have hne : (k0_pay3 i j == (lab y : BitVec 32)) = false := by
    rw [beq_eq_false_iff_ne]
    intro he
    have := (hlab y).2
    rw [← he] at this
    omega
  rw [hne]; rfl

/-! ## A masked block does not see those lanes -/

/-- Two fills of the block with the same entries agree on every lane the transfer moves. -/
theorem fill_agree {α : Type} (i : grid0.Coords) (d d' : S512x4096.Idx → α) (g : (win0_0.xblock i).Idx → α)
    (j : S512x4096.Idx) (h : win0_0.moved i j = true) : win0_0.fill i d g j = win0_0.fill i d' g j := by
  unfold Pipeline.Window.fill; rw [dif_pos h, dif_pos h]

/-- A select whose mask is off on the lanes the transfer leaves alone, taking a lane-wise function of the block
    where the mask is on: the same whatever fills those lanes. -/
theorem select_fill_irrel {α β : Type} (i : grid0.Coords) (c : IVec S512x4096 1)
    (hc : ∀ j, ¬win0_0.moved i j = true → c j = 0#1) (f : α → β)
    (d d' : S512x4096.Idx → α) (g : (win0_0.xblock i).Idx → α) (z : S512x4096.Idx → β) :
    select c (fun j => f (win0_0.fill i d g j)) z = select c (fun j => f (win0_0.fill i d' g j)) z := by
  funext j
  show Scalar.select (c j) (f (win0_0.fill i d g j)) (z j) = Scalar.select (c j) (f (win0_0.fill i d' g j)) (z j)
  by_cases h : win0_0.moved i j = true
  · rw [fill_agree i d d' g j h]
  · rw [hc j h]; rfl

end Masked

/-- The new sum of scaled exponentials is the same whatever fills the lanes outside the array: on those lanes the
    lane position is at least 50257, so the select takes the fill constant, not the entry. -/
theorem pay4_fill_irrel (i : grid0.Coords) (d d' : S512x4096.Idx → Elt F .f32) (g : (win0_0.xblock i).Idx → Elt F .f32)
    (a : Vec F S512x1 .f32) :
    k0_pay4 i (win0_0.fill i d g) a = k0_pay4 i (win0_0.fill i d' g) a := by
  have key := Masked.select_fill_irrel i (cmpi .slt (k0_pay3 i) (broadcast S512x4096 50257#32)) (Masked.slt_off i)
    (fun x : Elt F .f32 => FloatOps.mulf (Scalar.ofBits .f32 0x41F00000#32 : F .f32) x) d d' g
  exact congrArg (fun s : FVec F S512x4096 .f32 =>
    shapeCast S512x1 (addf a (shapeCast S512x1
      (multiReduction .add [1] S512 (exp s) 0x00000000#32 reduces_S512x4096_S512 (.inl rfl) rfl)
      shapeCasts_S512_S512x1)) shapeCasts_S512x1_S512x1) (key _)

/-- The new own-class logit likewise, when every label of the row tile is a class: no lane outside the array sits
    at a label's position. -/
theorem pay5_fill_irrel (i : grid0.Coords) (d d' : S512x4096.Idx → Elt F .f32) (g : (win0_0.xblock i).Idx → Elt F .f32)
    (lab : Vec F S512x1 .i32) (hlab : ∀ y : S512x1.Idx, 0 ≤ (lab y : BitVec 32).toInt ∧ (lab y : BitVec 32).toInt < 50257)
    (a : Vec F S512x1 .f32) :
    k0_pay5 i (win0_0.fill i d g) lab a = k0_pay5 i (win0_0.fill i d' g) lab a := by
  have key := Masked.select_fill_irrel i
    (cmpi .eq (k0_pay3 i) (broadcastTo S512x4096 (shapeCast S512x1 lab shapeCasts_S512x1_S512x1) broadcasts_S512x1_S512x4096))
    (fun j h => Masked.eq_off i j h lab hlab) (fun x : Elt F .f32 => x) d d' g
  exact congrArg (fun s : FVec F S512x4096 .f32 =>
    shapeCast S512x1 (addf a (shapeCast S512x1
      (multiReduction .add [1] S512 s 0x00000000#32 reduces_S512x4096_S512 (.inl rfl) rfl)
      shapeCasts_S512_S512x1)) shapeCasts_S512x1_S512x1) (key _)

end Cert.KernelIdeal.Body

end
-- ==== Proof.KI.Frame.Body.lean ====
/-
  The body obligation at a generic grid point.

  The point's column block `t % 13` decides the case. In each, the invariant hands the body the two scratch sums (at
  anything at a first column block, which overwrites them; at what the point before left otherwise), the case's run
  applies, and the invariant takes the sums back at this point's contents. The logits buffer is handed over as the
  array's block filled out, past the array's last column, with words `d0` nothing names; the body's two results are
  the same as with the zero word there (the masked lanes are never selected), which is how the named contents are
  reached. The logits buffer goes back with the same `d0`; the labels buffer as it was; the two outputs untouched off
  the last column block, and holding the two finished sums at it.
-/
import proofs.«429971_j51582557225658_3_alg».proof.Proof.KI.Frame.Pieces
import proofs.«429971_j51582557225658_3_alg».proof.Proof.KI.Frame.Data
import proofs.«429971_j51582557225658_3_alg».proof.Proof.KI.Masked

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Every label of every row tile's block is a class: as a signed word it lies in `[0, 50257)`. -/
def LabelsInRange : Prop :=
  ∀ (c : Dev nD) (t : Fin cfg0.N) (y : S512x1.Idx),
    0 ≤ (iblk m c 1 t y : BitVec 32).toInt ∧ (iblk m c 1 t y : BitVec 32).toInt < 50257

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (xM t) fullShare ((dats m 0 c).before 0 t d))
    ∗ (∃ d, owns (c : Thread nD τ) (labM t) fullShare ((dats m 0 c).before 1 t d))
    ∗ (∃ d, owns (c : Thread nD τ) (sumM t) fullShare ((dats m 0 c).before 2 t d))
    ∗ (∃ d, owns (c : Thread nD τ) (logitM t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

/-! ## What each window's buffer is left as -/

/-- The logits window is never idle and is described only on the lanes its transfers move. -/
theorem leaves_x (c : Dev nD) (t : Fin cfg0.N) :
    (dats m 0 c).leaves 0 t
      = iprop(∃ d, owns (c : Thread nD τ) (xM t) fullShare (win0_0.fill (grid0.coords t) d (win0_0.cut (grid0.coords t) ((dats m 0 c).after 0 t)))) := by
  unfold Dat.leaves; rw [live_x t]; rfl
/-- The labels window is never idle. -/
theorem leaves_lab (c : Dev nD) (t : Fin cfg0.N) :
    (dats m 0 c).leaves 1 t = owns (c : Thread nD τ) (labM t) fullShare ((dats m 0 c).after 1 t) := by
  unfold Dat.leaves; rw [live_lab t]
/-- Off the last column block the outputs are handed back as found; -/
theorem leaves_sum_idle (c : Dev nD) (t : Fin cfg0.N) (h : ¬lastBlock (grid0.coords t)) :
    (dats m 0 c).leaves 2 t = iprop(∃ d, owns (c : Thread nD τ) (sumM t) fullShare ((dats m 0 c).before 2 t d)) :=
  Dat.leaves_idle (dats m 0 c) 2 t (idle_sum t h) (noFlush_sum t h)
theorem leaves_logit_idle (c : Dev nD) (t : Fin cfg0.N) (h : ¬lastBlock (grid0.coords t)) :
    (dats m 0 c).leaves 3 t = iprop(∃ d, owns (c : Thread nD τ) (logitM t) fullShare ((dats m 0 c).before 3 t d)) :=
  Dat.leaves_idle (dats m 0 c) 3 t (idle_logit t h) (noFlush_logit t h)
/-- at it they hold what the body stored. -/
theorem leaves_sum_live (c : Dev nD) (t : Fin cfg0.N) (h : lastBlock (grid0.coords t)) :
    (dats m 0 c).leaves 2 t = owns (c : Thread nD τ) (sumM t) fullShare ((dats m 0 c).after 2 t) := by
  unfold Dat.leaves; rw [live_sum t h]
theorem leaves_logit_live (c : Dev nD) (t : Fin cfg0.N) (h : lastBlock (grid0.coords t)) :
    (dats m 0 c).leaves 3 t = owns (c : Thread nD τ) (logitM t) fullShare ((dats m 0 c).after 3 t) := by
  unfold Dat.leaves; rw [live_logit t h]

/-! ## The body at a point, case by case -/

set_option maxHeartbeats 4000000 in
/-- A first column block. -/
theorem sound_first (hL : LabelsInRange m) (c : Dev nD) (t : Fin cfg0.N) (h0 : t.val % 13 = 0) :
    bodyPre m c t ⊢ wp frame (wpE (defs₀ (F := F)) Variants.none c none) Set.univ (bodyAt0 t) (fun _ => bodyPost m c t) := by
  have hf : firstBlock (grid0.coords t) := (firstBlock_iff t).mpr h0
  have hl : ¬lastBlock (grid0.coords t) := fun h => by have := (lastBlock_iff t).mp h; omega
  unfold bodyPre bodyPost bodyAt0
  simp only [before_x, before_lab]
  rw [show (dats m 0 c).owesAt () t.succ = (dats m 0 c).owesAt () t.castSucc from rfl]
  rw [show (dats m 0 c).Φ t.succ = PhiS m c (t.val + 1) t.isLt from rfl, PhiS_succ]
  rw [leaves_x, leaves_lab, after_x, after_lab, leaves_sum_idle m c t hl, leaves_logit_idle m c t hl, accAt_first m c t h0]
  by_cases hz : t.val = 0
  · rw [PhiS_castSucc m c t, PhiS_zero m c _ _ hz, PhiA_eq]
    iintro ⟨⟨⟨HA, HL⟩, Hg⟩, Ho, ⟨%d0, H0⟩, ⟨%d1, H1⟩, ⟨%d2, H2⟩, ⟨%d3, H3⟩⟩
    iapply ((runFirst c (grid0.coords t) _ _ _ _ _ _ _ _ _ _ _ _ hf hl (win0_0.fill (grid0.coords t) d0 (iblk m c 0 t)) (iblk m c 1 t)).2.2 _ _ Set.univ _)
    isplitl [H0]; · iexact H0
    isplitl [H1]; · iexact H1
    isplitl [H2]; · iexact H2
    isplitl [H3]; · iexact H3
    isplitl [HA]; · iexact HA
    isplitl [HL]; · iexact HL
    iintro ⟨H0, H1, H2, H3, ⟨%ea, HA⟩, ⟨%el, HL⟩⟩
    isplitl [HA HL Hg]
    · isplitl [HA HL]
      · isplitl [HA]
        · unfold owns; iexists _; isplitr
          swap; · iexact HA
          ipureintro
          exact (View.read_writes_of_cover _ _ accV accV.junk _ (first_acc_cover c _ _ _ _ _ _ _ _ _ _ _ _ _ hf hl _ _)).trans ((first_acc_eq c _ _ _ _ _ _ _ _ _ _ _ _ _ hf hl _ _).trans
            (pay4_fill_irrel (grid0.coords t) d0 (fun _ => Scalar.ofBits .f32 0#32) (iblk m c 0 t) k0_pay1))
        · unfold owns; iexists _; isplitr
          swap; · iexact HL
          ipureintro
          exact (View.read_writes_of_cover _ _ laccV laccV.junk _ (first_lacc_cover c _ _ _ _ _ _ _ _ _ _ _ _ _ hf hl _ _)).trans ((first_lacc_eq c _ _ _ _ _ _ _ _ _ _ _ _ _ hf hl _ _).trans
            (pay5_fill_irrel (grid0.coords t) d0 (fun _ => Scalar.ofBits .f32 0#32) (iblk m c 0 t) (iblk m c 1 t) (hL c t) k0_pay2))
      iexact Hg
    isplitl [Ho]; · iexact Ho
    isplitl [H0]
    · iexists d0; rw [show xfill m c t = win0_0.fill (grid0.coords t) (fun _ => Scalar.ofBits .f32 0#32) (iblk m c 0 t) from rfl, win0_0.cut_fill]
      iexact H0
    isplitl [H1]; · iexact H1
    isplitl [H2]; · iexists _; iexact H2
    iexists _; iexact H3
  · rw [PhiS_castSucc m c t, PhiS_pos m c _ _ hz]
    iintro ⟨⟨⟨HA, HL⟩, Hg⟩, Ho, ⟨%d0, H0⟩, ⟨%d1, H1⟩, ⟨%d2, H2⟩, ⟨%d3, H3⟩⟩
    iapply ((runFirst c (grid0.coords t) _ _ _ _ _ _ _ _ _ _ _ _ hf hl (win0_0.fill (grid0.coords t) d0 (iblk m c 0 t)) (iblk m c 1 t)).2.2 _ _ Set.univ _)
    isplitl [H0]; · iexact H0
    isplitl [H1]; · iexact H1
    isplitl [H2]; · iexact H2
    isplitl [H3]; · iexact H3
    isplitl [HA]; · iexists _; iexact HA
    isplitl [HL]; · iexists _; iexact HL
    iintro ⟨H0, H1, H2, H3, ⟨%ea, HA⟩, ⟨%el, HL⟩⟩
    isplitl [HA HL Hg]
    · isplitl [HA HL]
      · isplitl [HA]
        · unfold owns; iexists _; isplitr
          swap; · iexact HA
          ipureintro
          exact (View.read_writes_of_cover _ _ accV accV.junk _ (first_acc_cover c _ _ _ _ _ _ _ _ _ _ _ _ _ hf hl _ _)).trans ((first_acc_eq c _ _ _ _ _ _ _ _ _ _ _ _ _ hf hl _ _).trans
            (pay4_fill_irrel (grid0.coords t) d0 (fun _ => Scalar.ofBits .f32 0#32) (iblk m c 0 t) k0_pay1))
        · unfold owns; iexists _; isplitr
          swap; · iexact HL
          ipureintro
          exact (View.read_writes_of_cover _ _ laccV laccV.junk _ (first_lacc_cover c _ _ _ _ _ _ _ _ _ _ _ _ _ hf hl _ _)).trans ((first_lacc_eq c _ _ _ _ _ _ _ _ _ _ _ _ _ hf hl _ _).trans
            (pay5_fill_irrel (grid0.coords t) d0 (fun _ => Scalar.ofBits .f32 0#32) (iblk m c 0 t) (iblk m c 1 t) (hL c t) k0_pay2))
      iexact Hg
    isplitl [Ho]; · iexact Ho
    isplitl [H0]
    · iexists d0; rw [show xfill m c t = win0_0.fill (grid0.coords t) (fun _ => Scalar.ofBits .f32 0#32) (iblk m c 0 t) from rfl, win0_0.cut_fill]
      iexact H0
    isplitl [H1]; · iexact H1
    isplitl [H2]; · iexists _; iexact H2
    iexists _; iexact H3

set_option maxHeartbeats 4000000 in
/-- A middle column block. -/
theorem sound_middle (hL : LabelsInRange m) (c : Dev nD) (t : Fin cfg0.N) (h0 : ¬t.val % 13 = 0) (h1 : ¬t.val % 13 = 12) :
    bodyPre m c t ⊢ wp frame (wpE (defs₀ (F := F)) Variants.none c none) Set.univ (bodyAt0 t) (fun _ => bodyPost m c t) := by
  have hf : ¬firstBlock (grid0.coords t) := fun h => h0 ((firstBlock_iff t).mp h)
  have hl : ¬lastBlock (grid0.coords t) := fun h => h1 ((lastBlock_iff t).mp h)
  have hz : t.val ≠ 0 := fun h => h0 (by rw [h])
  unfold bodyPre bodyPost bodyAt0
  simp only [before_x, before_lab]
  rw [show (dats m 0 c).owesAt () t.succ = (dats m 0 c).owesAt () t.castSucc from rfl]
  rw [show (dats m 0 c).Φ t.succ = PhiS m c (t.val + 1) t.isLt from rfl, PhiS_succ]
  rw [leaves_x, leaves_lab, after_x, after_lab, leaves_sum_idle m c t hl, leaves_logit_idle m c t hl, accAt_next m c t h0]
  rw [PhiS_castSucc m c t, PhiS_pos m c _ _ hz]
  iintro ⟨⟨⟨HA, HL⟩, Hg⟩, Ho, ⟨%d0, H0⟩, ⟨%d1, H1⟩, ⟨%d2, H2⟩, ⟨%d3, H3⟩⟩
  iapply ((runMiddle c (grid0.coords t) _ _ _ _ _ _ _ _ _ _ _ _ hf hl (win0_0.fill (grid0.coords t) d0 (iblk m c 0 t)) (iblk m c 1 t) _ _).2.2 _ _ Set.univ _)
  · isplitl [H0]; · iexact H0
    isplitl [H1]; · iexact H1
    isplitl [H2]; · iexact H2
    isplitl [H3]; · iexact H3
    isplitl [HA]; · iexact HA
    isplitl [HL]; · iexact HL
    iintro ⟨H0, H1, H2, H3, ⟨%ea, HA⟩, ⟨%el, HL⟩⟩
    isplitl [HA HL Hg]
    · isplitl [HA HL]
      · isplitl [HA]
        · unfold owns; iexists _; isplitr
          swap; · iexact HA
          ipureintro
          exact (View.read_writes_of_cover _ _ accV accV.junk _ (middle_acc_cover c _ _ _ _ _ _ _ _ _ _ _ _ _ hf hl _ _ _ _)).trans ((middle_acc_eq c _ _ _ _ _ _ _ _ _ _ _ _ _ hf hl _ _ _ _).trans
            (pay4_fill_irrel (grid0.coords t) d0 (fun _ => Scalar.ofBits .f32 0#32) (iblk m c 0 t) (accAt m c (t.val - 1) (Nat.lt_of_le_of_lt (Nat.sub_le _ _) t.isLt)).1))
        · unfold owns; iexists _; isplitr
          swap; · iexact HL
          ipureintro
          exact (View.read_writes_of_cover _ _ laccV laccV.junk _ (middle_lacc_cover c _ _ _ _ _ _ _ _ _ _ _ _ _ hf hl _ _ _ _)).trans ((middle_lacc_eq c _ _ _ _ _ _ _ _ _ _ _ _ _ hf hl _ _ _ _).trans
            (pay5_fill_irrel (grid0.coords t) d0 (fun _ => Scalar.ofBits .f32 0#32) (iblk m c 0 t) (iblk m c 1 t) (hL c t) (accAt m c (t.val - 1) (Nat.lt_of_le_of_lt (Nat.sub_le _ _) t.isLt)).2))
      iexact Hg
    isplitl [Ho]; · iexact Ho
    isplitl [H0]
    · iexists d0; rw [show xfill m c t = win0_0.fill (grid0.coords t) (fun _ => Scalar.ofBits .f32 0#32) (iblk m c 0 t) from rfl, win0_0.cut_fill]
      iexact H0
    isplitl [H1]; · iexact H1
    isplitl [H2]; · iexists _; iexact H2
    iexists _; iexact H3

set_option maxHeartbeats 4000000 in
/-- A last column block. -/
theorem sound_last (hL : LabelsInRange m) (c : Dev nD) (t : Fin cfg0.N) (h1 : t.val % 13 = 12) :
    bodyPre m c t ⊢ wp frame (wpE (defs₀ (F := F)) Variants.none c none) Set.univ (bodyAt0 t) (fun _ => bodyPost m c t) := by
  have h0 : ¬t.val % 13 = 0 := by omega
  have hf : ¬firstBlock (grid0.coords t) := fun h => h0 ((firstBlock_iff t).mp h)
  have hl : lastBlock (grid0.coords t) := (lastBlock_iff t).mpr h1
  have hz : t.val ≠ 0 := fun h => h0 (by rw [h])
  unfold bodyPre bodyPost bodyAt0
  simp only [before_x, before_lab]
  rw [show (dats m 0 c).owesAt () t.succ = (dats m 0 c).owesAt () t.castSucc from rfl]
  rw [show (dats m 0 c).Φ t.succ = PhiS m c (t.val + 1) t.isLt from rfl, PhiS_succ]
  rw [leaves_x, leaves_lab, after_x, after_lab, leaves_sum_live m c t hl, leaves_logit_live m c t hl, after_sum, after_logit, accAt_next m c t h0]
  rw [PhiS_castSucc m c t, PhiS_pos m c _ _ hz]
  iintro ⟨⟨⟨HA, HL⟩, Hg⟩, Ho, ⟨%d0, H0⟩, ⟨%d1, H1⟩, ⟨%d2, H2⟩, ⟨%d3, H3⟩⟩
  iapply ((runLast c (grid0.coords t) _ _ _ _ _ _ _ _ _ _ _ _ hf hl (win0_0.fill (grid0.coords t) d0 (iblk m c 0 t)) (iblk m c 1 t) _ _).2.2.2.2 Set.univ _)
  · isplitl [H0]; · iexact H0
    isplitl [H1]; · iexact H1
    isplitl [H2]; · iexists _; iexact H2
    isplitl [H3]; · iexists _; iexact H3
    isplitl [HA]; · iexact HA
    isplitl [HL]; · iexact HL
    iintro ⟨H0, H1, ⟨%e2, H2⟩, ⟨%e3, H3⟩, ⟨%ea, HA⟩, ⟨%el, HL⟩⟩
    isplitl [HA HL Hg]
    · isplitl [HA HL]
      · isplitl [HA]
        · unfold owns; iexists _; isplitr
          swap; · iexact HA
          ipureintro
          exact (View.read_writes_of_cover _ _ accV accV.junk _ (last_acc_cover c _ _ _ _ _ _ _ _ _ _ _ _ _ hf hl _ _ _ _)).trans ((last_acc_eq c _ _ _ _ _ _ _ _ _ _ _ _ _ hf hl _ _ _ _).trans
            (pay4_fill_irrel (grid0.coords t) d0 (fun _ => Scalar.ofBits .f32 0#32) (iblk m c 0 t) (accAt m c (t.val - 1) (Nat.lt_of_le_of_lt (Nat.sub_le _ _) t.isLt)).1))
        · unfold owns; iexists _; isplitr
          swap; · iexact HL
          ipureintro
          exact (View.read_writes_of_cover _ _ laccV laccV.junk _ (last_lacc_cover c _ _ _ _ _ _ _ _ _ _ _ _ _ hf hl _ _ _ _)).trans ((last_lacc_eq c _ _ _ _ _ _ _ _ _ _ _ _ _ hf hl _ _ _ _).trans
            (pay5_fill_irrel (grid0.coords t) d0 (fun _ => Scalar.ofBits .f32 0#32) (iblk m c 0 t) (iblk m c 1 t) (hL c t) (accAt m c (t.val - 1) (Nat.lt_of_le_of_lt (Nat.sub_le _ _) t.isLt)).2))
      iexact Hg
    isplitl [Ho]; · iexact Ho
    isplitl [H0]
    · iexists d0; rw [show xfill m c t = win0_0.fill (grid0.coords t) (fun _ => Scalar.ofBits .f32 0#32) (iblk m c 0 t) from rfl, win0_0.cut_fill]
      iexact H0
    isplitl [H1]; · iexact H1
    isplitl [H2]
    · unfold owns; iexists _; isplitr
      swap; · iexact H2
      ipureintro
      exact (View.read_writes_of_cover _ _ outV outV.junk _ (last_sum_cover c _ _ _ _ _ _ _ _ _ _ _ _ _ hf hl _ _ _ _)).trans ((last_sum_eq c _ _ _ _ _ _ _ _ _ _ _ _ _ hf hl _ _ _ _).trans
        (pay4_fill_irrel (grid0.coords t) d0 (fun _ => Scalar.ofBits .f32 0#32) (iblk m c 0 t) (accAt m c (t.val - 1) (Nat.lt_of_le_of_lt (Nat.sub_le _ _) t.isLt)).1))
    · unfold owns; iexists _; isplitr
      swap; · iexact H3
      ipureintro
      exact (View.read_writes_of_cover _ _ outV outV.junk _ (last_logit_cover c _ _ _ _ _ _ _ _ _ _ _ _ _ hf hl _ _ _ _)).trans ((last_logit_eq c _ _ _ _ _ _ _ _ _ _ _ _ _ hf hl _ _ _ _).trans
        (pay5_fill_irrel (grid0.coords t) d0 (fun _ => Scalar.ofBits .f32 0#32) (iblk m c 0 t) (iblk m c 1 t) (hL c t) (accAt m c (t.val - 1) (Nat.lt_of_le_of_lt (Nat.sub_le _ _) t.isLt)).2))

/-- The body at any point. -/
theorem sound_body (hL : LabelsInRange m) (c : Dev nD) (t : Fin cfg0.N) :
    bodyPre m c t ⊢ wp frame (wpE (defs₀ (F := F)) Variants.none c none) Set.univ (bodyAt0 t) (fun _ => bodyPost m c t) := by
  by_cases h0 : t.val % 13 = 0
  · exact sound_first m hL c t h0
  · by_cases h1 : t.val % 13 = 12
    · exact sound_last m hL c t h1
    · exact sound_middle m hL c t h0 h1

/-- The library's body obligation, in the form that describes a clipped window on its moved lanes only. -/
theorem body_obligation (hL : LabelsInRange m) (c : Dev nD) :
    BodyObligationLoose (dats (F := F) m 0 c) (defs₀ (F := F)) Variants.none () Set.univ := fun t => by
  rw [bigSep_W0, bigSep_W0]
  exact sound_body m hL c t

end Cert.KernelIdeal.Body

end
-- ==== Proof.KI.BlockRead.lean ====
/-
  The blocks the body is handed, read at a lane, as entries of the two argument arrays.
-/
import proofs.«429971_j51582557225658_3_alg».proof.Proof.KI.Acc
import proofs.«429971_j51582557225658_3_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

/-- The array row that lane row `r` of the block at point `t` is: row tile `t / 13`, 512 rows a tile. -/
def rowOf (t : Fin cfg0.N) (r : Fin 512) : Fin 2048 :=
  ⟨512 * (t.val / 13) + r.val, by have h1 := t.isLt; have h2 : cfg0.N = 52 := N_0; have h3 := r.isLt; omega⟩

/-- Walking the grid row tile by row tile, point `t`'s column block is `t % 13`. -/
theorem coords_col (t : Fin cfg0.N) : ((grid0.coords t) 1).val = t.val % 13 :=
  (by decide +kernel : ∀ t : Fin grid0.N, ((grid0.coords t) 1).val = t.val % 13) t

/-! ## The two index maps and the cut, over the 52 points -/

/-- The logits block at point `t` is block `(t / 13, t % 13)` of the array. -/
theorem logits_index : ∀ t : Fin cfg0.N, win0_0.index t (0 : Fin 2) = t.val / 13 ∧ win0_0.index t (1 : Fin 2) = t.val % 13 :=
  (by decide +kernel : ∀ t : Fin grid0.N, win0_0.index t (0 : Fin 2) = t.val / 13 ∧ win0_0.index t (1 : Fin 2) = t.val % 13)

/-- What of it lies inside the array: all 512 rows; all 4096 columns, but at the last column block the first
    `1105 = 50257 − 12 · 4096` only. -/
theorem logits_extent : ∀ t : Fin cfg0.N, win0_0.xsize (grid0.coords t) (0 : Fin 2) = 512
    ∧ win0_0.xsize (grid0.coords t) (1 : Fin 2) = if t.val % 13 = 12 then 1105 else 4096 :=
  (by decide +kernel : ∀ t : Fin grid0.N, win0_0.xsize (grid0.coords t) (0 : Fin 2) = 512
    ∧ win0_0.xsize (grid0.coords t) (1 : Fin 2) = if t.val % 13 = 12 then 1105 else 4096)

/-- The labels block at point `t` is block `(t / 13, 0)` of the labels column. -/
theorem labels_index : ∀ t : Fin cfg0.N, win0_1.index t (0 : Fin 2) = t.val / 13 ∧ win0_1.index t (1 : Fin 2) = 0 :=
  (by decide +kernel : ∀ t : Fin grid0.N, win0_1.index t (0 : Fin 2) = t.val / 13 ∧ win0_1.index t (1 : Fin 2) = 0)

/-- Lane `(r, b)` of the logits block at point `t` lies inside the array exactly when its column
    `4096 · (t % 13) + b` is one of the 50257: below the last column block `4096 · (t % 13) + b < 4096 · 12 < 50257`
    always, and at the last one the bound `b < 1105` is `4096 · 12 + b < 50257`. -/
theorem inside_iff (t : Fin cfg0.N) (r : Fin 512) (b : Fin 4096) :
    win0_0.moved (grid0.coords t) (ix2 r b) = true ↔ (t.val % 13) * 4096 + b.val < 50257 := by
  rw [Window.moved_iff]
  have hx := logits_extent t
  have hr := r.isLt
  have hb := b.isLt
  have ht : t.val % 13 < 13 := Nat.mod_lt _ (by decide)
  constructor
  · intro h
    have h1 := h (1 : Fin 2)
    rw [hx.2] at h1
    change b.val < _ at h1
    split at h1 <;> omega
  · intro h a
    match a with
    | ⟨0, _⟩ =>
      change r.val < win0_0.xsize (grid0.coords t) (0 : Fin 2)
      rw [hx.1]; exact hr
    | ⟨1, _⟩ =>
      change b.val < win0_0.xsize (grid0.coords t) (1 : Fin 2)
      rw [hx.2]
      split <;> omega

/-! ## A block read at a lane, at any float instance -/

section AnyInstance

variable {F : FTy → Type} [FloatOps F] [Named F] (m : (ℓ : Loc nD τ sig) → Buf (Elt F) ℓ)

/-- Lane `y` of the part of the logits block inside the array is the array's entry at row
    `512 · (t / 13) + y₀` and column `4096 · (t % 13) + y₁`: no host operation before the region writes the logits,
    and a block's lane sits at block index × block size + the lane's coordinate, on each axis. -/
theorem logits_read (c : Dev nD) (t : Fin cfg0.N) (y : (win0_0.xblock (grid0.coords t)).Idx) (i : S2048x50257.Idx)
    (h0 : (i (0 : Fin 2)).val = 512 * (t.val / 13) + (y (0 : Fin 2)).val)
    (h1 : (i (1 : Fin 2)).val = (t.val % 13) * 4096 + (y (1 : Fin 2)).val) :
    iblk m c 0 t y = m ((c : Thread nD τ).loc main_arg0) i := by
  have hi := logits_index t
  show V m c main_arg0 ((win0_0.blk t).view.emb y) = _
  rw [V_main_arg0]
  refine congrArg _ (funext fun a => Fin.ext ?_)
  match a with
  | ⟨0, _⟩ =>
    show win0_0.index t (0 : Fin 2) * 512 + 1 * (y (0 : Fin 2)).val = (i (0 : Fin 2)).val
    rw [hi.1, h0]; omega
  | ⟨1, _⟩ =>
    show win0_0.index t (1 : Fin 2) * 4096 + 1 * (y (1 : Fin 2)).val = (i (1 : Fin 2)).val
    rw [hi.2, h1]; omega

/-- The labels column as the region finds it: the labels vector reshaped, by the one host operation before the region. -/
theorem labels_column (c : Dev nD) :
    (V m c main_v0 : S2048x1.Idx → BitVec 32)
      = shapeCast S2048x1 (m ((c : Thread nD τ).loc main_arg1)) shapeCasts_S2048_S2048x1 := by
  show StableHlo.after hostOps0 (fun b => m (c, b)) (Proc.devRef .tc main_v0) = _
  after_results
  rfl

/-- Lane `y` of the labels block at point `t` is label `512 · (t / 13) + y₀`: the column's entry `(k, 0)` and the
    vector's entry `k` have the same row-major position `k`. -/
theorem labels_read (c : Dev nD) (t : Fin cfg0.N) (y : S512x1.Idx) (k : Fin 2048)
    (hk : k.val = 512 * (t.val / 13) + (y (0 : Fin 2)).val) :
    (iblk m c 1 t y : BitVec 32) = m ((c : Thread nD τ).loc main_arg1) (ix1 k) := by
  have hi := labels_index t
  show V m c main_v0 ((win0_1.blk t).view.emb y) = _
  rw [labels_column]
  refine shapeCast_apply _ _ _ _ ?_
  show (S2048.rowMajor (ix1 k)).val = (S2048x1.rowMajor ((win0_1.blk t).view.emb y)).val
  rw [Shape.rowMajor_val_one, Shape.rowMajor_val_two]
  show k.val = (win0_1.index t (0 : Fin 2) * 512 + 1 * (y (0 : Fin 2)).val) * 1
    + (win0_1.index t (1 : Fin 2) * 1 + 1 * (y (1 : Fin 2)).val)
  have hy : (y (1 : Fin 2)).val < 1 := (y (1 : Fin 2)).isLt
  rw [hi.1, hi.2, hk]; omega

end AnyInstance

/-- Lane row `r` of the labels block at point `t` is that row's label: the window's array is the labels reshaped to a
    column by the one host operation before the region. Pure layout, so at any float instance. -/
theorem lblk_apply {F : FTy → Type} [FloatOps F] [Named F] (m : (ℓ : Loc nD τ sig) → Buf (Elt F) ℓ)
    (c : Dev nD) (t : Fin cfg0.N) (r : Fin 512) :
    (lblk m c t (ix2 r (0 : Fin 1)) : BitVec 32) = m ((c : Thread nD τ).loc main_arg1) (ix1 (rowOf t r)) :=
  labels_read m c t _ _ rfl

variable (m : (ℓ : Loc nD τ sig) → Buf (Elt Ideal) ℓ)

/-- Lane `(r, b)` of the logits block at point `t`, when its column `4096·(t % 13) + b` exists, is that entry of the
    logits array. -/
theorem xfill_apply (c : Dev nD) (t : Fin cfg0.N) (r : Fin 512) (b : Fin 4096) (h : (t.val % 13) * 4096 + b.val < 50257) :
    (xfill (F := Ideal) m c t (ix2 r b) : EReal)
      = (m ((c : Thread nD τ).loc main_arg0) (ix2 (rowOf t r) (⟨(t.val % 13) * 4096 + b.val, h⟩ : Fin 50257)) : EReal) := by
  unfold xfill Window.fill
  rw [dif_pos ((inside_iff t r b).mpr h)]
  exact logits_read m c t _ _ rfl rfl

/-- A lane whose column does not exist holds the zero word. -/
theorem xfill_outside (c : Dev nD) (t : Fin cfg0.N) (r : Fin 512) (b : Fin 4096) (h : ¬(t.val % 13) * 4096 + b.val < 50257) :
    (xfill (F := Ideal) m c t (ix2 r b) : EReal) = 0 := by
  unfold xfill
  rw [Window.fill_of_not_moved _ _ _ _ (fun hm => h ((inside_iff t r b).mp hm))]
  -- the all-zero word denotes the real number zero
  show Ideal.ofBits .f32 0#32 = 0
  simp [Ideal.ofBits, Ideal.ieee]

end Cert.KernelIdeal.Body

end
-- ==== Proof.KI.Range.lean ====
/-
  From the precondition to the frame's hypothesis: every label the body ever reads is a class.

  A lane row of a row tile's label block is a label of the labels array (the block is a slice of the labels reshaped
  to a column), and the precondition's predicate, all ones, bounds every label of the array as a signed word.
-/
import proofs.«429971_j51582557225658_3_alg».proof.Proof.KI.Frame.Body
import proofs.«429971_j51582557225658_3_alg».proof.Proof.KI.BlockRead
import proofs.«429971_j51582557225658_3_alg».proof.Proof.PreRange

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F] [Named F]

/-- If the precondition's predicate is all ones on every core's two argument arrays, every label of every row tile's
    block lies in `[0, 50257)`. -/
theorem labelsInRange_of_pre [Cert.Pre_finite_inputs.Facts] (m : (ℓ : Loc nD τ sig) → Buf (Elt F) ℓ)
    (h : ∀ c : Dev nD, Cert.Pre_finite_inputs.fn (F := F) (m ((c.tc : Thread nD τ).loc main_arg0)) (m ((c.tc : Thread nD τ).loc main_arg1)) = fun _ => 1#1) :
    LabelsInRange m := by
  intro c t y
  obtain ⟨r, z, rfl⟩ : ∃ (r : Fin 512) (z : Fin 1), y = ix2 r z := ⟨y 0, y 1, eq_ix2 y⟩
  obtain rfl : z = 0 := Subsingleton.elim _ _
  have e : (iblk m c 1 t (ix2 r (0 : Fin 1)) : BitVec 32) = m ((c : Thread nD τ).loc main_arg1) (ix1 (rowOf t r)) :=
    lblk_apply m c t r
  rw [e]
  exact Cert.PreRange.inRange_of_pre _ _ (h c) (rowOf t r)

end Cert.KernelIdeal.Body

end
-- ==== Proof.KI.Frame.Launch.lean ====
/-
  The run of the whole program, and the frame claim.

  The launch hands the region its two scratch buffers at anything, which is the invariant before the first point;
  after the last point the invariant gives them back, their contents forgotten. With the body obligation at every
  point this is all the library's run theorem asks for a pipeline whose @main continues with host operations after
  the region: every weakly fair execution terminates, faults nowhere, and ends with every array of the pipeline at
  what the proof data computes and every other buffer as the later host operations leave it.
-/
import proofs.«429971_j51582557225658_3_alg».proof.Proof.KI.Frame.Body

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back at some contents. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 52 := N_0; omega), PhiA_eq]
  iintro ⟨⟨HA, HL⟩, Hg⟩
  isplitl [HA HL]
  · isplitl [HA]
    · iexists _; iexact HA
    iexists _; iexact HL
  iexact Hg

set_option backward.isDefEq.respectTransparency.types false in
/-- When every label is a class: from any memory with zero counters every weakly fair execution of @main terminates
    without a fault, every array of the pipeline ending at what the proof data computes and every other unscoped
    buffer as the host operations after the region leave it. -/
theorem run_main (hL : LabelsInRange m) :
    θ_run defs (onTc (τ := τ) (main (F := F))) (s₀ m ρ)
      (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m hL c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim: the program runs to the end and both argument arrays end as they began. -/
theorem frame (hL : LabelsInRange m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ hL)

end Cert.KernelIdeal.Body

end
-- ==== Proof.KI.PayValue.lean ====
/-
  The body's stored values read at a row, over the extended reals.
-/
import proofs.«429971_j51582557225658_3_alg».proof.Proof.KI.Acc
import proofs.«429971_j51582557225658_3_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

/-- A vector of `n` entries viewed as a column: entry `(r, 0)` of the column is entry `r` of the vector. -/
private theorem colCast_apply {α : Type} {n : Nat} (v : (⟨1, ![n]⟩ : Shape).Idx → α)
    (h : (⟨1, ![n]⟩ : Shape).ShapeCasts ⟨2, ![n, 1]⟩) (r : Fin n) :
    shapeCast ⟨2, ![n, 1]⟩ v h (ix2 r (0 : Fin 1)) = v (ix1 r) :=
  shapeCast_apply v h (ix2 r (0 : Fin 1)) (ix1 r) (by
    rw [Shape.rowMajor_val_two, Shape.rowMajor_val_one]; show r.val = r.val * 1 + 0; omega)

/-- The lane position at `(r, b)` of column block `j`: the word of `4096·j + b`. -/
private theorem kpos_apply (i : grid0.Coords) (r : Fin 512) (b : Fin 4096) :
    k0_pay3 i (ix2 r b) = BitVec.ofNat 32 ((i 1).val * 4096 + b.val) := by
  unfold k0_pay3
  show IntOp.addi (IntOp.muli (BitVec.ofNat 32 (i 1).val) 4096#32)
      (iota .tc S512x4096 32 [1] iota_S512x4096_d1_w32 (ix2 r b)) = _
  rw [iota_single_apply]
  show BitVec.ofNat 32 (i 1).val * BitVec.ofNat 32 4096 + BitVec.ofNat 32 b.val = _
  rw [BitVec.ofNat_add, BitVec.ofNat_mul]

/-- The word of a position below 53248 (13 blocks of 4096 lanes), read signed, is below 50257 exactly when the
    position is: so small a number is its own signed reading. -/
private theorem slt_cols_iff (n : Nat) (hn : n < 53248) :
    IntOp.cmpi .slt (BitVec.ofNat 32 n) 50257#32 = 1#1 ↔ n < 50257 := by
  rw [IntOp.cmpi_slt]
  have h1 : (BitVec.ofNat 32 n).toNat = n := by
    rw [BitVec.toNat_ofNat]; exact Nat.mod_eq_of_lt (by omega)
  have h2 := BitVec.toInt_eq_toNat_cond (BitVec.ofNat 32 n)
  rw [h1] at h2
  have h3 : (50257#32 : BitVec 32).toInt = 50257 := by decide
  rw [h2, h3]
  split <;> omega

/-- A sum along the lanes of a `512 × 4096` block, read at row `r`: the sum of the row's 4096 entries. -/
private theorem laneSum_apply (src : FVec Ideal S512x4096 .f32) (h : S512x4096.Reduces [1] S512) (hφ : FKind.Formats .f32)
    (hacc : (0x00000000#32 : BitVec 32) = FKind.add.neutral .f32 hφ) (r : Fin 512) :
    (multiReduction (F := Ideal) .add [1] S512 src 0x00000000#32 h hφ hacc (ix1 r) : EReal)
      = ∑ b : Fin 4096, (src (ix2 r b) : EReal) := by
  refine (Ideal.multiReduction_add_single src 0x00000000#32 h hφ hacc (ix1 r)).trans ?_
  refine Finset.sum_congr rfl fun b _ => congrArg src ?_
  funext a
  match a with
  | ⟨0, _⟩ => rfl
  | ⟨1, _⟩ => rfl

/-- The named fill constant is `⊥`. -/
private theorem negBig_eq : Named.named (F := Ideal) κ "neg_big" (φ := .f32) 0xF149F2CA#32 = (⊥ : EReal) :=
  IdealRules.named_const.ideal_named_scalar _ _ _ _ rfl

/-- One lane of the masked exponential: on a column that exists it is the class's term, past the last column the
    fill `⊥`, whose exponential is `0`. -/
private theorem expLane_apply (i : grid0.Coords) (x0 : Vec Ideal S512x4096 .f32) (r : Fin 512) (b : Fin 4096) :
    (exp (F := Ideal) (select (cmpi .slt (k0_pay3 i) (broadcast S512x4096 50257#32))
        (mulf (broadcast S512x4096 (Scalar.ofBits (F := Ideal) .f32 0x41F00000#32)) x0)
        (broadcast S512x4096 (Named.named (F := Ideal) κ "neg_big" (φ := .f32) 0xF149F2CA#32))) (ix2 r b) : EReal)
      = if (i 1).val * 4096 + b.val < 50257 then (Cert.Spec.expTerm (x0 (ix2 r b)) : EReal) else 0 := by
  show (FloatOps.exp (Scalar.select (IntOp.cmpi .slt (k0_pay3 i (ix2 r b)) 50257#32)
        (FloatOps.mulf (FloatOps.ofBits (F := Ideal) .f32 0x41F00000#32) (x0 (ix2 r b)))
        (Named.named (F := Ideal) κ "neg_big" (φ := .f32) 0xF149F2CA#32)) : EReal) = _
  have hj : (i 1).val < 13 := (i 1).isLt
  have hb : b.val < 4096 := b.isLt
  rw [kpos_apply]
  by_cases hlt : (i 1).val * 4096 + b.val < 50257
  · rw [if_pos hlt, (slt_cols_iff _ (by omega)).mpr hlt, select_one]
    rfl
  · rw [if_neg hlt, eq_zero_of_ne_one (fun h1 => hlt ((slt_cols_iff _ (by omega)).mp h1)), select_zero, negBig_eq]
    exact Ideal.exp_bot

/-- The row's label laid along the row's lanes: at `(r, b)` it is the label of row `r`. -/
private theorem labLane_apply (lab : Vec Ideal S512x1 .i32) (r : Fin 512) (b : Fin 4096) :
    broadcastTo S512x4096 (shapeCast S512x1 lab shapeCasts_S512x1_S512x1) broadcasts_S512x1_S512x4096 (ix2 r b)
      = lab (ix2 r (0 : Fin 1)) := by
  rw [shapeCast_self]
  refine broadcastTo_apply lab broadcasts_S512x1_S512x4096 (ix2 r b) (ix2 r (0 : Fin 1)) ?_
  intro a
  match a with
  | ⟨0, _⟩ => rfl
  | ⟨1, _⟩ => rfl

/-- One lane of the label pick: the block's entry where the lane's position is the row's label, else `0`. -/
private theorem pickLane_apply (i : grid0.Coords) (x0 : Vec Ideal S512x4096 .f32) (lab : Vec Ideal S512x1 .i32)
    (r : Fin 512) (b : Fin 4096) :
    (select (cmpi .eq (k0_pay3 i)
        (broadcastTo S512x4096 (shapeCast S512x1 lab shapeCasts_S512x1_S512x1) broadcasts_S512x1_S512x4096))
        x0 (broadcast S512x4096 (Scalar.ofBits (F := Ideal) .f32 0x00000000#32)) (ix2 r b) : EReal)
      = if BitVec.ofNat 32 ((i 1).val * 4096 + b.val) = (lab (ix2 r (0 : Fin 1)) : BitVec 32)
          then (x0 (ix2 r b) : EReal) else 0 := by
  show (Scalar.select (IntOp.cmpi .eq (k0_pay3 i (ix2 r b))
        (broadcastTo S512x4096 (shapeCast S512x1 lab shapeCasts_S512x1_S512x1) broadcasts_S512x1_S512x4096 (ix2 r b)))
        (x0 (ix2 r b)) (FloatOps.ofBits (F := Ideal) .f32 0x00000000#32) : EReal) = _
  rw [kpos_apply, labLane_apply]
  by_cases heq : BitVec.ofNat 32 ((i 1).val * 4096 + b.val) = (lab (ix2 r (0 : Fin 1)) : BitVec 32)
  · rw [if_pos heq, IntOp.cmpi_eq.mpr heq, select_one]
  · rw [if_neg heq, eq_zero_of_ne_one (fun h1 => heq (IntOp.cmpi_eq.mp h1)), select_zero]
    exact Ideal.ofBits_zero_f32

/-- The stored zeros. -/
theorem pay1_apply (y : S512x1.Idx) : (k0_pay1 (F := Ideal) y : EReal) = 0 := by
  unfold k0_pay1
  show (shapeCast S512x1 (broadcast S512x1 (Scalar.ofBits (F := Ideal) .f32 0x00000000#32)) shapeCasts_S512x1_S512x1 y : EReal) = 0
  rw [shapeCast_self]
  exact Ideal.ofBits_zero_f32
theorem pay2_apply (y : S512x1.Idx) : (k0_pay2 (F := Ideal) y : EReal) = 0 := by
  unfold k0_pay2
  show (shapeCast S512x1 (broadcast S512x1 (Scalar.ofBits (F := Ideal) .f32 0x00000000#32)) shapeCasts_S512x1_S512x1 y : EReal) = 0
  rw [shapeCast_self]
  exact Ideal.ofBits_zero_f32

/-- Row `r`'s new sum of scaled exponentials: the old one plus the block's entries on the lanes whose column
    `4096·j + b` exists (the others are filled with `⊥`, whose exponential is `0`). -/
theorem pay4_apply (i : grid0.Coords) (x0 : Vec Ideal S512x4096 .f32) (a : Vec Ideal S512x1 .f32) (r : Fin 512) :
    (k0_pay4 (F := Ideal) i x0 a (ix2 r (0 : Fin 1)) : EReal)
      = (a (ix2 r (0 : Fin 1)) : EReal)
        + ∑ b : Fin 4096, if (i 1).val * 4096 + b.val < 50257 then (Cert.Spec.expTerm (x0 (ix2 r b)) : EReal) else 0 := by
  unfold k0_pay4
  dsimp only
  rw [shapeCast_self, addf_apply]
  congr 1
  refine (colCast_apply _ _ r).trans ?_
  refine (laneSum_apply _ _ _ _ r).trans ?_
  exact Finset.sum_congr rfl fun b _ => expLane_apply i x0 r b

/-- Row `r`'s new own-class logit: the old one plus the block's entries on the lanes sitting at the row's label. -/
theorem pay5_apply (i : grid0.Coords) (x0 : Vec Ideal S512x4096 .f32) (lab : Vec Ideal S512x1 .i32) (a : Vec Ideal S512x1 .f32) (r : Fin 512) :
    (k0_pay5 (F := Ideal) i x0 lab a (ix2 r (0 : Fin 1)) : EReal)
      = (a (ix2 r (0 : Fin 1)) : EReal)
        + ∑ b : Fin 4096, if BitVec.ofNat 32 ((i 1).val * 4096 + b.val) = (lab (ix2 r (0 : Fin 1)) : BitVec 32) then (x0 (ix2 r b) : EReal) else 0 := by
  unfold k0_pay5
  dsimp only
  rw [shapeCast_self, addf_apply]
  congr 1
  refine (colCast_apply _ _ r).trans ?_
  refine (laneSum_apply _ _ _ _ r).trans ?_
  exact Finset.sum_congr rfl fun b _ => pickLane_apply i x0 lab r b

end Cert.KernelIdeal.Body

end
-- ==== Proof.KI.AccValue.lean ====
/-
  The two carried sums, after the last column block of a row tile, in closed form.

  Column block `j` of a row tile adds, to each carried sum, the terms of the columns `4096·j … 4096·j + 4095` that
  exist (those below 50257). So after block `j` each carried sum is the sum of its terms over the columns below
  `4096·(j + 1)`; after the thirteenth block that bound, 53248, is past every column, and the sums are the whole
  row's.
-/
import proofs.«429971_j51582557225658_3_alg».proof.Proof.KI.PayValue
import proofs.«429971_j51582557225658_3_alg».proof.Proof.KI.BlockRead
import Mathlib.Data.Fintype.BigOperators
import Mathlib.Algebra.BigOperators.Intervals
import Mathlib.Algebra.BigOperators.Group.Finset.Basic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

/-- One column block's lanes against the columns of its window. Lane `b` of block `j` is column `4096·j + b`; the
    lanes whose column exists are exactly the existing columns in `[4096·j, 4096·(j + 1))`, each met once. Both sides
    are the sum of `f` over the naturals of that window that lie below 50257. -/
private theorem window_sum {M : Type*} [AddCommMonoid M] (f : ℕ → M) (j : ℕ) :
    (∑ b : Fin 4096, if j * 4096 + b.val < 50257 then f (j * 4096 + b.val) else 0)
      = ∑ k : Fin 50257, if j * 4096 ≤ k.val ∧ k.val < (j + 1) * 4096 then f k.val else 0 := by
  rw [Fin.sum_univ_eq_sum_range (fun b => if j * 4096 + b < 50257 then f (j * 4096 + b) else 0) 4096,
      Fin.sum_univ_eq_sum_range (fun k => if j * 4096 ≤ k ∧ k < (j + 1) * 4096 then f k else 0) 50257]
  have h1 : ∑ b ∈ Finset.range 4096, (if j * 4096 + b < 50257 then f (j * 4096 + b) else 0)
      = ∑ k ∈ Finset.Ico (j * 4096) ((j + 1) * 4096), (if k < 50257 then f k else 0) := by
    rw [Finset.sum_Ico_eq_sum_range]
    have hw : (j + 1) * 4096 - j * 4096 = 4096 := by omega
    rw [hw]
  rw [h1, ← Finset.sum_filter, ← Finset.sum_filter]
  refine Finset.sum_congr ?_ (fun _ _ => rfl)
  ext k
  simp only [Finset.mem_filter, Finset.mem_Ico, Finset.mem_range]
  omega

/-- The columns below `4096·j` and the columns of block `j`'s window together are the columns below `4096·(j + 1)`. -/
private theorem prefix_add_window {M : Type*} [AddCommMonoid M] (g : Fin 50257 → M) (j : ℕ) :
    (∑ k : Fin 50257, if k.val < j * 4096 then g k else 0)
      + (∑ k : Fin 50257, if j * 4096 ≤ k.val ∧ k.val < (j + 1) * 4096 then g k else 0)
      = ∑ k : Fin 50257, if k.val < (j + 1) * 4096 then g k else 0 := by
  rw [← Finset.sum_add_distrib]
  refine Finset.sum_congr rfl (fun k _ => ?_)
  by_cases h1 : k.val < j * 4096
  · have h2 : ¬(j * 4096 ≤ k.val ∧ k.val < (j + 1) * 4096) := by omega
    have h3 : k.val < (j + 1) * 4096 := by omega
    rw [if_pos h1, if_neg h2, if_pos h3, add_zero]
  · by_cases h2 : k.val < (j + 1) * 4096
    · have h3 : j * 4096 ≤ k.val ∧ k.val < (j + 1) * 4096 := by omega
      rw [if_neg h1, if_pos h3, if_pos h2, zero_add]
    · have h3 : ¬(j * 4096 ≤ k.val ∧ k.val < (j + 1) * 4096) := by omega
      rw [if_neg h1, if_neg h3, if_neg h2, add_zero]

variable (m : (ℓ : Loc nD τ sig) → Buf (Elt Ideal) ℓ)

/-- What point `t` adds to the first carried sum, as a sum over the array's columns: the scaled exponentials of the
    row's entries on the existing columns of the point's window. A lane whose column exists holds that entry of the
    array; a lane past the last column adds nothing. -/
private theorem pay4_window (c : Dev nD) (t : Fin cfg0.N) (a : Vec Ideal S512x1 .f32) (r : Fin 512) :
    (k0_pay4 (F := Ideal) (grid0.coords t) (xfill (F := Ideal) m c t) a (ix2 r (0 : Fin 1)) : EReal)
      = (a (ix2 r (0 : Fin 1)) : EReal)
        + ∑ k : Fin 50257, (if (t.val % 13) * 4096 ≤ k.val ∧ k.val < (t.val % 13 + 1) * 4096
            then Cert.Spec.expTerm (m ((c : Thread nD τ).loc main_arg0) (ix2 (rowOf t r) k)) else 0 : EReal) := by
  rw [pay4_apply, coords_col]
  refine congrArg (fun s : EReal => (a (ix2 r (0 : Fin 1)) : EReal) + s) ?_
  have hf := window_sum
    (fun k => (if h : k < 50257 then
      Cert.Spec.expTerm (m ((c : Thread nD τ).loc main_arg0) (ix2 (rowOf t r) (⟨k, h⟩ : Fin 50257))) else 0 : EReal))
    (t.val % 13)
  refine Eq.trans ?_ (hf.trans ?_)
  · refine Finset.sum_congr rfl (fun b _ => ?_)
    by_cases h : (t.val % 13) * 4096 + b.val < 50257
    · simp only [if_pos h, dif_pos h]
      exact congrArg Cert.Spec.expTerm (xfill_apply m c t r b h)
    · simp only [if_neg h]
  · refine Finset.sum_congr rfl (fun k _ => ?_)
    simp only [dif_pos k.isLt, Fin.eta]

/-- What point `t` adds to the second carried sum, as a sum over the array's columns: the row's entries on the existing
    columns of the point's window that sit at the row's label. A lane whose column exists holds that entry; a lane
    past the last column holds zero, so whether or not its position is the label it adds zero. -/
private theorem pay5_window (c : Dev nD) (t : Fin cfg0.N) (a : Vec Ideal S512x1 .f32) (r : Fin 512) :
    (k0_pay5 (F := Ideal) (grid0.coords t) (xfill (F := Ideal) m c t) (lblk (F := Ideal) m c t) a (ix2 r (0 : Fin 1)) : EReal)
      = (a (ix2 r (0 : Fin 1)) : EReal)
        + ∑ k : Fin 50257, (if (t.val % 13) * 4096 ≤ k.val ∧ k.val < (t.val % 13 + 1) * 4096
            then (if BitVec.ofNat 32 k.val = m ((c : Thread nD τ).loc main_arg1) (ix1 (rowOf t r))
                    then m ((c : Thread nD τ).loc main_arg0) (ix2 (rowOf t r) k) else 0) else 0 : EReal) := by
  rw [pay5_apply, coords_col, lblk_apply m c t r]
  refine congrArg (fun s : EReal => (a (ix2 r (0 : Fin 1)) : EReal) + s) ?_
  have hf := window_sum
    (fun k => (if h : k < 50257 then
      (if BitVec.ofNat 32 k = m ((c : Thread nD τ).loc main_arg1) (ix1 (rowOf t r))
        then m ((c : Thread nD τ).loc main_arg0) (ix2 (rowOf t r) (⟨k, h⟩ : Fin 50257)) else 0) else 0 : EReal))
    (t.val % 13)
  refine Eq.trans ?_ (hf.trans ?_)
  · refine Finset.sum_congr rfl (fun b _ => ?_)
    by_cases h : (t.val % 13) * 4096 + b.val < 50257
    · simp only [if_pos h, dif_pos h]
      rw [xfill_apply m c t r b h]
    · simp only [if_neg h]
      rw [xfill_outside m c t r b h]
      simp only [ite_self]
  · refine Finset.sum_congr rfl (fun k _ => ?_)
    simp only [dif_pos k.isLt, Fin.eta]

/-- One point's step on both carried sums: if before point `t` (column block `j`, array row `row`) the sums run over
    the columns below `4096·j`, after it they run over the columns below `4096·(j + 1)`. -/
private theorem acc_step (c : Dev nD) (t : Fin cfg0.N) (j : ℕ) (hj : t.val % 13 = j) (r : Fin 512) (row : Fin 2048)
    (hrow : rowOf t r = row) (a1 a2 : Vec Ideal S512x1 .f32)
    (h1 : (a1 (ix2 r (0 : Fin 1)) : EReal)
        = ∑ k : Fin 50257, (if k.val < j * 4096
            then Cert.Spec.expTerm (m ((c : Thread nD τ).loc main_arg0) (ix2 row k)) else 0 : EReal))
    (h2 : (a2 (ix2 r (0 : Fin 1)) : EReal)
        = ∑ k : Fin 50257, (if k.val < j * 4096
            then (if BitVec.ofNat 32 k.val = m ((c : Thread nD τ).loc main_arg1) (ix1 row)
                    then m ((c : Thread nD τ).loc main_arg0) (ix2 row k) else 0) else 0 : EReal)) :
    (k0_pay4 (F := Ideal) (grid0.coords t) (xfill (F := Ideal) m c t) a1 (ix2 r (0 : Fin 1)) : EReal)
        = ∑ k : Fin 50257, (if k.val < (j + 1) * 4096
            then Cert.Spec.expTerm (m ((c : Thread nD τ).loc main_arg0) (ix2 row k)) else 0 : EReal)
    ∧ (k0_pay5 (F := Ideal) (grid0.coords t) (xfill (F := Ideal) m c t) (lblk (F := Ideal) m c t) a2 (ix2 r (0 : Fin 1)) : EReal)
        = ∑ k : Fin 50257, (if k.val < (j + 1) * 4096
            then (if BitVec.ofNat 32 k.val = m ((c : Thread nD τ).loc main_arg1) (ix1 row)
                    then m ((c : Thread nD τ).loc main_arg0) (ix2 row k) else 0) else 0 : EReal) := by
  subst hj
  subst hrow
  constructor
  · rw [pay4_window, h1]
    exact prefix_add_window
      (fun k => (Cert.Spec.expTerm (m ((c : Thread nD τ).loc main_arg0) (ix2 (rowOf t r) k)) : EReal)) (t.val % 13)
  · rw [pay5_window, h2]
    exact prefix_add_window
      (fun k => (if BitVec.ofNat 32 k.val = m ((c : Thread nD τ).loc main_arg1) (ix1 (rowOf t r))
                  then m ((c : Thread nD τ).loc main_arg0) (ix2 (rowOf t r) k) else 0 : EReal)) (t.val % 13)

/-- After point `n` (column block `n % 13` of its row tile) lane row `r` of each carried sum is the sum of its terms
    over the columns below `4096·(n % 13 + 1)`. By recursion on the point: the first block of a row tile starts from
    the stored zeros, every other block continues from the point before, which works on the same rows. -/
private theorem acc_partial (c : Dev nD) (n : ℕ) : ∀ (hn : n < cfg0.N) (r : Fin 512),
    ((accAt (F := Ideal) m c n hn).1 (ix2 r (0 : Fin 1)) : EReal)
        = ∑ k : Fin 50257, (if k.val < (n % 13 + 1) * 4096
            then Cert.Spec.expTerm (m ((c : Thread nD τ).loc main_arg0) (ix2 (rowOf ⟨n, hn⟩ r) k)) else 0 : EReal)
    ∧ ((accAt (F := Ideal) m c n hn).2 (ix2 r (0 : Fin 1)) : EReal)
        = ∑ k : Fin 50257, (if k.val < (n % 13 + 1) * 4096
            then (if BitVec.ofNat 32 k.val = m ((c : Thread nD τ).loc main_arg1) (ix1 (rowOf ⟨n, hn⟩ r))
                    then m ((c : Thread nD τ).loc main_arg0) (ix2 (rowOf ⟨n, hn⟩ r) k) else 0) else 0 : EReal) := by
  -- the stored zeros are the empty sums: no column lies below `4096·0`
  have z1 : ∀ (row : Fin 2048) (r : Fin 512), (k0_pay1 (F := Ideal) (ix2 r (0 : Fin 1)) : EReal)
      = ∑ k : Fin 50257, (if k.val < 0 * 4096
          then Cert.Spec.expTerm (m ((c : Thread nD τ).loc main_arg0) (ix2 row k)) else 0 : EReal) := by
    intro row r
    rw [pay1_apply]
    symm
    refine Finset.sum_eq_zero (fun k _ => ?_)
    rw [if_neg]
    omega
  have z2 : ∀ (row : Fin 2048) (r : Fin 512), (k0_pay2 (F := Ideal) (ix2 r (0 : Fin 1)) : EReal)
      = ∑ k : Fin 50257, (if k.val < 0 * 4096
          then (if BitVec.ofNat 32 k.val = m ((c : Thread nD τ).loc main_arg1) (ix1 row)
                  then m ((c : Thread nD τ).loc main_arg0) (ix2 row k) else 0) else 0 : EReal) := by
    intro row r
    rw [pay2_apply]
    symm
    refine Finset.sum_eq_zero (fun k _ => ?_)
    rw [if_neg]
    omega
  induction n with
  | zero =>
    intro hn r
    have e : accAt (F := Ideal) m c 0 hn = _ := accAt_first m c ⟨0, hn⟩ (Nat.zero_mod 13)
    rw [e]
    exact acc_step m c ⟨0, hn⟩ 0 (Nat.zero_mod 13) r _ rfl _ _ (z1 (rowOf ⟨0, hn⟩ r) r) (z2 (rowOf ⟨0, hn⟩ r) r)
  | succ n ih =>
    intro hn r
    have hn' : n < cfg0.N := Nat.lt_of_succ_lt hn
    by_cases h : (n + 1) % 13 = 0
    · have e : accAt (F := Ideal) m c (n + 1) hn = _ := accAt_first m c ⟨n + 1, hn⟩ h
      rw [e, h]
      exact acc_step m c ⟨n + 1, hn⟩ 0 h r _ rfl _ _ (z1 (rowOf ⟨n + 1, hn⟩ r) r) (z2 (rowOf ⟨n + 1, hn⟩ r) r)
    · have e : accAt (F := Ideal) m c (n + 1) hn = _ := accAt_next m c ⟨n + 1, hn⟩ h
      have hj : (n + 1) % 13 = n % 13 + 1 := by omega
      -- the point before works on the same row tile
      have hrow : rowOf ⟨n, hn'⟩ r = rowOf ⟨n + 1, hn⟩ r := by
        apply Fin.ext
        simp only [rowOf]
        omega
      obtain ⟨i1, i2⟩ := ih hn' r
      rw [hrow] at i1 i2
      rw [e, hj]
      exact acc_step m c ⟨n + 1, hn⟩ (n % 13 + 1) hj r _ rfl _ _ i1 i2

/-- After the last column block (`t % 13 = 12`) of a row tile, lane row `r` of the first carried sum is the array
    row's sum of scaled exponentials over ALL 50257 classes — the thirteen blocks' lanes walk the columns
    `0 … 53247`, of which those below 50257 exist and the rest contribute `exp ⊥ = 0` —, and lane row `r` of the second
    is the row's own-class logit. -/
theorem acc_last (c : Dev nD) (t : Fin cfg0.N) (ht : t.val % 13 = 12) (r : Fin 512) :
    ((accAt (F := Ideal) m c t.val t.isLt).1 (ix2 r (0 : Fin 1)) : EReal)
        = Cert.Spec.rowSumExp (m ((c : Thread nD τ).loc main_arg0)) (rowOf t r)
    ∧ ((accAt (F := Ideal) m c t.val t.isLt).2 (ix2 r (0 : Fin 1)) : EReal)
        = Cert.Spec.labelLogit (m ((c : Thread nD τ).loc main_arg0)) (m ((c : Thread nD τ).loc main_arg1)) (rowOf t r) := by
  obtain ⟨n, hn⟩ := t
  have ht' : n % 13 = 12 := ht
  obtain ⟨h1, h2⟩ := acc_partial m c n hn r
  rw [ht'] at h1 h2
  -- every column lies below 13 · 4096 = 53248
  have hk : ∀ k : Fin 50257, k.val < (12 + 1) * 4096 := fun k => by have := k.isLt; omega
  constructor
  · refine h1.trans ?_
    unfold Cert.Spec.rowSumExp
    refine Finset.sum_congr rfl (fun k _ => ?_)
    rw [if_pos (hk k)]
  · refine h2.trans ?_
    unfold Cert.Spec.labelLogit
    refine Finset.sum_congr rfl (fun k _ => ?_)
    rw [if_pos (hk k)]

end Cert.KernelIdeal.Body

end
-- ==== Proof.KI.Final.lean ====
/-
  The two output arrays after the run, in closed form.

  Both outputs are written back four times, once per row tile, after the tile's last column block; the block written
  at point `t = 13·q + 12` is rows `512·q … 512·q + 511` of a column of 2048 rows. Each written block is the
  restriction of one whole-column function (row `R` ↦ lane row `R % 512` of the carried sum after point
  `13·(R / 512) + 12`), and the four blocks cover the column, so the column ends holding that function; the carried
  sums after a tile's last column block are the row's full sums.
-/
import proofs.«429971_j51582557225658_3_alg».proof.Proof.KI.Frame.Data
import proofs.«429971_j51582557225658_3_alg».proof.Proof.KI.AccValue

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (m : (ℓ : Loc nD τ sig) → Buf (Elt Ideal) ℓ)

/-! ## The whole-column functions -/

/-- The last column block of the row tile holding row `R` is a point of the grid: `13·(R / 512) + 12 ≤ 51`. -/
private theorem lastPoint_lt (R : ℕ) (hR : R < 2048) : 13 * (R / 512) + 12 < cfg0.N := by
  have hN : cfg0.N = 52 := N_0
  omega

/-- The carried pair read at equal points and equal lanes. -/
private theorem accAt_congr (c : Dev nD) {n n' : ℕ} (h : n = n') (hn : n < cfg0.N) (hn' : n' < cfg0.N)
    {i i' : S512x1.Idx} (hi : i = i') :
    (accAt (F := Ideal) m c n hn).1 i = (accAt (F := Ideal) m c n' hn').1 i'
    ∧ (accAt (F := Ideal) m c n hn).2 i = (accAt (F := Ideal) m c n' hn').2 i' := by
  subst h; subst hi; exact ⟨rfl, rfl⟩

/-- The first output column as one function of the row: lane row `R % 512` of the first carried sum after the last
    column block of row tile `R / 512`. -/
def sumColumn (c : Dev nD) : S2048x1.Idx → Elt Ideal .f32 := fun y =>
  (accAt (F := Ideal) m c (13 * ((y 0).val / 512) + 12) (lastPoint_lt _ (idx2_lt0 y))).1
    (ix2 (⟨(y 0).val % 512, Nat.mod_lt _ (by decide)⟩ : Fin 512) (0 : Fin 1))

/-- The second output column likewise, from the second carried sum. -/
def logitColumn (c : Dev nD) : S2048x1.Idx → Elt Ideal .f32 := fun y =>
  (accAt (F := Ideal) m c (13 * ((y 0).val / 512) + 12) (lastPoint_lt _ (idx2_lt0 y))).2
    (ix2 (⟨(y 0).val % 512, Nat.mod_lt _ (by decide)⟩ : Fin 512) (0 : Fin 1))

/-- At a tile's last column block `t`, row `512·(t / 13) + j₀` of either column is lane `j` of the carried sum after
    `t`: that row's tile is `t / 13`, whose last column block is `13·(t / 13) + 12 = t`, and its lane row is `j₀`. -/
private theorem columns_at (c : Dev nD) (t : Fin cfg0.N) (ht : t.val % 13 = 12) (y : S2048x1.Idx) (j : S512x1.Idx)
    (h0 : (y 0).val = t.val / 13 * 512 + 1 * (j 0).val) :
    sumColumn m c y = (accAt (F := Ideal) m c t.val t.isLt).1 j
    ∧ logitColumn m c y = (accAt (F := Ideal) m c t.val t.isLt).2 j := by
  have hj0 : (j 0).val < 512 := idx2_lt0 j
  have hj1 : (j 1).val < 1 := idx2_lt1 j
  unfold sumColumn logitColumn
  refine accAt_congr m c ?_ _ _ ?_
  · omega
  · funext a
    match a with
    | ⟨0, _⟩ => exact Fin.ext (by show (y 0).val % 512 = (j 0).val; omega)
    | ⟨1, _⟩ => exact Fin.ext (by show (0 : ℕ) = (j 1).val; omega)

/-! ## The two output windows' index maps, over the 52 points -/

/-- Both output blocks at point `t` are block `(t / 13, 0)` of their column. -/
private theorem out_index : ∀ t : Fin cfg0.N,
    (win0_2.index t (0 : Fin 2) = t.val / 13 ∧ win0_2.index t (1 : Fin 2) = 0)
    ∧ (win0_3.index t (0 : Fin 2) = t.val / 13 ∧ win0_3.index t (1 : Fin 2) = 0) :=
  (by decide +kernel : ∀ t : Fin grid0.N,
    (win0_2.index t (0 : Fin 2) = t.val / 13 ∧ win0_2.index t (1 : Fin 2) = 0)
    ∧ (win0_3.index t (0 : Fin 2) = t.val / 13 ∧ win0_3.index t (1 : Fin 2) = 0))

/-! ## The first output -/

/-- What a write-back point writes to the first output is its block of `sumColumn`. -/
private theorem flushed_sum (c : Dev nD) (t : Fin cfg0.N) (hf : (cfg0.win 2).flush t = true) :
    (dats (F := Ideal) m 0 c).flushed 2 t = ((cfg0.win 2).blk t).view.read (Elt Ideal) (sumColumn m c) := by
  have ht : t.val % 13 = 12 := (flush0_2 t).mp hf
  have hi := (out_index t).1
  show (cfg0.win 2).cut (grid0.coords t) ((dats (F := Ideal) m 0 c).after 2 t) = _
  rw [after_sum]
  funext j
  show (accAt (F := Ideal) m c t.val t.isLt).1 j = sumColumn m c (((cfg0.win 2).blk t).view.emb j)
  refine (columns_at m c t ht (((cfg0.win 2).blk t).view.emb j) j ?_).1.symm
  show win0_2.index t (0 : Fin 2) * 512 + 1 * (j (0 : Fin 2)).val = t.val / 13 * 512 + 1 * (j (0 : Fin 2)).val
  rw [hi.1]

/-- Every row of the first output lies in the block of its tile's last column block. -/
private theorem covered_sum (i : S2048x1.Idx) :
    ∃ t : Fin cfg0.N, (cfg0.win 2).flush t = true ∧ i ∈ ((cfg0.win 2).blk t).view.set := by
  have h0 : (i 0).val < 2048 := idx2_lt0 i
  have h1 : (i 1).val < 1 := idx2_lt1 i
  let t : Fin cfg0.N := ⟨13 * ((i 0).val / 512) + 12, lastPoint_lt _ h0⟩
  have htv : t.val = 13 * ((i 0).val / 512) + 12 := rfl
  have hi := (out_index t).1
  refine ⟨t, (flush0_2 t).mpr (by omega), ?_⟩
  show i ∈ ((View.whole main_v1_0).slice (win0_2.rect t)).set
  rw [View.set_slice_whole, Rect.mem_set_unit]
  intro a
  match a with
  | ⟨0, _⟩ =>
    show win0_2.index t (0 : Fin 2) * 512 ≤ (i 0).val ∧ (i 0).val < win0_2.index t (0 : Fin 2) * 512 + 512
    rw [hi.1]; omega
  | ⟨1, _⟩ =>
    show win0_2.index t (1 : Fin 2) * 1 ≤ (i 1).val ∧ (i 1).val < win0_2.index t (1 : Fin 2) * 1 + 1
    rw [hi.2]; omega

/-- So the first output ends holding `sumColumn`. -/
private theorem arr_sum (c : Dev nD) : (dats (F := Ideal) m 0 c).arrAt 2 cfg0.N = sumColumn m c :=
  (dats (F := Ideal) m 0 c).arrAt_eq_of_cover 2 (sumColumn m c) (flushed_sum m c) covered_sum

/-! ## The second output -/

/-- What a write-back point writes to the second output is its block of `logitColumn`. -/
private theorem flushed_logit (c : Dev nD) (t : Fin cfg0.N) (hf : (cfg0.win 3).flush t = true) :
    (dats (F := Ideal) m 0 c).flushed 3 t = ((cfg0.win 3).blk t).view.read (Elt Ideal) (logitColumn m c) := by
  have ht : t.val % 13 = 12 := (flush0_3 t).mp hf
  have hi := (out_index t).2
  show (cfg0.win 3).cut (grid0.coords t) ((dats (F := Ideal) m 0 c).after 3 t) = _
  rw [after_logit]
  funext j
  show (accAt (F := Ideal) m c t.val t.isLt).2 j = logitColumn m c (((cfg0.win 3).blk t).view.emb j)
  refine (columns_at m c t ht (((cfg0.win 3).blk t).view.emb j) j ?_).2.symm
  show win0_3.index t (0 : Fin 2) * 512 + 1 * (j (0 : Fin 2)).val = t.val / 13 * 512 + 1 * (j (0 : Fin 2)).val
  rw [hi.1]

/-- Every row of the second output lies in the block of its tile's last column block. -/
private theorem covered_logit (i : S2048x1.Idx) :
    ∃ t : Fin cfg0.N, (cfg0.win 3).flush t = true ∧ i ∈ ((cfg0.win 3).blk t).view.set := by
  have h0 : (i 0).val < 2048 := idx2_lt0 i
  have h1 : (i 1).val < 1 := idx2_lt1 i
  let t : Fin cfg0.N := ⟨13 * ((i 0).val / 512) + 12, lastPoint_lt _ h0⟩
  have htv : t.val = 13 * ((i 0).val / 512) + 12 := rfl
  have hi := (out_index t).2
  refine ⟨t, (flush0_3 t).mpr (by omega), ?_⟩
  show i ∈ ((View.whole main_v1_1).slice (win0_3.rect t)).set
  rw [View.set_slice_whole, Rect.mem_set_unit]
  intro a
  match a with
  | ⟨0, _⟩ =>
    show win0_3.index t (0 : Fin 2) * 512 ≤ (i 0).val ∧ (i 0).val < win0_3.index t (0 : Fin 2) * 512 + 512
    rw [hi.1]; omega
  | ⟨1, _⟩ =>
    show win0_3.index t (1 : Fin 2) * 1 ≤ (i 1).val ∧ (i 1).val < win0_3.index t (1 : Fin 2) * 1 + 1
    rw [hi.2]; omega

/-- So the second output ends holding `logitColumn`. -/
private theorem arr_logit (c : Dev nD) : (dats (F := Ideal) m 0 c).arrAt 3 cfg0.N = logitColumn m c :=
  (dats (F := Ideal) m 0 c).arrAt_eq_of_cover 3 (logitColumn m c) (flushed_logit m c) covered_logit

/-! ## The two outputs at a row -/

/-- Row `R` is lane row `R % 512` of the tile whose last column block is `13·(R / 512) + 12`. -/
private theorem row_point (R : Fin 2048) :
    ∃ (t : Fin cfg0.N) (r : Fin 512), t.val % 13 = 12 ∧ rowOf t r = R
      ∧ R.val = t.val / 13 * 512 + 1 * r.val := by
  have hR := R.isLt
  let t : Fin cfg0.N := ⟨13 * (R.val / 512) + 12, lastPoint_lt _ hR⟩
  have htv : t.val = 13 * (R.val / 512) + 12 := rfl
  refine ⟨t, ⟨R.val % 512, Nat.mod_lt _ (by decide)⟩, by omega, ?_, ?_⟩
  · apply Fin.ext
    show 512 * (t.val / 13) + R.val % 512 = R.val
    omega
  · show R.val = t.val / 13 * 512 + 1 * (R.val % 512)
    omega

/-- The first output array ends holding, at row `R`, the row's sum of scaled exponentials over all classes: the four
    write-backs (one per row tile, at its last column block) write rows `512·q … 512·q + 511`, together all 2048. -/
theorem final_sum (c : Dev nD) (R : Fin 2048) :
    ((dats (F := Ideal) m 0 c).arrAt 2 cfg0.N (ix2 R (0 : Fin 1)) : EReal)
      = Cert.Spec.rowSumExp (m ((c : Thread nD τ).loc main_arg0)) R := by
  obtain ⟨t, r, ht, hrow, hR⟩ := row_point R
  have h := (acc_last m c t ht r).1
  rw [hrow] at h
  rw [arr_sum]
  exact (columns_at m c t ht (ix2 R (0 : Fin 1)) (ix2 r (0 : Fin 1)) hR).1.trans h

/-- The second output array ends holding, at row `R`, the row's own-class logit. -/
theorem final_logit (c : Dev nD) (R : Fin 2048) :
    ((dats (F := Ideal) m 0 c).arrAt 3 cfg0.N (ix2 R (0 : Fin 1)) : EReal)
      = Cert.Spec.labelLogit (m ((c : Thread nD τ).loc main_arg0)) (m ((c : Thread nD τ).loc main_arg1)) R := by
  obtain ⟨t, r, ht, hrow, hR⟩ := row_point R
  have h := (acc_last m c t ht r).2
  rw [hrow] at h
  rw [arr_logit]
  exact (columns_at m c t ht (ix2 R (0 : Fin 1)) (ix2 r (0 : Fin 1)) hR).2.trans h

end Cert.KernelIdeal.Body

end
-- ==== Proof.Tail.lean ====
/-
  The function both programs apply, on the host, to a row vector `S` of sums of scaled exponentials and a row vector
  `l` of own-class logits, to get the scalar result:

    n r = 30 · (l r − 0.4)                          the margin-shifted, scaled own-class logit
    d r = exp (n r) + (S r − exp (30 · l r))        the own class's term replaced by its shifted one
    L r = n r − log (d r)
    result = −( (∑ᵣ L r) / 2048 )

  Both programs print exactly these host operations with exactly these words (30 = 0x41F00000, 0.4 = 0x3ECCCCCD,
  2048 = 0x45000000), so this one definition is each program's tail by unfolding, and it is never opened: the two
  results are equal because their `S` and `l` are.
-/
import Idealize.ShloMosaic.PureOps
import Idealize.ShloMosaic.Lib.StableHlo

noncomputable section

namespace Cert.Tail

open Idealize.ShloMosaic

/-- The rows' shape and the scalar's. -/
abbrev SR : Shape := ⟨1, ![2048]⟩
abbrev S0 : Shape := ⟨0, ![]⟩

/-- The margin loss and its negated mean, from the two row vectors. The three shape facts are the ones the host
    operations take; any witnesses give the same function. -/
def lossOf {F : FTy → Type} [FloatOps F] (hb : S0.BroadcastsInDim SR (![] : Fin 0 → Fin SR.rank))
    (hr : SR.ReducesTo [0] S0) (h0 : 0 < S0.numel) (S l : FVec F SR .f32) : FVec F S0 .f32 :=
  Host.negf (Host.divf (Host.reduceAdd
    (subf (mulf (broadcastInDim SR ![] hb (constant S0 .f32 0x41F00000#32)) (subf l (broadcastInDim SR ![] hb (constant S0 .f32 0x3ECCCCCD#32))))
      (Host.log (addf (Host.exp (mulf (broadcastInDim SR ![] hb (constant S0 .f32 0x41F00000#32)) (subf l (broadcastInDim SR ![] hb (constant S0 .f32 0x3ECCCCCD#32)))))
        (subf S (Host.exp (mulf (broadcastInDim SR ![] hb (constant S0 .f32 0x41F00000#32)) l))))))
    (constant S0 .f32 0x00000000#32) hr h0) (constant S0 .f32 0x45000000#32))

end Cert.Tail

end
-- ==== Proof.KI.Result.lean ====
/-
  The program's result: the shared host tail of the two output arrays.
-/
import proofs.«429971_j51582557225658_3_alg».proof.Proof.KI.Frame.Launch
import proofs.«429971_j51582557225658_3_alg».proof.Proof.KI.Final
import proofs.«429971_j51582557225658_3_alg».proof.Proof.Tail
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (m : (ℓ : Loc nD τ sig) → Buf (Elt Ideal) ℓ) (ρ : Dev nD → PrngReg)

/-- The row vector of sums of scaled exponentials, and of own-class logits, of the argument arrays on core `c`. -/
def sumRow (c : Dev nD) : FVec Ideal Cert.Tail.SR .f32 :=
  fun i => Cert.Spec.rowSumExp (m ((c : Thread nD τ).loc main_arg0)) (i 0)
def logitRow (c : Dev nD) : FVec Ideal Cert.Tail.SR .f32 :=
  fun i => Cert.Spec.labelLogit (m ((c : Thread nD τ).loc main_arg0)) (m ((c : Thread nD τ).loc main_arg1)) (i 0)

/-! ## The two output arrays as the host operations find them

After the region, core `c`'s buffers are the region-entry contents with every array of the pipeline replaced by what
the proof data computes after the last point. The two output arrays are the pipeline's third and fourth arrays. -/

/-- The first output array, as the host operations after the region find it. -/
theorem arr_sum (c : Dev nD) :
    Pipeline.withArrays spec0 c (V0 m c) (fun w => (dats (F := Ideal) m 0 c).arrAt w cfg0.N) (Proc.devRef .tc main_v1_0)
      = (dats (F := Ideal) m 0 c).arrAt 2 cfg0.N :=
  Pipeline.withArrays_arr spec0 launch0.win.arr_inj c (V0 m c) (fun w => (dats (F := Ideal) m 0 c).arrAt w cfg0.N) 2

/-- The second output array, as the host operations after the region find it. -/
theorem arr_logit (c : Dev nD) :
    Pipeline.withArrays spec0 c (V0 m c) (fun w => (dats (F := Ideal) m 0 c).arrAt w cfg0.N) (Proc.devRef .tc main_v1_1)
      = (dats (F := Ideal) m 0 c).arrAt 3 cfg0.N :=
  Pipeline.withArrays_arr spec0 launch0.win.arr_inj c (V0 m c) (fun w => (dats (F := Ideal) m 0 c).arrAt w cfg0.N) 3

/-! ## A column of 2048 entries reshaped to a row

Entry `r` of the row is entry `(r, 0)` of the column: both sit at row-major position `r` (`r · 1 + 0 = r`). -/

/-- The first output array reshaped to a row is the row of sums of scaled exponentials. -/
theorem row_sum (c : Dev nD) :
    (fun i => shapeCast S2048 (Pipeline.withArrays spec0 c (V0 m c) (fun w => (dats (F := Ideal) m 0 c).arrAt w cfg0.N)
        (Proc.devRef .tc main_v1_0)) shapeCasts_S2048x1_S2048 i : FVec Ideal Cert.Tail.SR .f32) = sumRow m c := by
  funext i
  rw [arr_sum m c]
  refine (shapeCast_apply _ _ i (ix2 (i 0) (0 : Fin 1)) ?_).trans (final_sum m c (i 0))
  rw [Shape.rowMajor_val_two, Shape.rowMajor_val_one]
  show (i 0).val * 1 + 0 = (i 0).val
  omega

/-- The second output array reshaped to a row is the row of own-class logits. -/
theorem row_logit (c : Dev nD) :
    (fun i => shapeCast S2048 (Pipeline.withArrays spec0 c (V0 m c) (fun w => (dats (F := Ideal) m 0 c).arrAt w cfg0.N)
        (Proc.devRef .tc main_v1_1)) shapeCasts_S2048x1_S2048 i : FVec Ideal Cert.Tail.SR .f32) = logitRow m c := by
  funext i
  rw [arr_logit m c]
  refine (shapeCast_apply _ _ i (ix2 (i 0) (0 : Fin 1)) ?_).trans (final_logit m c (i 0))
  rw [Shape.rowMajor_val_two, Shape.rowMajor_val_one]
  show (i 0).val * 1 + 0 = (i 0).val
  omega

/-! ## The host operations after the region

Read at the result buffer, the twenty-two operations compose to one term over the two reshaped output arrays: the
two reshapes, then the same constants, differences, products, exponentials, sum, logarithm, row sum, quotient and
negation, in the same order and on the same words, as the shared tail. So the result is the shared tail of the two
reshaped arrays by unfolding alone, and the arithmetic is never opened: it remains that the two reshaped arrays are
the two row vectors. -/

/-- The result buffer after the host operations is the shared tail of the two row vectors. -/
theorem tail_result (c : Dev nD) :
    Pipeline.afterTail₀ cfgs (dats (F := Ideal) m) 0 (V0 m) [hostOps1] c main_v18
      = Cert.Tail.lossOf (F := Ideal) bcast_S_S2048 reducesTo_S2048_S_d0 h_S_ (sumRow m c) (logitRow m c) := by
  unfold Pipeline.afterTail₀
  show StableHlo.after hostOps1 _ (Proc.devRef .tc main_v18) = _
  after_results
  refine Eq.trans (b := Cert.Tail.lossOf (F := Ideal) bcast_S_S2048 reducesTo_S2048_S_d0 h_S_
      (fun i => shapeCast S2048 (Pipeline.withArrays spec0 c (V0 m c) (fun w => (dats (F := Ideal) m 0 c).arrAt w cfg0.N)
        (Proc.devRef .tc main_v1_0)) shapeCasts_S2048x1_S2048 i)
      (fun i => shapeCast S2048 (Pipeline.withArrays spec0 c (V0 m c) (fun w => (dats (F := Ideal) m 0 c).arrAt w cfg0.N)
        (Proc.devRef .tc main_v1_1)) shapeCasts_S2048x1_S2048 i)) rfl ?_
  rw [row_sum m c, row_logit m c]

/-- When every label is a class, every weakly fair execution of @main terminates without a fault with the result
    buffer at the shared tail of those two row vectors and both argument arrays as they began: the region leaves the
    two output arrays at the two row vectors (as columns), and the host operations after it are the tail's, on the
    column reshaped to a row. -/
theorem run_result (hL : LabelsInRange m) :
    θ_run defs (onTc (τ := τ) (main (F := Ideal))) ⟨m, fun _ => 0, ρ⟩ (fun r => ∀ c : Dev nD,
      r.2.mem ((c.tc : Thread nD τ).loc main_v18)
          = Cert.Tail.lossOf (F := Ideal) bcast_S_S2048 reducesTo_S2048_S_d0 h_S_ (sumRow m c) (logitRow m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨?_, ?_, ?_⟩) (run_main m ρ hL)
  · -- the result buffer is unscoped and no array of the pipeline: it ends as the host operations leave it
    exact ((h c).2 main_v18 (Pipeline.mem_restRefs_of main_v18 (by decide) (by decide))).trans (tail_result m c)
  · -- the logits are the pipeline's first array, an input: it ends at its region-entry contents, which no host
    -- operation before the region wrote
    exact ((h c).1 0).trans (((dats m 0 c).arrAt_in 0 rfl _).trans ((A_eq m c 0).trans (V_main_arg0 m c)))
  · -- the labels bypass the region (the pipeline stages their reshaped copy), and no host operation writes them
    exact ((h c).2 main_arg1 (Pipeline.mem_restRefs_of main_arg1 (by decide) (by decide))).trans
      (W_main_arg1 m (dats m) c)

end Cert.KernelIdeal.Body

end
-- ==== Proof.Ref.Values.lean ====
/-
  The reference's two row vectors and its result, over the extended reals.
-/
import proofs.«429971_j51582557225658_3_alg».proof.Proof.Gen.ReferenceIdeal.Read
import proofs.«429971_j51582557225658_3_alg».proof.Proof.Spec
import proofs.«429971_j51582557225658_3_alg».proof.Proof.Tail
import Idealize.ShloMosaic.Lib.ValueIdx
import Idealize.ShloMosaic.PureOps.Ideal.Laws
import Idealize.ShloMosaic.PureOps.Dims
import Idealize.ShloMosaic.Lib.Pipeline.Value
import Mathlib.Algebra.BigOperators.Group.Finset.Basic

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- A natural number below `2^31`, as a 32-bit word read signed, is itself. -/
private theorem toInt_ofNat_small (k : Nat) (hk : k < 2147483648) : (BitVec.ofNat 32 k).toInt = (k : Int) := by
  have hm : k % 2 ^ 32 = k := Nat.mod_eq_of_lt (by omega)
  rw [BitVec.toInt_eq_toNat_of_lt (by rw [BitVec.toNat_ofNat, hm]; omega), BitVec.toNat_ofNat, hm]

/-- A word that is not negative passes the wrap of a negative index unchanged. -/
private theorem select_wrap_of_nonneg (a u : BitVec 32) (h : 0 ≤ a.toInt) :
    Scalar.select (IntOp.cmpi .slt a 0#32) u a = a := by
  have hs : a.slt 0#32 = false := by
    rw [Bool.eq_false_iff]
    intro hc
    rw [BitVec.slt_iff_toInt_lt, BitVec.toInt_zero] at hc
    omega
  show (if BitVec.ofBool (a.slt 0#32) = 1 then u else a) = a
  rw [hs]
  exact if_neg (by decide)

/-- The start indices' first column at row `r` is `r` itself. -/
private theorem v13_row (x1 : (⟨S2048, .i32⟩ : BufTy).Contents (Elt Ideal)) (r : Fin 2048) :
    val_main_v13 (F := Ideal) x1 (ix2 r (0 : Fin 2)) = BitVec.ofNat 32 r.val := by
  unfold val_main_v13
  rw [concatenate_pair_apply_left (1 : Fin S2048x2.rank) _ _ concatenates_S2048x1_S2048x1_S2048x2_d1 (ix2 r (0 : Fin 2)) rfl
    (ix2 r (0 : Fin 1)) (fun b => by match b with | ⟨0, _⟩ => rfl | ⟨1, _⟩ => rfl)]
  rw [val_main_v11_apply, val_main_v5_apply, val_main_v2_apply, val_main_v1_apply, val_main_c_apply, val_main_v0_apply]
  show Scalar.select (IntOp.cmpi .slt (BitVec.ofNat 32 r.val) 0#32) _ (BitVec.ofNat 32 r.val) = _
  exact select_wrap_of_nonneg _ _ (by rw [toInt_ofNat_small _ (by omega)]; omega)

/-- The start indices' second column at row `r` is the row's label, when that is not negative. -/
private theorem v13_col (x1 : (⟨S2048, .i32⟩ : BufTy).Contents (Elt Ideal)) (r : Fin 2048)
    (h : 0 ≤ (x1 (ix1 r)).toInt) :
    val_main_v13 (F := Ideal) x1 (ix2 r (1 : Fin 2)) = x1 (ix1 r) := by
  unfold val_main_v13
  rw [concatenate_pair_apply_right (1 : Fin S2048x2.rank) _ _ concatenates_S2048x1_S2048x1_S2048x2_d1 (ix2 r (1 : Fin 2)) rfl rfl
    (ix2 r (0 : Fin 1)) (fun b hb => by match b with | ⟨0, _⟩ => rfl | ⟨1, _⟩ => exact absurd rfl hb) rfl]
  rw [val_main_v12_apply, val_main_v10_apply, val_main_v7_apply, val_main_v6_apply, val_main_c_1_apply]
  have hi : idx_main_v12 (ix2 r (0 : Fin 1)) = ix1 r := funext fun a => by match a with | ⟨0, _⟩ => rfl
  rw [hi]
  exact select_wrap_of_nonneg _ _ h

/-- The gather's operand index at result row `r`: row `r`, column the row's label (read as a natural number),
    when the label is a class. Both start components are already inside the operand, so neither clamp moves them. -/
private theorem operandIdx_eq (x1 : (⟨S2048, .i32⟩ : BufTy).Contents (Elt Ideal)) (r : Fin 2048)
    (h0 : 0 ≤ (x1 (ix1 r)).toInt) (hc : (x1 (ix1 r)).toInt.toNat < 50257) :
    gather_S2048x50257_S2048x2_S2048_n_01_n_n_01_1_11.operandIdx (ix1 r) (val_main_v13 (F := Ideal) x1)
      = ix2 r ⟨(x1 (ix1 r)).toInt.toNat, hc⟩ := by
  funext a
  refine Fin.ext ?_
  show gather_S2048x50257_S2048x2_S2048_n_01_n_n_01_1_11.start (ix1 r) (val_main_v13 (F := Ideal) x1) a
      + gather_S2048x50257_S2048x2_S2048_n_01_n_n_01_1_11.batchCoord (ix1 r) a
      + gather_S2048x50257_S2048x2_S2048_n_01_n_n_01_1_11.offCoord (ix1 r) a = _
  rw [GatherDims.batchCoord_eq_zero _ _ _ List.not_mem_nil]
  match a with
  | ⟨0, _⟩ =>
    rw [GatherDims.offCoord_eq_zero _ _ _ (fun hk => ((GatherDims.mem_sKept _ _).mp hk).1
      (show (⟨0, by decide⟩ : Fin S2048x50257.rank) ∈ gather_S2048x50257_S2048x2_S2048_n_01_n_n_01_1_11.collapsedSliceDims from by decide))]
    simp only [Nat.add_zero]
    unfold GatherDims.start
    rw [dif_pos (show (⟨0, by decide⟩ : Fin S2048x50257.rank) ∈ gather_S2048x50257_S2048x2_S2048_n_01_n_n_01_1_11.startIndexMap from by decide)]
    have hsi : gather_S2048x50257_S2048x2_S2048_n_01_n_n_01_1_11.siIdx (ix1 r)
        ⟨List.idxOf (⟨0, by decide⟩ : Fin S2048x50257.rank) gather_S2048x50257_S2048x2_S2048_n_01_n_n_01_1_11.startIndexMap,
          List.idxOf_lt_length_iff.2 (by decide)⟩ = ix2 r (0 : Fin 2) := by
      funext b; refine Fin.ext ?_
      match b with
      | ⟨0, _⟩ => rfl
      | ⟨1, _⟩ => rfl
    rw [hsi, v13_row, toInt_ofNat_small _ (by omega), Int.toNat_natCast]
    show min r.val (2048 - 1) = r.val
    exact Nat.min_eq_left (by omega)
  | ⟨1, _⟩ =>
    rw [GatherDims.offCoord_eq_zero _ _ _ (fun hk => ((GatherDims.mem_sKept _ _).mp hk).1
      (show (⟨1, by decide⟩ : Fin S2048x50257.rank) ∈ gather_S2048x50257_S2048x2_S2048_n_01_n_n_01_1_11.collapsedSliceDims from by decide))]
    simp only [Nat.add_zero]
    unfold GatherDims.start
    rw [dif_pos (show (⟨1, by decide⟩ : Fin S2048x50257.rank) ∈ gather_S2048x50257_S2048x2_S2048_n_01_n_n_01_1_11.startIndexMap from by decide)]
    have hsi : gather_S2048x50257_S2048x2_S2048_n_01_n_n_01_1_11.siIdx (ix1 r)
        ⟨List.idxOf (⟨1, by decide⟩ : Fin S2048x50257.rank) gather_S2048x50257_S2048x2_S2048_n_01_n_n_01_1_11.startIndexMap,
          List.idxOf_lt_length_iff.2 (by decide)⟩ = ix2 r (1 : Fin 2) := by
      funext b; refine Fin.ext ?_
      match b with
      | ⟨0, _⟩ => rfl
      | ⟨1, _⟩ => rfl
    rw [hsi, v13_col x1 r h0]
    show min (x1 (ix1 r)).toInt.toNat (50257 - 1) = (x1 (ix1 r)).toInt.toNat
    exact Nat.min_eq_left (by omega)

/-- The reference's row sum (its `reduce` of `exp (30 · x)` along the classes, from the zero word) is the sum of
    the scaled exponentials over all 50257 classes. -/
theorem sumexp_apply (x0 : (⟨S2048x50257, .f32⟩ : BufTy).Contents (Elt Ideal)) (r : Fin 2048) :
    (val_main_v22 (F := Ideal) x0 (ix1 r) : EReal) = Cert.Spec.rowSumExp x0 r := by
  rw [val_main_v22_apply]
  unfold Cert.Spec.rowSumExp
  -- the sum starts from the zero word, which reads as 0
  have h0 : (val_main_cst_5 (F := Ideal)) (Shape.Idx.first h_S_) = (0 : EReal) := by
    rw [val_main_cst_5_apply]; exact Ideal.ofBits_zero_f32
  rw [h0, zero_add]
  refine Finset.sum_congr rfl fun k _ => ?_
  have hi : idx_main_v22 (ix1 r) k = ix2 r k :=
    funext fun a => Fin.ext (by match a with | ⟨0, _⟩ => rfl | ⟨1, _⟩ => rfl)
  -- class `k`'s summand is the exponential of 30 times the logit
  rw [hi, val_main_v21_apply, val_main_v20_apply, val_main_v19_apply, val_main_cst_4_apply]
  rfl

/-- The reference's gathered entry `x[r, labels[r]]` — the row index from an iota, the column index the label, both
    passed through the wrap of a negative index, concatenated and gathered with clamping — is, for labels that are
    classes, the own-class logit. -/
theorem label_apply (x0 : (⟨S2048x50257, .f32⟩ : BufTy).Contents (Elt Ideal)) (x1 : (⟨S2048, .i32⟩ : BufTy).Contents (Elt Ideal))
    (h : Cert.Spec.InRange x1) (r : Fin 2048) :
    (val_main_v14 (F := Ideal) x0 x1 (ix1 r) : EReal) = Cert.Spec.labelLogit x0 x1 r := by
  obtain ⟨h0, h1⟩ := h r
  have hc : (x1 (ix1 r)).toInt.toNat < 50257 := by omega
  -- the left side: the gather reads the logits at row `r`, column the label
  have hL : val_main_v14 (F := Ideal) x0 x1 (ix1 r) = x0 (ix2 r ⟨(x1 (ix1 r)).toInt.toNat, hc⟩) := by
    unfold val_main_v14 Host.gather
    rw [operandIdx_eq x1 r h0 hc]
  rw [hL]
  -- the right side: of the indicator sum only the label's own term survives
  unfold Cert.Spec.labelLogit
  rw [Finset.sum_eq_single (⟨(x1 (ix1 r)).toInt.toNat, hc⟩ : Fin 50257)]
  · rw [if_pos]
    refine BitVec.eq_of_toInt_eq ?_
    rw [toInt_ofNat_small _ (by omega)]
    exact Int.toNat_of_nonneg h0
  · intro k _ hk
    rw [if_neg]
    intro hw
    apply hk
    refine Fin.ext ?_
    have := congrArg BitVec.toInt hw
    rw [toInt_ofNat_small _ (by have := k.isLt; omega)] at this
    show k.val = (x1 (ix1 r)).toInt.toNat
    omega
  · intro hn
    exact absurd (Finset.mem_univ _) hn

/-- The reference's result is the shared tail of its two row vectors. -/
theorem result_eq (x0 : (⟨S2048x50257, .f32⟩ : BufTy).Contents (Elt Ideal)) (x1 : (⟨S2048, .i32⟩ : BufTy).Contents (Elt Ideal)) :
    val_main_v33 (F := Ideal) x0 x1
      = Cert.Tail.lossOf (F := Ideal) bcast_S_S2048 reducesTo_S2048_S_d0 h_S_ (val_main_v22 (F := Ideal) x0) (val_main_v14 (F := Ideal) x0 x1) := by
  -- each stage is the composition of the earlier ones, and the tail is the same operations, in the same order, on the
  -- same words: the two sides are one term
  rfl

end Cert.ReferenceIdeal.RefValue

end
-- ==== Proof.lean ====
/-
  Two programs compute a margin-softmax loss of logits `x : 2048 × 50257` and class labels `lab : 2048`.
  Row by row both form
      S r = ∑ₖ exp (30 · x r k)        over all 50257 classes, and
      l r = x r (lab r),
  and then apply the same scalar function of `(S, l)`:
      n r = 30 · (l r − 0.4),   d r = exp (n r) + (S r − exp (30 · l r)),   result = −(∑ᵣ (n r − log (d r))) / 2048.

  The reference does this with whole-array operations. The kernel walks a 4 × 13 grid of 512 × 4096 blocks and
  carries, across the thirteen column blocks of a row tile, the two running sums `S` and `l` (the latter as
  `∑ₖ [k = lab r] · x r k`), writing them out at the last block. Thirteen blocks of 4096 lanes reach past the last
  column: the 2991 lanes beyond it are masked before the exponential with a constant that stands for `−∞`, whose
  exponential is `0`, and are never selected by the label test when the label is a class. So over the extended reals
  the kernel's sums are sums of the same terms as the reference's, in another order and with zeros added, and sums of
  extended reals commute and associate without any finiteness: the two `S` agree, the two `l` agree when
  `0 ≤ lab r < 50257`, and the results agree because the tail is one function.

  The pieces: the specification (Spec), the shared tail (Tail), the precondition read at the labels (PreRange), the
  reference's two row vectors (Ref/Values), and for the kernel its body's three control cases run symbolically
  (KI/Run), the proof data and the run of the whole program (KI/Frame), the masked lanes (KI/Masked), the carried
  sums in closed form (KI/PayValue, KI/BlockRead, KI/AccValue), the output arrays and the result (KI/Final,
  KI/Result). The word-level program's frame is the idealized one's, which is written for any float instance (K/).
-/
import proofs.«429971_j51582557225658_3_alg».proof.Defs
import proofs.«429971_j51582557225658_3_alg».proof.Proof.Gen.Kernel
import proofs.«429971_j51582557225658_3_alg».proof.Proof.Gen.KernelIdeal
import proofs.«429971_j51582557225658_3_alg».proof.Proof.Gen.ReferenceIdeal
import proofs.«429971_j51582557225658_3_alg».proof.Proof.Gen.ReferenceIdeal.Run
import proofs.«429971_j51582557225658_3_alg».proof.Proof.Gen.ReferenceIdeal.Read
import proofs.«429971_j51582557225658_3_alg».proof.Proof.Gen.Pre_finite_inputs
import proofs.«429971_j51582557225658_3_alg».proof.Proof.K.Range
import proofs.«429971_j51582557225658_3_alg».proof.Proof.K.Frame.Launch
import proofs.«429971_j51582557225658_3_alg».proof.Proof.KI.Range
import proofs.«429971_j51582557225658_3_alg».proof.Proof.KI.Result
import proofs.«429971_j51582557225658_3_alg».proof.Proof.Ref.Values
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs to the end, faults nowhere and leaves its arguments unchanged: the precondition makes
    every label a class, which is what its frame asks. -/
theorem frame_k : Cert.frame_Kernel := fun m ρ hpre =>
  Cert.Kernel.Body.frame m ρ (Cert.Kernel.Body.labelsInRange_of_pre m hpre)

/-- The idealized kernel likewise. -/
theorem frame_ki : Cert.frame_KernelIdeal := fun m ρ hpre =>
  Cert.KernelIdeal.Body.frame m ρ (Cert.KernelIdeal.Body.labelsInRange_of_pre m hpre)

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the mask's fill constant is named, and the name denotes `⊥`. -/
theorem preserves : Cert.preserves_Kernel_KernelIdeal :=
  IdealRules.named_const.statement Cert.KernelIdeal.κ "neg_big" .f32 0xF149F2CA#32 ⊥ rfl

/-- Over the extended reals the two programs end with equal results: both results are the shared tail of the row
    vectors `S` and `l` of the common arguments. -/
theorem algebraic : Cert.algebraic_KernelIdeal_ReferenceIdeal := by
  intro m ρ m' ρ' hpre hagree
  have hL := Cert.KernelIdeal.Body.labelsInRange_of_pre m hpre
  refine ⟨_, Cert.KernelIdeal.Body.run_result m ρ hL, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v33_eq (F := Ideal) _ _).trans ?_
  rw [Cert.ReferenceIdeal.RefValue.result_eq, (hagree c).1, (hagree c).2]
  -- the reference's two row vectors are the specification's, of the kernel's own arguments
  have hS : Cert.ReferenceIdeal.Read.val_main_v22 (F := Ideal) (m ((c.tc : Thread Cert.KernelIdeal.nD Cert.KernelIdeal.τ).loc Cert.KernelIdeal.main_arg0))
      = Cert.KernelIdeal.Body.sumRow m c :=
    funext fun i => by rw [eq_ix1 i]; exact Cert.ReferenceIdeal.RefValue.sumexp_apply _ (i 0)
  have hl : Cert.ReferenceIdeal.Read.val_main_v14 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.Body.logitRow m c :=
    funext fun i => by
      rw [eq_ix1 i]
      exact Cert.ReferenceIdeal.RefValue.label_apply _ _ (Cert.PreRange.inRange_of_pre _ _ (hpre c)) (i 0)
  rw [hS, hl]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
